-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x720x1280 : Shape := ⟨4, ![16, 1, 720, 1280]⟩
abbrev S_ : Shape := ⟨0, ![]⟩

class Facts : Prop where
  bcast_S_S16x1x720x1280 : S_.BroadcastsInDim S16x1x720x1280 (![] : Fin 0 → Fin S16x1x720x1280.rank)
  reducesTo_S16x1x720x1280_S_d0_1_2_3 : S16x1x720x1280.ReducesTo [0, 1, 2, 3] S_
  h_S_ : 0 < S_.numel

variable [Facts]

def fn {F : FTy → Type} [FloatOps F] (main_arg0 : FVec F S16x1x720x1280 .f32) (main_arg1 : IVec S16x1x720x1280 32) : IVec S_ 1 :=
  let main_v0 : FVec F S16x1x720x1280 .f32 := Host.absf main_arg0
  let main_cst : FVec F S_ .f32 := constant S_ .f32 0x7F800000#32
  let main_v1 : FVec F S16x1x720x1280 .f32 := broadcastInDim S16x1x720x1280 ![] bcast_S_S16x1x720x1280 main_cst
  let main_v2 : IVec S16x1x720x1280 1 := cmpf .olt main_v0 main_v1
  let main_c : IVec S_ 1 := constantI S_ 1 1#1
  let main_v3 : IVec S_ 1 := (fun x v => Host.reduce IntOp.andi x v reducesTo_S16x1x720x1280_S_d0_1_2_3 h_S_) main_v2 main_c
  let main_c_0 : IVec S_ 32 := constantI S_ 32 0#32
  let main_v4 : IVec S16x1x720x1280 32 := broadcastInDim S16x1x720x1280 ![] bcast_S_S16x1x720x1280 main_c_0
  let main_v5 : IVec S16x1x720x1280 1 := cmpi .sge main_arg1 main_v4
  let main_c_1 : IVec S_ 32 := constantI S_ 32 8#32
  let main_v6 : IVec S16x1x720x1280 32 := broadcastInDim S16x1x720x1280 ![] bcast_S_S16x1x720x1280 main_c_1
  let main_v7 : IVec S16x1x720x1280 1 := cmpi .sle main_arg1 main_v6
  let main_c_2 : IVec S_ 32 := constantI S_ 32 255#32
  let main_v8 : IVec S16x1x720x1280 32 := broadcastInDim S16x1x720x1280 ![] bcast_S_S16x1x720x1280 main_c_2
  let main_v9 : IVec S16x1x720x1280 1 := cmpi .sge main_arg1 main_v8
  let main_v10 : IVec S16x1x720x1280 1 := ori main_v7 main_v9
  let main_v11 : IVec S16x1x720x1280 1 := andi main_v5 main_v10
  let main_c_3 : IVec S_ 1 := constantI S_ 1 1#1
  let main_v12 : IVec S_ 1 := (fun x v => Host.reduce IntOp.andi x v reducesTo_S16x1x720x1280_S_d0_1_2_3 h_S_) main_v11 main_c_3
  let main_v13 : IVec S_ 1 := andi main_v3 main_v12
  main_v13
-- ==== Kernel.lean ====
abbrev S16x1x720x1280 : Shape := ⟨4, ![16, 1, 720, 1280]⟩
abbrev S16x921600 : Shape := ⟨2, ![16, 921600]⟩
abbrev S16x128 : Shape := ⟨2, ![16, 128]⟩
abbrev S8x57600 : Shape := ⟨2, ![8, 57600]⟩
abbrev S8x128 : Shape := ⟨2, ![8, 128]⟩
abbrev S8 : Shape := ⟨1, ![8]⟩
abbrev S8x1 : Shape := ⟨2, ![8, 1]⟩
abbrev S_ : Shape := ⟨0, ![]⟩
abbrev S16x8 : Shape := ⟨2, ![16, 8]⟩
abbrev S16x1 : Shape := ⟨2, ![16, 1]⟩
abbrev S16 : Shape := ⟨1, ![16]⟩
abbrev S16x9 : Shape := ⟨2, ![16, 9]⟩
abbrev S16x8x1 : Shape := ⟨3, ![16, 8, 1]⟩
abbrev S16x1x8 : Shape := ⟨3, ![16, 1, 8]⟩
abbrev S16x8x8 : Shape := ⟨3, ![16, 8, 8]⟩
abbrev S8x8 : Shape := ⟨2, ![8, 8]⟩
abbrev S1x8x8 : Shape := ⟨3, ![1, 8, 8]⟩

abbrev nBuf : Space → Nat
  | .hbm => 88
  | .vmem => 18
  | .smem => 0
  | _ => 0

abbrev bufTy : (tb : Table) → Fin (tcTables nBuf tb) → BufTy
  | .hbm, ⟨0, _⟩ => ⟨S16x1x720x1280, .f32⟩
  | .hbm, ⟨1, _⟩ => ⟨S16x1x720x1280, .i32⟩
  | .hbm, ⟨2, _⟩ => ⟨S16x921600, .f32⟩
  | .hbm, ⟨3, _⟩ => ⟨S16x921600, .i32⟩
  | .hbm, ⟨4, _⟩ => ⟨S16x128, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S_, .f32⟩
  | .hbm, ⟨11, _⟩ => ⟨S16x128, .f32⟩
  | .hbm, ⟨12, _⟩ => ⟨S16x128, .i1⟩
  | .hbm, ⟨13, _⟩ => ⟨S16x128, .f32⟩
  | .hbm, ⟨14, _⟩ => ⟨S_, .f32⟩
  | .hbm, ⟨15, _⟩ => ⟨S16x128, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x8, .f32⟩
  | .hbm, ⟨26, _⟩ => ⟨S_, .f32⟩
  | .hbm, ⟨27, _⟩ => ⟨S_, .f32⟩
  | .hbm, ⟨28, _⟩ => ⟨S16x1, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x9, .f32⟩
  | .hbm, ⟨41, _⟩ => ⟨S16x8, .f32⟩
  | .hbm, ⟨42, _⟩ => ⟨S16x8, .f32⟩
  | .hbm, ⟨43, _⟩ => ⟨S16x8x1, .f32⟩
  | .hbm, ⟨44, _⟩ => ⟨S16x1x8, .f32⟩
  | .hbm, ⟨45, _⟩ => ⟨S16x8x8, .f32⟩
  | .hbm, ⟨46, _⟩ => ⟨S16x8x8, .f32⟩
  | .hbm, ⟨47, _⟩ => ⟨S16x8x8, .f32⟩
  | .hbm, ⟨48, _⟩ => ⟨S16x8x8, .f32⟩
  | .hbm, ⟨49, _⟩ => ⟨S16x8x1, .f32⟩
  | .hbm, ⟨50, _⟩ => ⟨S16x1x8, .f32⟩
  | .hbm, ⟨51, _⟩ => ⟨S16x8x8, .f32⟩
  | .hbm, ⟨52, _⟩ => ⟨S16x8x8, .f32⟩
  | .hbm, ⟨53, _⟩ => ⟨S16x8x8, .f32⟩
  | .hbm, ⟨54, _⟩ => ⟨S8x8, .i32⟩
  | .hbm, ⟨55, _⟩ => ⟨S8x8, .i32⟩
  | .hbm, ⟨56, _⟩ => ⟨S_, .i32⟩
  | .hbm, ⟨57, _⟩ => ⟨S8x8, .i32⟩
  | .hbm, ⟨58, _⟩ => ⟨S8x8, .i32⟩
  | .hbm, ⟨59, _⟩ => ⟨S8x8, .i1⟩
  | .hbm, ⟨60, _⟩ => ⟨S8x8, .f32⟩
  | .hbm, ⟨61, _⟩ => ⟨S_, .f32⟩
  | .hbm, ⟨62, _⟩ => ⟨S8x8, .f32⟩
  | .hbm, ⟨63, _⟩ => ⟨S8x8, .f32⟩
  | .hbm, ⟨64, _⟩ => ⟨S1x8x8, .f32⟩
  | .hbm, ⟨65, _⟩ => ⟨S16x8x8, .f32⟩
  | .hbm, ⟨66, _⟩ => ⟨S16x8x8, .f32⟩
  | .hbm, ⟨67, _⟩ => ⟨S_, .f32⟩
  | .hbm, ⟨68, _⟩ => ⟨S16x8x8, .f32⟩
  | .hbm, ⟨69, _⟩ => ⟨S16x8x8, .f32⟩
  | .hbm, ⟨70, _⟩ => ⟨S_, .f32⟩
  | .hbm, ⟨71, _⟩ => ⟨S16x8x8, .f32⟩
  | .hbm, ⟨72, _⟩ => ⟨S16x8x8, .f32⟩
  | .hbm, ⟨73, _⟩ => ⟨S16x8x8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S16x8x8, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S8x57600, .f32⟩
  | .local _ .vmem, ⟨1, _⟩ => ⟨S8x57600, .f32⟩
  | .local _ .vmem, ⟨2, _⟩ => ⟨S8x57600, .i32⟩
  | .local _ .vmem, ⟨3, _⟩ => ⟨S8x57600, .i32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x57600, .f32⟩
  | .local _ .vmem, ⟨9, _⟩ => ⟨S8x57600, .f32⟩
  | .local _ .vmem, ⟨10, _⟩ => ⟨S8x57600, .i32⟩
  | .local _ .vmem, ⟨11, _⟩ => ⟨S8x57600, .i32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | _, _ => ⟨S16x1x720x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x57600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x57600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x57600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x57600 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S16x1x720x1280_S16x921600 : S16x1x720x1280.ShapeCasts S16x921600
  inb_S8x128_S8x128_0_0 : ∀ a, (![0, 0] : Fin 2 → Nat) a + S8x128.size a ≤ S8x128.size a
  h_S8x128 : 0 < S8x128.numel
  inb_S8x57600_S8x57600_0_0 : ∀ a, (![0, 0] : Fin 2 → Nat) a + S8x57600.size a ≤ S8x57600.size a
  h_S8x57600 : 0 < S8x57600.numel
  shapeCasts_S8x57600_S8x57600 : S8x57600.ShapeCasts S8x57600
  iota_S8x128_d1_w32 : S8x128.Iotas .tc 32 [1]
  reduces_S8x57600_S8 : S8x57600.Reduces [1] S8
  shapeCasts_S8_S8x1 : S8.ShapeCasts S8x1
  natLt_1_32 : 1 < 32
  broadcasts_S8x1_S8x128 : S8x1.Broadcasts S8x128
  shapeCasts_S8x128_S8x128 : S8x128.ShapeCasts S8x128
  bcast_S_S16x128 : S_.BroadcastsInDim S16x128 (![] : Fin 0 → Fin S16x128.rank)
  slices_S8x128_o0_1_S8x1 : S8x128.Slices ![0, 1] S8x1
  shapeCasts_S8x1_S8x1 : S8x1.ShapeCasts S8x1
  broadcasts_S8x1_S8x57600 : S8x1.Broadcasts S8x57600
  slices_S8x128_o0_2_S8x1 : S8x128.Slices ![0, 2] S8x1
  slices_S8x128_o0_3_S8x1 : S8x128.Slices ![0, 3] S8x1
  slices_S8x128_o0_4_S8x1 : S8x128.Slices ![0, 4] S8x1
  slices_S8x128_o0_5_S8x1 : S8x128.Slices ![0, 5] S8x1
  slices_S8x128_o0_6_S8x1 : S8x128.Slices ![0, 6] S8x1
  slices_S8x128_o0_7_S8x1 : S8x128.Slices ![0, 7] S8x1
  slices_S8x128_o0_8_S8x1 : S8x128.Slices ![0, 8] S8x1
  inb_S8x128_S8x1_0_0 : ∀ a, (![0, 0] : Fin 2 → Nat) a + S8x1.size a ≤ S8x128.size a
  h_S8x1 : 0 < S8x1.numel
  reducesTo_S16x921600_S_d0_1 : S16x921600.ReducesTo [0, 1] S_
  h_S_ : 0 < S_.numel
  slices_S16x128_S16x8_0_1 : S16x128.Slices ![0, 1] S16x8
  reducesTo_S16x8_S_d0_1 : S16x8.ReducesTo [0, 1] S_
  slices_S16x128_S16x1_0_0 : S16x128.Slices ![0, 0] S16x1
  shapeCasts_S16x1_S16 : S16x1.ShapeCasts S16
  reducesTo_S16_S_d0 : S16.ReducesTo [0] S_
  slices_S16x128_S16x9_0_0 : S16x128.Slices ![0, 0] S16x9
  slices_S16x9_S16x8_0_1 : S16x9.Slices ![0, 1] S16x8
  bcast_S16x8_S16x8x1_0_1 : S16x8.BroadcastsInDim S16x8x1 (![0, 1] : Fin 2 → Fin S16x8x1.rank)
  bcast_S16x8_S16x1x8_0_2 : S16x8.BroadcastsInDim S16x1x8 (![0, 2] : Fin 2 → Fin S16x1x8.rank)
  bcast_S16x8x1_S16x8x8_0_1_2 : S16x8x1.BroadcastsInDim S16x8x8 (![0, 1, 2] : Fin 3 → Fin S16x8x8.rank)
  bcast_S16x1x8_S16x8x8_0_1_2 : S16x1x8.BroadcastsInDim S16x8x8 (![0, 1, 2] : Fin 3 → Fin S16x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S16x8x8_0_1_2 : S1x8x8.BroadcastsInDim S16x8x8 (![0, 1, 2] : Fin 3 → Fin S16x8x8.rank)
  bcast_S_S16x8x8 : S_.BroadcastsInDim S16x8x8 (![] : Fin 0 → Fin S16x8x8.rank)
  reducesTo_S16x8x8_S_d0_1_2 : S16x8x8.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x57600.size a ≤ S16x921600.size a
  hwx0_0 : ∀ i : grid0.Coords, EltTy.bits .f32 = 32 ∨ (Rect.block (s := S16x921600) S8x57600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x57600.size a ≤ S16x921600.size a
  hwx0_1 : ∀ i : grid0.Coords, EltTy.bits .i32 = 32 ∨ (Rect.block (s := S16x921600) S8x57600.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x57600.size a ≤ S16x921600.size a
  hwx1_0 : ∀ i : grid1.Coords, EltTy.bits .f32 = 32 ∨ (Rect.block (s := S16x921600) S8x57600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x57600.size a ≤ S16x921600.size a
  hwx1_1 : ∀ i : grid1.Coords, EltTy.bits .i32 = 32 ∨ (Rect.block (s := S16x921600) S8x57600.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S16x128.size a
  hwx1_2 : ∀ i : grid1.Coords, EltTy.bits .f32 = 32 ∨ (Rect.block (s := S16x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S16x128.size a
  hwx1_3 : ∀ i : grid1.Coords, EltTy.bits .f32 = 32 ∨ (Rect.block (s := S16x128) S8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S16x128.size a
  hwx1_4 : ∀ i : grid1.Coords, EltTy.bits .f32 = 32 ∨ (Rect.block (s := S16x128) S8x128.size (cc1_transform_4 i) (hinb1_4 i)).WholeWords (EltTy.packing .f32)

variable [Facts₀]

abbrev win0_0 : Pipeline.Window sig grid0 :=
  Pipeline.Window.ofSpec (Memref.whole main_v0) S8x57600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x57600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S8x57600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x57600.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x1x720x1280 : Shape := ⟨4, ![16, 1, 720, 1280]⟩
abbrev S16x921600 : Shape := ⟨2, ![16, 921600]⟩
abbrev S_ : Shape := ⟨0, ![]⟩
abbrev S16 : Shape := ⟨1, ![16]⟩
abbrev S16x1 : Shape := ⟨2, ![16, 1]⟩
abbrev S14745600 : Shape := ⟨1, ![14745600]⟩
abbrev S144 : Shape := ⟨1, ![144]⟩
abbrev S14745600x1 : Shape := ⟨2, ![14745600, 1]⟩
abbrev S16x9 : Shape := ⟨2, ![16, 9]⟩
abbrev S16x8 : Shape := ⟨2, ![16, 8]⟩
abbrev S16x8x1 : Shape := ⟨3, ![16, 8, 1]⟩
abbrev S16x1x8 : Shape := ⟨3, ![16, 1, 8]⟩
abbrev S16x8x8 : Shape := ⟨3, ![16, 8, 8]⟩
abbrev S8x8 : Shape := ⟨2, ![8, 8]⟩
abbrev S1x8x8 : Shape := ⟨3, ![1, 8, 8]⟩

abbrev nBuf : Space → Nat
  | .hbm => 134
  | .vmem => 0
  | .smem => 0
  | _ => 0

abbrev hbmTy0_0 (i : Nat) : BufTy := match i % 128 with
  | 0 => ⟨S16x1x720x1280, .f32⟩
  | 1 => ⟨S16x1x720x1280, .i32⟩
  | 2 => ⟨S16x921600, .f32⟩
  | 3 => ⟨S16x921600, .i32⟩
  | 4 => ⟨S_, .i32⟩
  | 5 => ⟨S16x921600, .i32⟩
  | 6 => ⟨S16x921600, .i1⟩
  | 7 => ⟨S_, .i32⟩
  | 8 => ⟨S_, .i32⟩
  | 9 => ⟨S16x921600, .i32⟩
  | 10 => ⟨S16x921600, .i32⟩
  | 11 => ⟨S16, .i32⟩
  | 12 => ⟨S16x1, .i32⟩
  | 13 => ⟨S_, .i32⟩
  | 14 => ⟨S16x1, .i32⟩
  | 15 => ⟨S16x1, .i32⟩
  | 16 => ⟨S16x921600, .i32⟩
  | 17 => ⟨S16x921600, .i32⟩
  | 18 => ⟨S14745600, .i32⟩
  | 19 => ⟨S14745600, .f32⟩
  | 20 => ⟨S_, .f32⟩
  | 21 => ⟨S14745600, .f32⟩
  | 22 => ⟨S_, .f32⟩
  | 23 => ⟨S144, .f32⟩
  | 24 => ⟨S14745600x1, .i32⟩
  | 25 => ⟨S144, .f32⟩
  | 26 => ⟨S_, .f32⟩
  | 27 => ⟨S144, .f32⟩
  | 28 => ⟨S14745600x1, .i32⟩
  | 29 => ⟨S144, .f32⟩
  | 30 => ⟨S_, .f32⟩
  | 31 => ⟨S144, .f32⟩
  | 32 => ⟨S144, .f32⟩
  | 33 => ⟨S144, .f32⟩
  | 34 => ⟨S_, .i32⟩
  | 35 => ⟨S14745600, .i32⟩
  | 36 => ⟨S14745600, .i1⟩
  | 37 => ⟨S_, .i32⟩
  | 38 => ⟨S14745600, .i32⟩
  | 39 => ⟨S14745600, .i32⟩
  | 40 => ⟨S14745600, .i32⟩
  | 41 => ⟨S14745600x1, .i32⟩
  | 42 => ⟨S14745600, .f32⟩
  | 43 => ⟨S14745600, .f32⟩
  | 44 => ⟨S14745600, .f32⟩
  | 45 => ⟨S_, .f32⟩
  | 46 => ⟨S14745600, .f32⟩
  | 47 => ⟨S14745600, .f32⟩
  | 48 => ⟨S_, .f32⟩
  | 49 => ⟨S14745600, .f32⟩
  | 50 => ⟨S14745600, .f32⟩
  | 51 => ⟨S14745600, .f32⟩
  | 52 => ⟨S_, .f32⟩
  | 53 => ⟨S144, .f32⟩
  | 54 => ⟨S14745600x1, .i32⟩
  | 55 => ⟨S144, .f32⟩
  | 56 => ⟨S_, .f32⟩
  | 57 => ⟨S144, .f32⟩
  | 58 => ⟨S144, .f32⟩
  | 59 => ⟨S144, .f32⟩
  | 60 => ⟨S16x9, .f32⟩
  | 61 => ⟨S16x8, .f32⟩
  | 62 => ⟨S_, .f32⟩
  | 63 => ⟨S144, .f32⟩
  | 64 => ⟨S144, .i1⟩
  | 65 => ⟨S16x9, .i1⟩
  | 66 => ⟨S16x8, .i1⟩
  | 67 => ⟨S16x8, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .i1⟩
  | 78 => ⟨S16x8, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16x9, .f32⟩
  | 88 => ⟨S16x8, .f32⟩
  | 89 => ⟨S16x8x1, .f32⟩
  | 90 => ⟨S16x1x8, .f32⟩
  | 91 => ⟨S16x8x8, .f32⟩
  | 92 => ⟨S16x8x8, .f32⟩
  | 93 => ⟨S16x8x8, .f32⟩
  | 94 => ⟨S16x8x8, .f32⟩
  | 95 => ⟨S16x8x1, .f32⟩
  | 96 => ⟨S16x1x8, .f32⟩
  | 97 => ⟨S16x8x8, .f32⟩
  | 98 => ⟨S16x8x8, .f32⟩
  | 99 => ⟨S16x8x8, .f32⟩
  | 100 => ⟨S8x8, .i32⟩
  | 101 => ⟨S8x8, .i32⟩
  | 102 => ⟨S_, .i32⟩
  | 103 => ⟨S8x8, .i32⟩
  | 104 => ⟨S8x8, .i32⟩
  | 105 => ⟨S8x8, .i1⟩
  | 106 => ⟨S8x8, .f32⟩
  | 107 => ⟨S_, .f32⟩
  | 108 => ⟨S8x8, .f32⟩
  | 109 => ⟨S8x8, .f32⟩
  | 110 => ⟨S1x8x8, .f32⟩
  | 111 => ⟨S16x8x8, .f32⟩
  | 112 => ⟨S16x8x8, .f32⟩
  | 113 => ⟨S_, .f32⟩
  | 114 => ⟨S16x8x8, .f32⟩
  | 115 => ⟨S16x8x8, .f32⟩
  | 116 => ⟨S_, .f32⟩
  | 117 => ⟨S16x8x8, .f32⟩
  | 118 => ⟨S16x8x8, .f32⟩
  | 119 => ⟨S16x8x8, .f32⟩
  | 120 => ⟨S_, .f32⟩
  | 121 => ⟨S_, .f32⟩
  | 122 => ⟨S_, .f32⟩
  | 123 => ⟨S_, .i1⟩
  | 124 => ⟨S16x8x8, .f32⟩
  | 125 => ⟨S_, .f32⟩
  | 126 => ⟨S_, .f32⟩
  | 127 => ⟨S_, .f32⟩
  | _ => ⟨S16x1x720x1280, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S16x1x720x1280, .f32⟩

abbrev hbmTy (i : Nat) : BufTy := match i / 128 with
  | 0 => hbmTy0_0 i
  | 1 => hbmTy0_1 i
  | _ => ⟨S16x1x720x1280, .f32⟩

abbrev bufTy : (tb : Table) → Fin (tcTables nBuf tb) → BufTy
  | .hbm, ⟨i, _⟩ => hbmTy i
  | _, _ => ⟨S16x1x720x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_19 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_20 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_21 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_22 : Ref sig .tc := ⟨.hbm, 113, rfl⟩
abbrev main_v85 : Ref sig .tc := ⟨.hbm, 114, rfl⟩
abbrev main_v86 : Ref sig .tc := ⟨.hbm, 115, rfl⟩
abbrev main_cst_23 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_cst_25 : Ref sig .tc := ⟨.hbm, 122, rfl⟩
abbrev main_v91 : Ref sig .tc := ⟨.hbm, 123, rfl⟩
abbrev main_v92 : Ref sig .tc := ⟨.hbm, 124, rfl⟩
abbrev main_cst_26 : Ref sig .tc := ⟨.hbm, 125, rfl⟩
abbrev main_v93 : Ref sig .tc := ⟨.hbm, 126, rfl⟩
abbrev main_cst_27 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_28 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  shapeCasts_S16x1x720x1280_S16x921600 : S16x1x720x1280.ShapeCasts S16x921600
  bcast_S_S16x921600 : S_.BroadcastsInDim S16x921600 (![] : Fin 0 → Fin S16x921600.rank)
  bcast_S16_S16x1_0 : S16.BroadcastsInDim S16x1 (![0] : Fin 1 → Fin S16x1.rank)
  bcast_S_S16x1 : S_.BroadcastsInDim S16x1 (![] : Fin 0 → Fin S16x1.rank)
  bcast_S16x1_S16x921600_0_1 : S16x1.BroadcastsInDim S16x921600 (![0, 1] : Fin 2 → Fin S16x921600.rank)
  shapeCasts_S16x921600_S14745600 : S16x921600.ShapeCasts S14745600
  bcast_S_S14745600 : S_.BroadcastsInDim S14745600 (![] : Fin 0 → Fin S14745600.rank)
  bcast_S_S144 : S_.BroadcastsInDim S144 (![] : Fin 0 → Fin S144.rank)
  bcast_S14745600_S14745600x1_0 : S14745600.BroadcastsInDim S14745600x1 (![0] : Fin 1 → Fin S14745600x1.rank)
  shapeCasts_S144_S16x9 : S144.ShapeCasts S16x9
  slices_S16x9_S16x8_0_1 : S16x9.Slices ![0, 1] S16x8
  reducesTo_S16x8_S_d0_1 : S16x8.ReducesTo [0, 1] S_
  h_S_ : 0 < S_.numel
  reducesTo_S16x1x720x1280_S_d0_1_2_3 : S16x1x720x1280.ReducesTo [0, 1, 2, 3] S_
  bcast_S16x8_S16x8x1_0_1 : S16x8.BroadcastsInDim S16x8x1 (![0, 1] : Fin 2 → Fin S16x8x1.rank)
  bcast_S16x8_S16x1x8_0_2 : S16x8.BroadcastsInDim S16x1x8 (![0, 2] : Fin 2 → Fin S16x1x8.rank)
  bcast_S16x8x1_S16x8x8_0_1_2 : S16x8x1.BroadcastsInDim S16x8x8 (![0, 1, 2] : Fin 3 → Fin S16x8x8.rank)
  bcast_S16x1x8_S16x8x8_0_1_2 : S16x1x8.BroadcastsInDim S16x8x8 (![0, 1, 2] : Fin 3 → Fin S16x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S16x8x8_0_1_2 : S1x8x8.BroadcastsInDim S16x8x8 (![0, 1, 2] : Fin 3 → Fin S16x8x8.rank)
  bcast_S_S16x8x8 : S_.BroadcastsInDim S16x8x8 (![] : Fin 0 → Fin S16x8x8.rank)
  reducesTo_S16x8x8_S_d0_1_2 : S16x8x8.ReducesTo [0, 1, 2] S_
  scatter_S144_S14745600x1_S14745600_n_0_0_1_wf : ScatterDims.WF S144 S14745600x1 S14745600 [] [0] [0] 1
  gather_S144_S14745600x1_S14745600_n_0_n_n_0_1_1_wf : GatherDims.WF S144 S14745600x1 S14745600 [] [0] [] [0] [] 1 ![1]

variable [Facts₀]

def scatter_S144_S14745600x1_S14745600_n_0_0_1 : ScatterDims S144 S14745600x1 S14745600 where
  updateWindowDims := []
  insertedWindowDims := [0]
  scatterDimsToOperandDims := [0]
  indexVectorDim := 1
  wf := scatter_S144_S14745600x1_S14745600_n_0_0_1_wf
def gather_S144_S14745600x1_S14745600_n_0_n_n_0_1_1 : GatherDims S144 S14745600x1 S14745600 where
  offsetDims := []
  collapsedSliceDims := [0]
  operandBatchingDims := []
  startIndicesBatchingDims := []
  startIndexMap := [0]
  indexVectorDim := 1
  sliceSizes := ![1]
  wf := gather_S144_S14745600x1_S14745600_n_0_n_n_0_1_1_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
The statistics both programs compute, stated once over the two flattened inputs: `x` (16 rows of
921600 pixel features, extended reals) and `g` (the pixels' label words).

For a row `b` and a label `l`: `cnt g b l` counts the row's pixels carrying the label and `tot x g b l`
adds their features up; the per-label mean is `tot / max cnt 1`, a label is present when `cnt > 0`, and
a pixel's hinge is `(max (|x - mean| - 1/2) 0)²`.  The pull term adds, over the pixels of the labels
1 … 8, hinge / max cnt 1 weighted by presence.  Nothing here assumes the features finite: the only
laws used on the extended reals are those of a commutative monoid with zero, plus distributivity over
sums of non-negative terms.
-/

noncomputable section

open scoped BigOperators

namespace Cert.Spec

open Idealize.ShloMosaic Idealize.ShloMosaic.ValueIdx

/-- The flattened inputs: one row per image. -/
abbrev SX : Shape := ⟨2, ![16, 921600]⟩
/-- A table with one row per image and 128 lanes, of which lanes 1 … 8 are the labels'. -/
abbrev ST : Shape := ⟨2, ![16, 128]⟩
/-- The labels' slice of such a table. -/
abbrev SL : Shape := ⟨2, ![16, 8]⟩

/-- The word of label `l`. -/
abbrev lbl (l : ℕ) : BitVec 32 := BitVec.ofNat 32 l

/-- What the precondition says of a label word: it is one of 0 … 8, or an ignore label (255 and above). -/
def LabelOk (w : BitVec 32) : Prop := 0 ≤ w.toInt ∧ (w.toInt ≤ 8 ∨ 255 ≤ w.toInt)

/-- The float constants the two programs spell. -/
abbrev f0 : EReal := Ideal.ofBits .f32 0x00000000#32
abbrev f1 : EReal := Ideal.ofBits .f32 0x3F800000#32
abbrev fhalf : EReal := Ideal.ofBits .f32 0x3F000000#32

theorem f0_eq : f0 = 0 := Ideal.ofBits_zero_f32
theorem f1_eq : f1 = 1 := by
  show Ideal.ofBits .f32 0x3F800000#32 = 1
  simp [Ideal.ofBits, Ideal.ieee, -EReal.coe_mul]; norm_num

/-- How many pixels of row `b` carry label `l` (a sum of ones). -/
def cnt (g : IVec SX 32) (b : Fin 16) (l : ℕ) : EReal :=
  ∑ n : Fin 921600, if g (ix2 b n) = lbl l then f1 else f0

/-- The sum of the features of row `b`'s pixels carrying label `l`. -/
def tot (x : FVec Ideal SX .f32) (g : IVec SX 32) (b : Fin 16) (l : ℕ) : EReal :=
  ∑ n : Fin 921600, if g (ix2 b n) = lbl l then x (ix2 b n) else f0

/-- A row index of a table, as a number below 16. -/
abbrev rowOf (i : ST.Idx) : Fin 16 := ⟨(i 0).val, idx2_lt0 i⟩

/-- The count table: lane `l` of row `b` holds `cnt g b l` for the labels 1 … 8, and zero elsewhere. -/
def cntTab (g : IVec SX 32) : FVec Ideal ST .f32 := fun i =>
  if 1 ≤ (i 1).val ∧ (i 1).val ≤ 8 then cnt g (rowOf i) (i 1).val else 0

/-- The sum table, laid out like the count table. -/
def totTab (x : FVec Ideal SX .f32) (g : IVec SX 32) : FVec Ideal ST .f32 := fun i =>
  if 1 ≤ (i 1).val ∧ (i 1).val ≤ 8 then tot x g (rowOf i) (i 1).val else 0

/-- The mean table: sum over count, the count raised to one where no pixel carries the label. -/
def meanTab (c s : FVec Ideal ST .f32) : FVec Ideal ST .f32 := fun i => Ideal.div (s i) (max (c i) f1)

/-- The presence table: one where the count is positive, zero elsewhere. -/
def vfTab (c : FVec Ideal ST .f32) : FVec Ideal ST .f32 := fun i =>
  FloatOps.uitofp (F := Ideal) .f32 (FloatOps.cmpf (F := Ideal) .ogt (c i) f0)

/-- The weight table: presence over count. -/
def wTab (c : FVec Ideal ST .f32) : FVec Ideal ST .f32 := fun i => Ideal.div (vfTab c i) (max (c i) f1)

/-- A pixel's entry of a table: the lane of its label when that is one of 1 … 8 (the largest label tested
    first), zero otherwise. -/
def pick (t : FVec Ideal ST .f32) (b : Fin 16) (w : BitVec 32) : EReal :=
  if w = lbl 8 then t (ix2 b (8 : Fin 128)) else
  if w = lbl 7 then t (ix2 b (7 : Fin 128)) else
  if w = lbl 6 then t (ix2 b (6 : Fin 128)) else
  if w = lbl 5 then t (ix2 b (5 : Fin 128)) else
  if w = lbl 4 then t (ix2 b (4 : Fin 128)) else
  if w = lbl 3 then t (ix2 b (3 : Fin 128)) else
  if w = lbl 2 then t (ix2 b (2 : Fin 128)) else
  if w = lbl 1 then t (ix2 b (1 : Fin 128)) else f0

/-- The hinge of a feature against a mean: `(max (|x - μ| - 1/2) 0)²`. -/
def hinge (x μ : EReal) : EReal :=
  max (FloatOps.absf (F := Ideal) (φ := .f32) (x - μ) - fhalf) f0 * max (FloatOps.absf (F := Ideal) (φ := .f32) (x - μ) - fhalf) f0

/-- The pull table: lane 0 of row `b` holds the row's weighted hinges, every other lane zero. -/
def pullTab (x : FVec Ideal SX .f32) (g : IVec SX 32) (mt wt : FVec Ideal ST .f32) : FVec Ideal ST .f32 := fun i =>
  if (i 1).val = 0 then
    ∑ n : Fin 921600, hinge (x (ix2 (rowOf i) n)) (pick mt (rowOf i) (g (ix2 (rowOf i) n))) * pick wt (rowOf i) (g (ix2 (rowOf i) n))
  else 0

/-- The label-`l` hinge sum of row `b` against the mean `μ`. -/
def hsum (x : FVec Ideal SX .f32) (g : IVec SX 32) (b : Fin 16) (l : ℕ) (μ : EReal) : EReal :=
  ∑ n : Fin 921600, if g (ix2 b n) = lbl l then hinge (x (ix2 b n)) μ else f0

/-! ## The part the two programs share word for word: from the label means, the presence flags, the fallback
    value and the pull sum to the loss -/

abbrev S_ : Shape := ⟨0, ![]⟩
abbrev S16x8x1 : Shape := ⟨3, ![16, 8, 1]⟩
abbrev S16x1x8 : Shape := ⟨3, ![16, 1, 8]⟩
abbrev S16x8x8 : Shape := ⟨3, ![16, 8, 8]⟩
abbrev S8x8 : Shape := ⟨2, ![8, 8]⟩
abbrev S1x8x8 : Shape := ⟨3, ![1, 8, 8]⟩

/-- The shape relations the shared operations take (each program states its own copies; a proposition has one proof). -/
structure TailFacts : Prop where
  red2 : SL.ReducesTo [0, 1] S_
  hS : 0 < S_.numel
  b1 : SL.BroadcastsInDim S16x8x1 (![0, 1] : Fin 2 → Fin S16x8x1.rank)
  b2 : SL.BroadcastsInDim S16x1x8 (![0, 2] : Fin 2 → Fin S16x1x8.rank)
  b3 : S16x8x1.BroadcastsInDim S16x8x8 (![0, 1, 2] : Fin 3 → Fin S16x8x8.rank)
  b4 : S16x1x8.BroadcastsInDim S16x8x8 (![0, 1, 2] : Fin 3 → Fin S16x8x8.rank)
  b5 : S_.BroadcastsInDim S8x8 (![] : Fin 0 → Fin S8x8.rank)
  b6 : S8x8.BroadcastsInDim S1x8x8 (![1, 2] : Fin 2 → Fin S1x8x8.rank)
  b7 : S1x8x8.BroadcastsInDim S16x8x8 (![0, 1, 2] : Fin 3 → Fin S16x8x8.rank)
  b8 : S_.BroadcastsInDim S16x8x8 (![] : Fin 0 → Fin S16x8x8.rank)
  red3 : S16x8x8.ReducesTo [0, 1, 2] S_

/-- They hold: each is decided on the literal shapes. -/
theorem tailFacts : TailFacts :=
  ⟨by decide, by decide, by decide, by decide, by decide, by decide, by decide, by decide, by decide, by decide, by decide⟩

/-- The pull loss: the pull sum over the number of present labels when there is one, the fallback otherwise. -/
def pullLoss {F : FTy → Type} [FloatOps F] (f : TailFacts) (vf : FVec F SL .f32) (fb ps : FVec F S_ .f32) : FVec F S_ .f32 :=
  let np : FVec F S_ .f32 := Host.reduceAdd vf (constant S_ .f32 0x00000000#32) f.red2 f.hS
  mulf (select (cmpf .ogt np (constant S_ .f32 0x00000000#32))
      (Host.divf ps (maximumf np (constant S_ .f32 0x3F800000#32))) fb)
    (constant S_ .f32 0x3F800000#32)

/-- The push loss: over the ordered pairs of distinct present labels of a row, the squared hinge
    `(max (6 - |μᵢ - μⱼ|) 0)²`, averaged; the fallback when there is no such pair. -/
def pushLoss {F : FTy → Type} [FloatOps F] (f : TailFacts) (means vf : FVec F SL .f32) (fb : FVec F S_ .f32) : FVec F S_ .f32 :=
  let d : FVec F S16x8x8 .f32 := Host.absf (subf
    (broadcastInDim S16x8x8 ![0, 1, 2] f.b3 (broadcastInDim S16x8x1 ![0, 1] f.b1 means))
    (broadcastInDim S16x8x8 ![0, 1, 2] f.b4 (broadcastInDim S16x1x8 ![0, 2] f.b2 means)))
  let pr : FVec F S16x8x8 .f32 := mulf
    (broadcastInDim S16x8x8 ![0, 1, 2] f.b3 (broadcastInDim S16x8x1 ![0, 1] f.b1 vf))
    (broadcastInDim S16x8x8 ![0, 1, 2] f.b4 (broadcastInDim S16x1x8 ![0, 2] f.b2 vf))
  let off : FVec F S8x8 .f32 := subf (broadcastInDim S8x8 ![] f.b5 (constant S_ .f32 0x3F800000#32))
    (uitofp (F := F) .f32 (cmpi .eq (addi (iotaInDim S8x8 32 0) (broadcastInDim S8x8 ![] f.b5 (constantI S_ 32 0#32))) (iotaInDim S8x8 32 1)))
  let pair : FVec F S16x8x8 .f32 := mulf pr (broadcastInDim S16x8x8 ![0, 1, 2] f.b7 (broadcastInDim S1x8x8 ![1, 2] f.b6 off))
  let h : FVec F S16x8x8 .f32 := maximumf (subf (broadcastInDim S16x8x8 ![] f.b8 (constant S_ .f32 0x40C00000#32)) d)
    (broadcastInDim S16x8x8 ![] f.b8 (constant S_ .f32 0x00000000#32))
  let ploss : FVec F S16x8x8 .f32 := mulf h h
  let npush : FVec F S_ .f32 := Host.reduceAdd pair (constant S_ .f32 0x00000000#32) f.red3 f.hS
  mulf (select (cmpf .ogt npush (constant S_ .f32 0x00000000#32))
      (Host.divf (Host.reduceAdd (mulf ploss pair) (constant S_ .f32 0x00000000#32) f.red3 f.hS)
        (maximumf npush (constant S_ .f32 0x3F800000#32))) fb)
    (constant S_ .f32 0x3F800000#32)

/-- The loss: push plus pull. -/
def loss {F : FTy → Type} [FloatOps F] (f : TailFacts) (means vf : FVec F SL .f32) (fb ps : FVec F S_ .f32) : FVec F S_ .f32 :=
  addf (pushLoss f means vf fb) (pullLoss f vf fb ps)

/-! ## The four inputs of that shared part, as functions of the two flattened inputs -/

/-- The label means, labels 1 … 8. -/
def means (x : FVec Ideal SX .f32) (g : IVec SX 32) : FVec Ideal SL .f32 := fun j =>
  Ideal.div (tot x g ⟨(j 0).val, idx2_lt0 j⟩ ((j 1).val + 1)) (max (cnt g ⟨(j 0).val, idx2_lt0 j⟩ ((j 1).val + 1)) f1)

/-- The presence flags, labels 1 … 8. -/
def present (g : IVec SX 32) : FVec Ideal SL .f32 := fun j =>
  FloatOps.uitofp (F := Ideal) .f32 (FloatOps.cmpf (F := Ideal) (φ := .f32) .ogt (cnt g ⟨(j 0).val, idx2_lt0 j⟩ ((j 1).val + 1)) f0)

/-- The pull sum as the kernel adds it up: pixel by pixel, the hinge against the pixel's own label's mean times that
    label's weight. -/
def pullK (x : FVec Ideal SX .f32) (g : IVec SX 32) : EReal :=
  ∑ b : Fin 16, ∑ n : Fin 921600,
    hinge (x (ix2 b n)) (pick (meanTab (cntTab g) (totTab x g)) b (g (ix2 b n))) * pick (wTab (cntTab g)) b (g (ix2 b n))

/-- The pull sum as the reference adds it up: label by label, the label's hinge sum over its count, times presence. -/
def pullR (x : FVec Ideal SX .f32) (g : IVec SX 32) : EReal :=
  ∑ b : Fin 16, ∑ j : Fin 8,
    Ideal.div (hsum x g b (j.val + 1) (Ideal.div (tot x g b (j.val + 1)) (max (cnt g b (j.val + 1)) f1))) (max (cnt g b (j.val + 1)) f1)
      * FloatOps.uitofp (F := Ideal) .f32 (FloatOps.cmpf (F := Ideal) (φ := .f32) .ogt (cnt g b (j.val + 1)) f0)

end Cert.Spec

end
-- ==== Proof.PreFacts.lean ====
import proofs.«410523_j1022202216834_3_alg».proof.Pre_finite_inputs
import proofs.«410523_j1022202216834_3_alg».proof.Proof.Spec
import Idealize.ShloMosaic.Lib.ReduceAll
import Idealize.ShloMosaic.Lib.StableHlo.Predicate

/-!
What the precondition says of the label input: every label word is one of 0 … 8 or an ignore label
(255 and above), read signed.
-/

noncomputable section

namespace Cert.PreFacts

open Idealize.ShloMosaic Idealize.ShloMosaic.ValueIdx Cert.Spec

/-- The scalar shape has one index. -/
instance : Subsingleton Cert.Pre_finite_inputs.S_.Idx := ⟨fun _ _ => funext fun d => d.elim0⟩

/-- The three literal bounds, read signed. -/
private theorem toInt_zero : (0#32 : BitVec 32).toInt = 0 := by decide
private theorem toInt_eight : (8#32 : BitVec 32).toInt = 8 := by decide
private theorem toInt_255 : (255#32 : BitVec 32).toInt = 255 := by decide

/-- One element of the label test: a word that is at least 0 and either at most 8 or at least 255, signed. -/
private theorem labelOk_of_bits (w : BitVec 32)
    (e : IntOp.andi (IntOp.cmpi .sge w 0#32) (IntOp.ori (IntOp.cmpi .sle w 8#32) (IntOp.cmpi .sge w 255#32)) = 1#1) :
    LabelOk w := by
  obtain ⟨h0, h1⟩ := IntOp.andi_eq_one.1 e
  rw [IntOp.cmpi_sge, toInt_zero] at h0
  rcases IntOp.ori_eq_one.1 h1 with h8 | h255
  · rw [IntOp.cmpi_sle, toInt_eight] at h8
    exact ⟨h0, Or.inl h8⟩
  · rw [IntOp.cmpi_sge, toInt_255] at h255
    exact ⟨h0, Or.inr h255⟩

/-- The precondition's second conjunct, element by element. -/
theorem labels_of_pre [Cert.Pre_finite_inputs.Facts]
    (x : FVec Ideal Cert.Pre_finite_inputs.S16x1x720x1280 .f32) (g : IVec Cert.Pre_finite_inputs.S16x1x720x1280 32)
    (h : Cert.Pre_finite_inputs.fn (F := Ideal) x g = fun _ => 1#1) :
    ∀ j, LabelOk (g j) := by
  intro j
  -- the result word is the conjunction of the two all-reductions; keep the second
  have e := congrFun h ValueIdx.ix0
  dsimp only [Cert.Pre_finite_inputs.fn] at e
  have e2 := (IntOp.andi_eq_one.1 e).2
  -- an all-reduction that is 1 met a 1 at every element
  have e3 := Host.reduce_andi_all _ _ _ _ _ e2 j
  -- at one element the broadcast constants are the literals
  exact labelOk_of_bits (g j) e3

end Cert.PreFacts

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.StatsCnt.lean ====
import proofs.«410523_j1022202216834_3_alg».proof.Proof.Gen.KernelIdeal.Frame
import proofs.«410523_j1022202216834_3_alg».proof.Proof.Spec
import proofs.«410523_j1022202216834_3_alg».proof.Proof.LibSumSplit
import Idealize.ShloMosaic.Lib.Pipeline.Value
import Idealize.ShloMosaic.Lib.ValueLayout
import Idealize.ShloMosaic.PureOps.Ideal.Laws

/-!
The first kernel's count array, as a function of the label array it is entered with: after its 32 grid
points (two groups of eight rows, sixteen tiles of 57600 pixels each) lane `l` of row `b` holds the
number of the row's pixels with label `l`, for the labels 1 … 8; the other lanes hold zero.

The road: (1) what the body stores at a point is the block's previous contents plus, in lane `l` of row `r`,
the number of the tile's pixels of row `r` carrying label `l` (each label's count column times the label's
lane mask, added up from zeros); (2) so after the `j`-th tile of a row group the block holds the sum of the
first `j` tiles' counts; (3) the last tile's point writes the block back, the two row groups' blocks cover
the array, and the sixteen tile counts of a row add up to the row's count, the row's pixels being the
sixteen runs of 57600 pixels in order. Only `c * 1 = c`, `c * 0 = 0` and `x + 0 = x` are used of the
extended reals.
-/

set_option maxRecDepth 16384

noncomputable section

namespace Cert.KernelIdeal.StatsCnt

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

/-! ## Words and layouts at an index -/

/-- A select on the one-bit equality test of two words is the `if` on their equality. -/
theorem select_cmpi_eq {α : Type} {w : ℕ} (x y : BitVec w) (a b : α) :
    Scalar.select (IntOp.cmpi .eq x y) a b = if x = y then a else b := by
  unfold Scalar.select IntOp.cmpi
  by_cases h : x = y
  · simp [h]
  · have hb : (x == y) = false := by simpa using h
    simp [h, hb]

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A tile's counts and the block the body stores -/

/-- How many pixels of row `r` of a tile carry the word `w` (a sum of ones). -/
def tileCnt (g : IVec S8x57600 32) (r : Fin 8) (w : BitVec 32) : EReal :=
  ∑ k : Fin 57600, if g (ix2 r k) = w then f1 else f0

variable {F : FTy → Type} [FloatOps F]

/-- The lane numbers of a table block. -/
abbrev lanes : IVec S8x128 32 := iota .tc S8x128 32 [1] iota_S8x128_d1_w32

/-- A pixel mask's count column, spread over the lanes: one where the mask is set, zero elsewhere, added up along each
    row, the row's sum repeated in every lane. -/
def col (m : IVec S8x57600 1) : FVec F S8x128 .f32 :=
  broadcastTo S8x128 (shapeCast S8x1 (multiReduction .add [1] S8
    (select m (broadcast S8x57600 (Scalar.ofBits (F := F) .f32 0x3F800000#32)) (broadcast S8x57600 (Scalar.ofBits (F := F) .f32 0x00000000#32)))
    0x00000000#32 reduces_S8x57600_S8 (.inl rfl) rfl) shapeCasts_S8_S8x1) broadcasts_S8x1_S8x128

/-- The lane mask of a word: one in the lane whose number is the word, zero in the others. -/
def laneMask (v7 : IVec S8x128 32) (w : BitVec 32) : FVec F S8x128 .f32 :=
  sitofp .f32 (extui 32 (cmpi .eq v7 (broadcast S8x128 w)) natLt_1_32)

/-- The count column of the pixels carrying `w`, read at `(r, q)`: the row's tile count, in every lane. -/
theorem col_apply (g' g : IVec S8x57600 32) (hg : g' = g) (w : BitVec 32) (r : Fin 8) (q : Fin 128) :
    col (F := Ideal) (cmpi .eq g' (broadcast S8x57600 w)) (ix2 r q) = tileCnt g r w := by
  subst hg
  unfold col
  refine (broadcastTo_a1_ab_apply _ _ r q).trans ?_
  refine (shapeCast_a_a1_apply _ _ r 0).trans ?_
  refine (Ideal.multiReduction_add_single _ _ reduces_S8x57600_S8 (.inl rfl) rfl (ix1 r)).trans ?_
  show ∑ k : Fin 57600, _ = _
  refine Finset.sum_congr rfl fun k _ => ?_
  have e : reduces_S8x57600_S8.lift (ix1 r) k = ix2 r k := by
    funext a; match a with | ⟨0, _⟩ => rfl | ⟨1, _⟩ => rfl
  rw [e]
  exact select_cmpi_eq _ _ _ _

/-- The lane mask of the word of `l`, read at `(r, q)`: one when `q = l`, zero otherwise. -/
theorem laneMask_apply (l : ℕ) (hl : l < 128) (r : Fin 8) (q : Fin 128) :
    laneMask (F := Ideal) lanes (BitVec.ofNat 32 l) (ix2 r q) = if q.val = l then 1 else 0 := by
  unfold laneMask
  show FloatOps.sitofp (F := Ideal) .f32 ((IntOp.cmpi .eq (lanes (ix2 r q)) (BitVec.ofNat 32 l)).setWidth 32) = _
  have e : lanes (ix2 r q) = BitVec.ofNat 32 q.val := iota_single_apply _ _ _ _ _ _
  rw [e]
  have hq := q.isLt
  by_cases h : q.val = l
  · rw [h, if_pos rfl]
    have e1 : IntOp.cmpi .eq (BitVec.ofNat 32 l) (BitVec.ofNat 32 l) = 1#1 := by simp [IntOp.cmpi]
    rw [e1]
    show (((BitVec.setWidth 32 1#1).toInt : ℝ) : EReal) = 1
    rw [show (BitVec.setWidth 32 1#1).toInt = 1 from by decide]
    norm_num
  · rw [if_neg h]
    have hne : ¬ (BitVec.ofNat 32 q.val = BitVec.ofNat 32 l) := by
      intro hh
      have := congrArg BitVec.toNat hh
      simp only [BitVec.toNat_ofNat] at this
      omega
    have e0 : IntOp.cmpi .eq (BitVec.ofNat 32 q.val) (BitVec.ofNat 32 l) = 0#1 := by
      have hb : (BitVec.ofNat 32 q.val == BitVec.ofNat 32 l) = false := by simpa using hne
      simp [IntOp.cmpi, hb]
    rw [e0]
    show (((BitVec.setWidth 32 0#1).toInt : ℝ) : EReal) = 0
    rw [show (BitVec.setWidth 32 0#1).toInt = 0 from by decide]
    norm_num

/-- The count block the body stores: the eight labels' columns times their lane masks accumulated from zeros, label 1
    first, added to the block's previous contents. -/
def cntPay (x1 : Vec F S8x57600 .i32) (prev : Vec F S8x128 .f32) : FVec F S8x128 .f32 :=
  k0_pay1
    (k0_pay33 (k0_pay6 x1) lanes
      (k0_pay24 (k0_pay6 x1) lanes
        (k0_pay16 (k0_pay6 x1) lanes (k0_pay9 x1) (k0_pay12 x1))
        (k0_pay19 (k0_pay6 x1)))
      (k0_pay27 (k0_pay6 x1)) k0_pay29)
    (k0_pay37 lanes) (k0_pay38 (k0_pay6 x1)) prev

/-- One label's step read at an index: what was accumulated, plus the label's tile count in the label's lane. -/
theorem step_apply (acc : FVec Ideal S8x128 .f32) (g' g : IVec S8x57600 32) (hg : g' = g) (l : ℕ) (hl : l < 128)
    (r : Fin 8) (q : Fin 128) :
    addf acc (mulf (col (cmpi .eq g' (broadcast S8x57600 (BitVec.ofNat 32 l)))) (laneMask lanes (BitVec.ofNat 32 l))) (ix2 r q)
      = acc (ix2 r q) + tileCnt g r (lbl l) * (if q.val = l then 1 else 0) := by
  rw [addf_apply, mulf_apply, col_apply g' g hg, laneMask_apply l hl]

theorem cast6 (g : IVec S8x57600 32) : k0_pay6 (F := Ideal) g = g := shapeCast_self _ _

/-- Label 1, from zeros. -/
theorem pay9_apply (g : IVec S8x57600 32) (r : Fin 8) (q : Fin 128) :
    k0_pay9 (F := Ideal) g (ix2 r q) = f0 + tileCnt g r (lbl 1) * (if q.val = 1 then 1 else 0) := by
  show addf (broadcast S8x128 (Scalar.ofBits (F := Ideal) .f32 0x00000000#32))
    (mulf (col (cmpi .eq (k0_pay6 (F := Ideal) g) (broadcast S8x57600 (BitVec.ofNat 32 1)))) (laneMask lanes (BitVec.ofNat 32 1))) (ix2 r q) = _
  exact step_apply _ _ g (cast6 g) 1 (by decide) r q

/-- Labels 2 and 3. -/
theorem pay16_apply (g : IVec S8x57600 32) (v27 : FVec Ideal S8x128 .f32) (r : Fin 8) (q : Fin 128) :
    k0_pay16 (F := Ideal) (k0_pay6 (F := Ideal) g) lanes v27 (k0_pay12 (F := Ideal) g) (ix2 r q)
      = v27 (ix2 r q) + tileCnt g r (lbl 2) * (if q.val = 2 then 1 else 0) + tileCnt g r (lbl 3) * (if q.val = 3 then 1 else 0) := by
  show addf (addf v27 (mulf (col (cmpi .eq (k0_pay6 (F := Ideal) g) (broadcast S8x57600 (BitVec.ofNat 32 2)))) (laneMask lanes (BitVec.ofNat 32 2))))
    (mulf (col (cmpi .eq (k0_pay6 (F := Ideal) g) (broadcast S8x57600 (BitVec.ofNat 32 3)))) (laneMask lanes (BitVec.ofNat 32 3))) (ix2 r q) = _
  rw [step_apply _ _ g (cast6 g) 3 (by decide), step_apply _ _ g (cast6 g) 2 (by decide)]

/-- Labels 4 and 5. -/
theorem pay24_apply (g : IVec S8x57600 32) (v69 : FVec Ideal S8x128 .f32) (r : Fin 8) (q : Fin 128) :
    k0_pay24 (F := Ideal) (k0_pay6 (F := Ideal) g) lanes v69 (k0_pay19 (F := Ideal) (k0_pay6 (F := Ideal) g)) (ix2 r q)
      = v69 (ix2 r q) + tileCnt g r (lbl 4) * (if q.val = 4 then 1 else 0) + tileCnt g r (lbl 5) * (if q.val = 5 then 1 else 0) := by
  show addf (addf v69 (mulf (col (cmpi .eq (k0_pay6 (F := Ideal) g) (broadcast S8x57600 (BitVec.ofNat 32 4)))) (laneMask lanes (BitVec.ofNat 32 4))))
    (mulf (col (cmpi .eq (k0_pay6 (F := Ideal) g) (broadcast S8x57600 (BitVec.ofNat 32 5)))) (laneMask lanes (BitVec.ofNat 32 5))) (ix2 r q) = _
  rw [step_apply _ _ g (cast6 g) 5 (by decide), step_apply _ _ g (cast6 g) 4 (by decide)]

/-- Labels 6 and 7. -/
theorem pay33_apply (g : IVec S8x57600 32) (v111 : FVec Ideal S8x128 .f32) (r : Fin 8) (q : Fin 128) :
    k0_pay33 (F := Ideal) (k0_pay6 (F := Ideal) g) lanes v111 (k0_pay27 (F := Ideal) (k0_pay6 (F := Ideal) g)) k0_pay29 (ix2 r q)
      = v111 (ix2 r q) + tileCnt g r (lbl 6) * (if q.val = 6 then 1 else 0) + tileCnt g r (lbl 7) * (if q.val = 7 then 1 else 0) := by
  show addf (addf v111 (mulf (col (cmpi .eq (k0_pay6 (F := Ideal) g) (broadcast S8x57600 (BitVec.ofNat 32 6)))) (laneMask lanes (BitVec.ofNat 32 6))))
    (mulf (col (cmpi .eq (k0_pay6 (F := Ideal) g) (broadcast S8x57600 (BitVec.ofNat 32 7)))) (laneMask lanes (BitVec.ofNat 32 7))) (ix2 r q) = _
  rw [step_apply _ _ g (cast6 g) 7 (by decide), step_apply _ _ g (cast6 g) 6 (by decide)]

/-- Label 8, and the previous contents added. -/
theorem pay1_apply (g : IVec S8x57600 32) (v153 prev : FVec Ideal S8x128 .f32) (r : Fin 8) (q : Fin 128) :
    k0_pay1 (F := Ideal) v153 (k0_pay37 (F := Ideal) lanes) (k0_pay38 (F := Ideal) (k0_pay6 (F := Ideal) g)) prev (ix2 r q)
      = prev (ix2 r q) + (v153 (ix2 r q) + tileCnt g r (lbl 8) * (if q.val = 8 then 1 else 0)) := by
  show addf (shapeCast S8x128 prev shapeCasts_S8x128_S8x128)
    (addf v153 (mulf (col (cmpi .eq (k0_pay6 (F := Ideal) g) (broadcast S8x57600 (BitVec.ofNat 32 8)))) (laneMask lanes (BitVec.ofNat 32 8)))) (ix2 r q) = _
  rw [addf_apply, step_apply _ _ g (cast6 g) 8 (by decide), shapeCast_self]

/-- What a tile adds to the count block at `(r, q)`: the row's tile count of label `q` in the lanes 1 … 8, nothing elsewhere. -/
def upd (g : IVec S8x57600 32) (r : Fin 8) (q : Fin 128) : EReal :=
  if 1 ≤ q.val ∧ q.val ≤ 8 then tileCnt g r (lbl q.val) else 0

/-- THE STORED BLOCK at an index: the previous contents plus the tile's addend. Only `c * 1 = c`, `c * 0 = 0` and
    `x + 0 = x` are used: laws of every extended real. -/
theorem cntPay_apply (g : IVec S8x57600 32) (prev : FVec Ideal S8x128 .f32) (r : Fin 8) (q : Fin 128) :
    cntPay (F := Ideal) g prev (ix2 r q) = prev (ix2 r q) + upd g r q := by
  unfold cntPay upd
  rw [pay1_apply, pay33_apply, pay24_apply, pay16_apply, pay9_apply, f0_eq]
  have hq : q.val = 1 ∨ q.val = 2 ∨ q.val = 3 ∨ q.val = 4 ∨ q.val = 5 ∨ q.val = 6 ∨ q.val = 7 ∨ q.val = 8
      ∨ ¬(1 ≤ q.val ∧ q.val ≤ 8) := by omega
  rcases hq with h | h | h | h | h | h | h | h | h
  · simp [h]
  · simp [h]
  · simp [h]
  · simp [h]
  · simp [h]
  · simp [h]
  · simp [h]
  · simp [h]
  · have h1 : q.val ≠ 1 := by omega
    have h2 : q.val ≠ 2 := by omega
    have h3 : q.val ≠ 3 := by omega
    have h4 : q.val ≠ 4 := by omega
    have h5 : q.val ≠ 5 := by omega
    have h6 : q.val ≠ 6 := by omega
    have h7 : q.val ≠ 7 := by omega
    have h8 : q.val ≠ 8 := by omega
    simp [h, h1, h2, h3, h4, h5, h6, h7, h8]

/-! ## What each control case leaves in the count block -/

theorem hz : (![0, 0] : Fin 2 → Nat) = fun _ => 0 := funext fun a => by fin_cases a <;> rfl

/-- A point that is not the first of its row group: the block's running contents plus the tile's columns. -/
theorem out_B (c : Dev nD) (i : grid0.Coords) (a2 : Memref sig .tc .vmem S8x57600 .f32) (h2 : a2.IsWhole)
    (a3 : Memref sig .tc .vmem S8x57600 .i32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S8x57600 .f32) (x1 : Vec F S8x57600 .i32) (xo2 xo3 : Vec F S8x128 .f32) :
    out0_B_2 c i a2 h2 a3 h3 a4 h4 a5 h5 hc x0 x1 xo2 xo3 = cntPay x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz]
  simp only [View.readAt_eq_ld, h3.read_unread, h4.read_unread, View.ld_unit_zero (S := S8x128) hz,
    View.ld_unit_zero (S := S8x57600) hz]
  rfl

/-- The first point of a row group: the block is first set to zeros, read back, and the tile's columns added. -/
theorem out_A (c : Dev nD) (i : grid0.Coords) (a2 : Memref sig .tc .vmem S8x57600 .f32) (h2 : a2.IsWhole)
    (a3 : Memref sig .tc .vmem S8x57600 .i32) (h3 : a3.IsWhole) (a4 : Memref sig .tc .vmem S8x128 .f32) (h4 : a4.IsWhole)
    (a5 : Memref sig .tc .vmem S8x128 .f32) (h5 : a5.IsWhole) (hc : cond0_0 i)
    (x0 : Vec F S8x57600 .f32) (x1 : Vec F S8x57600 .i32) :
    out0_A_2 c i a2 h2 a3 h3 a4 h4 a5 h5 hc x0 x1 = cntPay x1 (k0_pay3 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S8x128) hz]
  simp only [View.readAt_eq_ld, h3.read_unread, View.ld_unit_zero (S := S8x128) hz,
    View.ld_unit_zero (S := S8x57600) hz, View.readCov_unit_zero (S := S8x128) _ hz]
  rfl

/-! ## The running contents of the count block -/

variable (V : (c : Dev nD) → (b : Ref sig .tc) → Buf (Elt Ideal) ((c : Thread nD τ).loc b))

/-- The label block the body reads at point `t`. -/
abbrev gblk (c : Dev nD) (t : Fin cfg0.N) : Vec Ideal S8x57600 .i32 := iblk0 V c 1 t

/-- The label array the kernel is entered with. -/
abbrev garr (c : Dev nD) : IVec SX 32 := V c main_v1

/-- Point `n`'s addend to the count block at `(r, q)` (zero past the grid). -/
def addend (c : Dev nD) (n : ℕ) (r : Fin 8) (q : Fin 128) : EReal :=
  if h : n < cfg0.N then upd (gblk V c ⟨n, h⟩) r q else 0

theorem zero_apply (j : S8x128.Idx) : k0_pay3 (F := Ideal) j = 0 := Ideal.ofBits_zero_f32

/-- After the first point of a row group the block holds that point's addend. -/
theorem after_first (c : Dev nD) (t : Fin cfg0.N) (h0 : t.val % 16 = 0) (r : Fin 8) (q : Fin 128) :
    ((outsAt0 V c t.val t.isLt).1 : Vec Ideal S8x128 .f32) (ix2 r q) = addend V c t.val r q := by
  rw [outsAt0_A V c t h0]
  dsimp only
  refine (congrFun (out_A (F := Ideal) c (grid0.coords t) (ms0_0 t) (hs0_0 t) (ms0_1 t) (hs0_1 t) (ms0_2 t) (hs0_2 t)
    (ms0_3 t) (hs0_3 t) ((hcond0_0 t).mpr h0) (iblk0 V c 0 t) (iblk0 V c 1 t)) (ix2 r q)).trans ?_
  refine (cntPay_apply (gblk V c t) (k0_pay3 (F := Ideal)) r q).trans ?_
  rw [zero_apply, zero_add]
  unfold addend
  rw [dif_pos t.isLt]

/-- After any other point it holds what the point before left plus the point's addend. -/
theorem after_next (c : Dev nD) (t : Fin cfg0.N) (h0 : ¬t.val % 16 = 0) (r : Fin 8) (q : Fin 128) :
    ((outsAt0 V c t.val t.isLt).1 : Vec Ideal S8x128 .f32) (ix2 r q)
      = ((outsAt0 V c (t.val - 1) (Nat.lt_of_le_of_lt (Nat.sub_le _ _) t.isLt)).1 : Vec Ideal S8x128 .f32) (ix2 r q)
        + addend V c t.val r q := by
  rw [outsAt0_B V c t h0]
  dsimp only
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (iblk0 V c 0 t) (iblk0 V c 1 t)
    (outsAt0 V c (t.val - 1) (Nat.lt_of_le_of_lt (Nat.sub_le _ _) t.isLt)).1
    (outsAt0 V c (t.val - 1) (Nat.lt_of_le_of_lt (Nat.sub_le _ _) t.isLt)).2) (ix2 r q)).trans ?_
  refine (cntPay_apply (gblk V c t) _ r q).trans ?_
  unfold addend
  rw [dif_pos t.isLt]

/-- THE INVARIANT: after point `n` the block holds the sum of the addends of its row group's points up to `n`. -/
theorem after_point (c : Dev nD) : ∀ (n : ℕ) (h : n < cfg0.N) (r : Fin 8) (q : Fin 128),
    ((outsAt0 V c n h).1 : Vec Ideal S8x128 .f32) (ix2 r q)
      = ∑ s ∈ Finset.range (n % 16 + 1), addend V c (16 * (n / 16) + s) r q
  | 0, h, r, q => by
    rw [after_first V c ⟨0, h⟩ rfl r q]
    simp
  | n + 1, h, r, q => by
    by_cases h0 : (n + 1) % 16 = 0
    · rw [after_first V c ⟨n + 1, h⟩ h0 r q, h0, Finset.sum_range_one]
      show addend V c (n + 1) r q = _
      rw [show 16 * ((n + 1) / 16) + 0 = n + 1 by omega]
    · rw [after_next V c ⟨n + 1, h⟩ h0 r q]
      show ((outsAt0 V c n _).1 : Vec Ideal S8x128 .f32) (ix2 r q) + addend V c (n + 1) r q = _
      rw [show (n + 1) % 16 + 1 = (n % 16 + 1) + 1 by omega, Finset.sum_range_succ,
        show 16 * ((n + 1) / 16) = 16 * (n / 16) by omega,
        show 16 * (n / 16) + (n % 16 + 1) = n + 1 by omega, after_point c n (Nat.lt_of_succ_lt h) r q]

/-! ## From the blocks to the arrays -/

/-- The windows' index maps, decided over the grid: the label window's block at point `t` is block
    `(t / 16, t % 16)`, the count window's `(t / 16, 0)`. -/
theorem idx_facts : ∀ t : Fin cfg0.N, win0_1.index t (0 : Fin 2) = t.val / 16 ∧ win0_1.index t (1 : Fin 2) = t.val % 16
    ∧ win0_2.index t (0 : Fin 2) = t.val / 16 ∧ win0_2.index t (1 : Fin 2) = 0 :=
  (by decide +kernel : ∀ t : Fin grid0.N, win0_1.index t (0 : Fin 2) = t.val / 16 ∧ win0_1.index t (1 : Fin 2) = t.val % 16
    ∧ win0_2.index t (0 : Fin 2) = t.val / 16 ∧ win0_2.index t (1 : Fin 2) = 0)

/-- The label block at point `t` is rows `8 (t / 16) …`, pixels `57600 (t % 16) …` of the label array. -/
theorem gblk_apply (c : Dev nD) (t : Fin cfg0.N) (r : Fin 8) (k : Fin 57600) (b : Fin 16) (n : Fin 921600)
    (hb : b.val = 8 * (t.val / 16) + r.val) (hn : n.val = 57600 * (t.val % 16) + k.val) :
    gblk V c t (ix2 r k) = garr V c (ix2 b n) := by
  obtain ⟨e0, e1, -, -⟩ := idx_facts t
  show iblk0 V c 1 t (ix2 r k) = V c main_v1 (ix2 b n)
  unfold iblk0
  rw [View.read_apply]
  show V c main_v1 _ = V c main_v1 _
  refine congrArg (V c main_v1) ?_
  funext a
  apply Fin.ext
  match a with
  | ⟨0, _⟩ => show win0_1.index t (0 : Fin 2) * 8 + 1 * r.val = b.val; rw [e0, hb]; omega
  | ⟨1, _⟩ => show win0_1.index t (1 : Fin 2) * 57600 + 1 * k.val = n.val; rw [e1, hn]; omega

/-- The sixteen tiles' addends of a row group add up to the row's count: the pixels of a row are the sixteen
    runs of 57600 pixels, tile after tile. -/
theorem sum_addends (c : Dev nD) (bi : ℕ) (hbi : bi < 2) (r : Fin 8) (q : Fin 128) (b : Fin 16)
    (hb : b.val = 8 * bi + r.val) :
    ∑ s ∈ Finset.range 16, addend V c (16 * bi + s) r q
      = if 1 ≤ q.val ∧ q.val ≤ 8 then cnt (garr V c) b q.val else 0 := by
  have hN : cfg0.N = 32 := N_0
  rw [Finset.sum_range]
  by_cases hq : 1 ≤ q.val ∧ q.val ≤ 8
  · rw [if_pos hq]
    unfold cnt
    rw [Cert.SumSplit.sum_split 16 57600 921600 (by norm_num)
      (fun n : Fin 921600 => if garr V c (ix2 b n) = lbl q.val then f1 else f0)]
    refine Finset.sum_congr rfl fun s _ => ?_
    have hs : 16 * bi + s.val < cfg0.N := by rw [hN]; have := s.isLt; omega
    unfold addend
    rw [dif_pos hs]
    unfold upd
    rw [if_pos hq]
    unfold tileCnt
    refine Finset.sum_congr rfl fun k _ => ?_
    rw [gblk_apply V c ⟨16 * bi + s.val, hs⟩ r k b ⟨57600 * s.val + k.val, Cert.SumSplit.lt_of_run (by norm_num) s k⟩
      (by show b.val = 8 * ((16 * bi + s.val) / 16) + r.val; have := s.isLt; omega)
      (by show 57600 * s.val + k.val = 57600 * ((16 * bi + s.val) % 16) + k.val; have := s.isLt; omega)]
  · rw [if_neg hq]
    refine Finset.sum_eq_zero fun s _ => ?_
    unfold addend
    split
    · exact if_neg hq
    · rfl

/-- WHAT A FLUSHING POINT WRITES BACK is its block of the count table of the label array. -/
theorem flushed_eq (c : Dev nD) (t : Fin cfg0.N) (hf : (cfg0.win 2).flush t = true) :
    (dat0 (F := Ideal) V c).flushed 2 t = ((cfg0.win 2).blk t).view.read (Elt Ideal) (cntTab (garr V c)) := by
  have hN : cfg0.N = 32 := N_0
  have hlt : t.val < 32 := lt_of_lt_of_eq t.isLt hN
  have h15 : t.val % 16 = 15 := (flush0_2 t).mp hf
  obtain ⟨-, -, e2, e3⟩ := idx_facts t
  show (cfg0.win 2).cut (grid0.coords t) ((dat0 (F := Ideal) V c).after 2 t) = _
  rw [after0_2]
  funext y
  have hy0 : (y 0).val < 8 := (y 0).isLt
  have hy1 : (y 1).val < 128 := (y 1).isLt
  have hx : (cfg0.win 2).xinj (grid0.coords t) y = ix2 (⟨(y 0).val, hy0⟩ : Fin 8) (⟨(y 1).val, hy1⟩ : Fin 128) := by
    funext a; match a with | ⟨0, _⟩ => rfl | ⟨1, _⟩ => rfl
  have hemb : ((cfg0.win 2).blk t).view.emb y
      = ix2 (⟨8 * (t.val / 16) + (y 0).val, by omega⟩ : Fin 16) (⟨(y 1).val, hy1⟩ : Fin 128) := by
    funext a
    apply Fin.ext
    match a with
    | ⟨0, _⟩ => show win0_2.index t (0 : Fin 2) * 8 + 1 * (y 0).val = 8 * (t.val / 16) + (y 0).val; rw [e2]; omega
    | ⟨1, _⟩ => show win0_2.index t (1 : Fin 2) * 128 + 1 * (y 1).val = (y 1).val; rw [e3]; omega
  show ((outsAt0 V c t.val t.isLt).1 : Vec Ideal S8x128 .f32) ((cfg0.win 2).xinj (grid0.coords t) y) = _
  rw [hx, after_point V c t.val t.isLt, h15, show (15 + 1 : ℕ) = 16 from rfl,
    sum_addends V c (t.val / 16) (by omega) (⟨(y 0).val, hy0⟩ : Fin 8) (⟨(y 1).val, hy1⟩ : Fin 128)
      ⟨8 * (t.val / 16) + (y 0).val, by omega⟩ rfl, View.read_apply]
  show _ = cntTab (garr V c) (((cfg0.win 2).blk t).view.emb y)
  rw [hemb]
  rfl

/-- An index of the count array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v2_0).slice (win0_2.rect t)).set ↔ _
  rw [View.set_slice_whole, Rect.mem_set_unit]
  exact Iff.rfl

/-- Every index of the count array lies in the block the last point of its row group writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 128 := (i 1).isLt
  have ht : 16 * ((i 0).val / 8) + 15 < cfg0.N := by rw [hN]; omega
  obtain ⟨-, -, e2, e3⟩ := idx_facts ⟨16 * ((i 0).val / 8) + 15, ht⟩
  dsimp only at e2 e3
  refine ⟨⟨16 * ((i 0).val / 8) + 15, ht⟩, (flush0_2 _).mpr (by dsimp only; omega), ?_⟩
  rw [mem_blk]
  intro a
  match a with
  | ⟨0, _⟩ =>
    show win0_2.index ⟨16 * ((i 0).val / 8) + 15, ht⟩ (0 : Fin 2) * 8 ≤ (i 0).val
      ∧ (i 0).val < win0_2.index ⟨16 * ((i 0).val / 8) + 15, ht⟩ (0 : Fin 2) * 8 + 8
    rw [e2]; omega
  | ⟨1, _⟩ =>
    show win0_2.index ⟨16 * ((i 0).val / 8) + 15, ht⟩ (1 : Fin 2) * 128 ≤ (i 1).val
      ∧ (i 1).val < win0_2.index ⟨16 * ((i 0).val / 8) + 15, ht⟩ (1 : Fin 2) * 128 + 128
    rw [e3]; omega

/-- The count array after the first kernel. -/
theorem cnt_final (c : Dev nD) :
    (dat0 (F := Ideal) V c).arrAt 2 cfg0.N = cntTab (V c main_v1) :=
  (dat0 (F := Ideal) V c).arrAt_eq_of_cover 2 (cntTab (garr V c)) (flushed_eq V c) (cover c)

end Cert.KernelIdeal.StatsCnt

end
-- ==== Proof.StatsTot.lean ====
import proofs.«410523_j1022202216834_3_alg».proof.Proof.Gen.KernelIdeal.Frame
import proofs.«410523_j1022202216834_3_alg».proof.Proof.Spec
import proofs.«410523_j1022202216834_3_alg».proof.Proof.LibSumSplit
import Idealize.ShloMosaic.Lib.Pipeline.Value
import Idealize.ShloMosaic.PureOps.Ideal.Laws

/-!
The first kernel's sum array, as a function of the two arrays it is entered with: after its 32 grid
points (two groups of eight rows, sixteen tiles of 57600 pixels each) lane `l` of row `b` holds the sum
of the features of the row's pixels with label `l`, for the labels 1 … 8; the other lanes hold zero.

The road: one tile's step on the [8,128] sum block is the block plus, on lane `l` of row `r`, the tile's
sum of the features of row `r` with label `l` (eight lane-masked column sums added from zero: on each
lane at most one of them is not zero); over the sixteen tiles of a row group the block therefore runs
through the partial sums from zero, and the last tile's block, written back, holds the row's label sums,
the row's 921600 pixels taken as sixteen runs of 57600.  Only the laws of a commutative monoid with zero
are used on the extended reals.
-/

set_option maxRecDepth 16384

noncomputable section

namespace Cert.KernelIdeal.StatsTot

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)
open scoped BigOperators

variable (V : (c : Dev nD) → (b : Ref sig .tc) → Buf (Elt Ideal) ((c : Thread nD τ).loc b))

/-! ## What one grid point leaves in the sum block -/

section Pieces
variable {F : FTy → Type} [FloatOps F]

theorem hz : (![0, 0] : Fin 2 → Nat) = fun _ => 0 := funext fun a => by fin_cases a <;> rfl

/-- One tile's step on the sum block: the block `prev` plus, lane by lane, the tile's label sums (the eight
    lane-masked column sums added left to right from zero). -/
def step (x0 : Vec F S8x57600 .f32) (x1 : Vec F S8x57600 .i32) (prev : Vec F S8x128 .f32) : FVec F S8x128 .f32 :=
  k0_pay2
    (k0_pay34 (k0_pay5 x0) (k0_pay6 x1) (iota .tc S8x128 32 [1] iota_S8x128_d1_w32)
      (k0_pay25 (k0_pay5 x0) (k0_pay6 x1) (iota .tc S8x128 32 [1] iota_S8x128_d1_w32)
        (k0_pay17 (k0_pay5 x0) (k0_pay6 x1) (iota .tc S8x128 32 [1] iota_S8x128_d1_w32) (k0_pay10 x0 x1) (k0_pay11 x1))
        (k0_pay20 (k0_pay5 x0) (k0_pay6 x1)))
      (k0_pay28 (k0_pay5 x0) (k0_pay6 x1)) k0_pay29)
    (k0_pay36 (k0_pay5 x0) (k0_pay6 x1)) (k0_pay37 (iota .tc S8x128 32 [1] iota_S8x128_d1_w32)) prev

/-- A tile that is not the first of its row group: the step on what the block held. -/
theorem out_B (c : Dev nD) (i : grid0.Coords) (a2 : Memref sig .tc .vmem S8x57600 .f32) (h2 : a2.IsWhole)
    (a3 : Memref sig .tc .vmem S8x57600 .i32) (h3 : a3.IsWhole) (a4 : Memref sig .tc .vmem S8x128 .f32) (h4 : a4.IsWhole)
    (a5 : Memref sig .tc .vmem S8x128 .f32) (h5 : a5.IsWhole) (hc : ¬cond0_0 i)
    (x0 : Vec F S8x57600 .f32) (x1 : Vec F S8x57600 .i32) (xo2 xo3 : Vec F S8x128 .f32) :
    out0_B_3 c i a2 h2 a3 h3 a4 h4 a5 h5 hc x0 x1 xo2 xo3 = step x0 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz]
  simp only [View.readAt_eq_ld, h2.read_unread, h3.read_unread, h5.read_unread, View.ld_unit_zero (S := S8x128) hz,
    View.ld_unit_zero (S := S8x57600) hz]
  rfl

/-- The first tile of a row group: the block is zeroed, read back, and stepped. -/
theorem out_A (c : Dev nD) (i : grid0.Coords) (a2 : Memref sig .tc .vmem S8x57600 .f32) (h2 : a2.IsWhole)
    (a3 : Memref sig .tc .vmem S8x57600 .i32) (h3 : a3.IsWhole) (a4 : Memref sig .tc .vmem S8x128 .f32) (h4 : a4.IsWhole)
    (a5 : Memref sig .tc .vmem S8x128 .f32) (h5 : a5.IsWhole) (hc : cond0_0 i)
    (x0 : Vec F S8x57600 .f32) (x1 : Vec F S8x57600 .i32) :
    out0_A_3 c i a2 h2 a3 h3 a4 h4 a5 h5 hc x0 x1 = step x0 x1 (k0_pay4 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S8x128) hz]
  simp only [View.readAt_eq_ld, h2.read_unread, h3.read_unread, View.readCov_unit_zero (S := S8x128) _ hz,
    View.ld_unit_zero (S := S8x128) hz, View.ld_unit_zero (S := S8x57600) hz]
  rfl

end Pieces

/-! ## The step at an index, over the extended reals -/

section Value

/-- The comparison word of two integer words is one exactly when they are equal. -/
theorem cmpi_eq_one_iff {w : ℕ} (a b : BitVec w) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun e => absurd e (by decide), fun e => absurd e h⟩

/-- A column sum, made a column and spread over the lanes: at row `r`, every lane holds the row's sum. -/
theorem lane_sum (v : FVec Ideal S8x57600 .f32) (hr : S8x57600.Reduces [1] S8) (hφ : FKind.Formats .f32)
    (hacc : (0x00000000#32 : BitVec 32) = FKind.add.neutral .f32 hφ) (hc : S8.ShapeCasts S8x1)
    (hb : S8x1.Broadcasts S8x128) (r : Fin 8) (q : Fin 128) :
    broadcastTo S8x128 (shapeCast S8x1 (multiReduction (F := Ideal) .add [1] S8 v 0x00000000#32 hr hφ hacc) hc) hb (ix2 r q)
      = ∑ p : Fin 57600, v (ix2 r p) := by
  refine (broadcastTo_apply _ hb (ix2 r q) (ix2 r (0 : Fin 1)) fun a => ?_).trans ?_
  · match a with
    | ⟨0, _⟩ => rfl
    | ⟨1, _⟩ => rfl
  refine (shapeCast_apply _ hc (ix2 r (0 : Fin 1)) (ix1 r) ?_).trans ?_
  · rw [Shape.rowMajor_val_two, Shape.rowMajor_val_one]
    show r.val = r.val * 1 + 0
    omega
  refine (Ideal.multiReduction_add_single v _ hr hφ hacc (ix1 r)).trans ?_
  refine Finset.sum_congr rfl fun k _ => congrArg v ?_
  funext a
  apply Fin.ext
  rw [hr.lift_val]
  match a with
  | ⟨0, _⟩ => rfl
  | ⟨1, _⟩ => rfl

/-- The sum, over one tile, of the features of row `r`'s pixels carrying label `l`. -/
def tileSum (x0 : FVec Ideal S8x57600 .f32) (g : IVec S8x57600 32) (r : Fin 8) (l : ℕ) : EReal :=
  ∑ p : Fin 57600, if g (ix2 r p) = lbl l then x0 (ix2 r p) else f0

/-- Label `l`'s term of a tile's update: its row sums spread over the lanes, times the mask of lane `l`. -/
def term (x0 : FVec Ideal S8x57600 .f32) (g : IVec S8x57600 32) (v7 : IVec S8x128 32) (l : BitVec 32)
    (hr : S8x57600.Reduces [1] S8) (hφ : FKind.Formats .f32) (hacc : (0x00000000#32 : BitVec 32) = FKind.add.neutral .f32 hφ)
    (hc : S8.ShapeCasts S8x1) (hb : S8x1.Broadcasts S8x128) (h32 : 1 < 32) : FVec Ideal S8x128 .f32 :=
  mulf (broadcastTo S8x128 (shapeCast S8x1 (multiReduction (F := Ideal) .add [1] S8
      (select (cmpi .eq g (broadcast S8x57600 l)) x0 (broadcast S8x57600 (Scalar.ofBits (F := Ideal) .f32 0x00000000#32)))
      0x00000000#32 hr hφ hacc) hc) hb)
    (sitofp .f32 (extui 32 (cmpi .eq v7 (broadcast S8x128 l)) h32))

/-- At row `r` and lane `q` the term is the tile's label sum where `q` is the label's lane, and zero on the other lanes. -/
theorem term_apply (x0 : FVec Ideal S8x57600 .f32) (g : IVec S8x57600 32) (v7 : IVec S8x128 32) (l : ℕ) (hl : l < 128)
    (hr : S8x57600.Reduces [1] S8) (hφ : FKind.Formats .f32) (hacc : (0x00000000#32 : BitVec 32) = FKind.add.neutral .f32 hφ)
    (hc : S8.ShapeCasts S8x1) (hb : S8x1.Broadcasts S8x128) (h32 : 1 < 32) (r : Fin 8) (q : Fin 128)
    (hv7 : v7 (ix2 r q) = BitVec.ofNat 32 q.val) :
    term x0 g v7 (BitVec.ofNat 32 l) hr hφ hacc hc hb h32 (ix2 r q) = tileSum x0 g r l * (if q.val = l then 1 else 0) := by
  unfold term
  show broadcastTo S8x128 _ hb (ix2 r q)
      * (((BitVec.setWidth 32 (IntOp.cmpi .eq (v7 (ix2 r q)) (BitVec.ofNat 32 l))).toInt : ℝ) : EReal) = _
  refine congrArg₂ (fun a b : EReal => a * b) ?_ ?_
  · refine (lane_sum _ hr hφ hacc hc hb r q).trans (Finset.sum_congr rfl fun p _ => ?_)
    show (if IntOp.cmpi .eq (g (ix2 r p)) (BitVec.ofNat 32 l) = 1#1 then x0 (ix2 r p) else f0) = _
    exact if_congr (cmpi_eq_one_iff _ _) rfl rfl
  · rw [hv7]
    have hq := q.isLt
    by_cases h : q.val = l
    · rw [if_pos h, h, (cmpi_eq_one_iff _ _).mpr rfl]
      simp
    · have hne : ¬(BitVec.ofNat 32 q.val = BitVec.ofNat 32 l) := fun e => h (by
        have := congrArg BitVec.toNat e
        simp only [BitVec.toNat_ofNat] at this
        omega)
      rw [if_neg h, Idealize.ShloMosaic.ValueIdx.eq_zero_of_ne_one (mt (cmpi_eq_one_iff _ _).mp hne)]
      simp

end Value

section Step

/-- Eight terms, each living on its own lane, added left to right from zero: on lane `q` what is left is the
    `q`-th when `q` is one of 1 … 8, and zero otherwise (only the laws of a commutative monoid with zero are used). -/
theorem lanes_add (s : ℕ → EReal) (p z : EReal) (hz0 : z = 0) (q : ℕ) :
    p + ((((((((z + s 1 * (if q = 1 then 1 else 0)) + s 2 * (if q = 2 then 1 else 0)) + s 3 * (if q = 3 then 1 else 0))
        + s 4 * (if q = 4 then 1 else 0)) + s 5 * (if q = 5 then 1 else 0)) + s 6 * (if q = 6 then 1 else 0))
        + s 7 * (if q = 7 then 1 else 0)) + s 8 * (if q = 8 then 1 else 0))
      = p + (if 1 ≤ q ∧ q ≤ 8 then s q else 0) := by
  subst hz0
  have hq : q = 1 ∨ q = 2 ∨ q = 3 ∨ q = 4 ∨ q = 5 ∨ q = 6 ∨ q = 7 ∨ q = 8 ∨ (q < 1 ∨ 8 < q) := by omega
  rcases hq with h | h | h | h | h | h | h | h | h
  · subst h; simp
  · subst h; simp
  · subst h; simp
  · subst h; simp
  · subst h; simp
  · subst h; simp
  · subst h; simp
  · subst h; simp
  · have hn : ¬(1 ≤ q ∧ q ≤ 8) := by omega
    rw [if_neg hn, if_neg (by omega), if_neg (by omega), if_neg (by omega), if_neg (by omega), if_neg (by omega),
      if_neg (by omega), if_neg (by omega), if_neg (by omega)]
    simp

/-- The step, spelt as the block plus the eight labels' terms added left to right from the zero block. -/
theorem step_eq (x0 : Vec Ideal S8x57600 .f32) (x1 : Vec Ideal S8x57600 .i32) (prev : Vec Ideal S8x128 .f32) :
    step (F := Ideal) x0 x1 prev
      = addf (shapeCast S8x128 prev shapeCasts_S8x128_S8x128)
        (addf (addf (addf (addf (addf (addf (addf (addf (broadcast S8x128 (Scalar.ofBits (F := Ideal) .f32 0x00000000#32))
          (term (k0_pay5 x0) (k0_pay6 x1) (iota .tc S8x128 32 [1] iota_S8x128_d1_w32) 1#32 reduces_S8x57600_S8 (.inl rfl) rfl shapeCasts_S8_S8x1 broadcasts_S8x1_S8x128 natLt_1_32))
          (term (k0_pay5 x0) (k0_pay6 x1) (iota .tc S8x128 32 [1] iota_S8x128_d1_w32) 2#32 reduces_S8x57600_S8 (.inl rfl) rfl shapeCasts_S8_S8x1 broadcasts_S8x1_S8x128 natLt_1_32))
          (term (k0_pay5 x0) (k0_pay6 x1) (iota .tc S8x128 32 [1] iota_S8x128_d1_w32) 3#32 reduces_S8x57600_S8 (.inl rfl) rfl shapeCasts_S8_S8x1 broadcasts_S8x1_S8x128 natLt_1_32))
          (term (k0_pay5 x0) (k0_pay6 x1) (iota .tc S8x128 32 [1] iota_S8x128_d1_w32) 4#32 reduces_S8x57600_S8 (.inl rfl) rfl shapeCasts_S8_S8x1 broadcasts_S8x1_S8x128 natLt_1_32))
          (term (k0_pay5 x0) (k0_pay6 x1) (iota .tc S8x128 32 [1] iota_S8x128_d1_w32) 5#32 reduces_S8x57600_S8 (.inl rfl) rfl shapeCasts_S8_S8x1 broadcasts_S8x1_S8x128 natLt_1_32))
          (term (k0_pay5 x0) (k0_pay6 x1) (iota .tc S8x128 32 [1] iota_S8x128_d1_w32) 6#32 reduces_S8x57600_S8 (.inl rfl) rfl shapeCasts_S8_S8x1 broadcasts_S8x1_S8x128 natLt_1_32))
          (term (k0_pay5 x0) (k0_pay6 x1) (iota .tc S8x128 32 [1] iota_S8x128_d1_w32) 7#32 reduces_S8x57600_S8 (.inl rfl) rfl shapeCasts_S8_S8x1 broadcasts_S8x1_S8x128 natLt_1_32))
          (term (k0_pay5 x0) (k0_pay6 x1) (iota .tc S8x128 32 [1] iota_S8x128_d1_w32) 8#32 reduces_S8x57600_S8 (.inl rfl) rfl shapeCasts_S8_S8x1 broadcasts_S8x1_S8x128 natLt_1_32)) :=
  rfl

/-- What a tile adds to the block: on the lanes 1 … 8 of row `r` the tile's label sums, zero on the other lanes. -/
def upd (x0 : FVec Ideal S8x57600 .f32) (g : IVec S8x57600 32) : S8x128.Idx → EReal := fun j =>
  if 1 ≤ (j 1).val ∧ (j 1).val ≤ 8 then tileSum x0 g ⟨(j 0).val, idx2_lt0 j⟩ (j 1).val else 0

/-- The step at row `r`, lane `q`: what the block held there plus the tile's update. -/
theorem step_apply (x0 : Vec Ideal S8x57600 .f32) (x1 : Vec Ideal S8x57600 .i32) (prev : Vec Ideal S8x128 .f32)
    (j : S8x128.Idx) : step (F := Ideal) x0 x1 prev j = prev j + upd x0 x1 j := by
  obtain ⟨r, q, rfl⟩ : ∃ (r : Fin 8) (q : Fin 128), j = ix2 r q := ⟨j 0, j 1, eq_ix2 j⟩
  have e5 : k0_pay5 (F := Ideal) x0 = x0 := shapeCast_self _ _
  have e6 : k0_pay6 (F := Ideal) x1 = x1 := shapeCast_self _ _
  have hI : iota .tc S8x128 32 [1] iota_S8x128_d1_w32 (ix2 r q) = BitVec.ofNat 32 q.val :=
    iota_single_apply .tc S8x128 32 1 _ (ix2 r q)
  rw [step_eq, e5, e6]
  show shapeCast S8x128 prev shapeCasts_S8x128_S8x128 (ix2 r q) + ((((((((_ + _) + _) + _) + _) + _) + _) + _) + _) = _
  rw [shapeCast_self,
    term_apply x0 x1 _ 1 (by omega) reduces_S8x57600_S8 (.inl rfl) rfl shapeCasts_S8_S8x1 broadcasts_S8x1_S8x128 natLt_1_32 r q hI,
    term_apply x0 x1 _ 2 (by omega) reduces_S8x57600_S8 (.inl rfl) rfl shapeCasts_S8_S8x1 broadcasts_S8x1_S8x128 natLt_1_32 r q hI,
    term_apply x0 x1 _ 3 (by omega) reduces_S8x57600_S8 (.inl rfl) rfl shapeCasts_S8_S8x1 broadcasts_S8x1_S8x128 natLt_1_32 r q hI,
    term_apply x0 x1 _ 4 (by omega) reduces_S8x57600_S8 (.inl rfl) rfl shapeCasts_S8_S8x1 broadcasts_S8x1_S8x128 natLt_1_32 r q hI,
    term_apply x0 x1 _ 5 (by omega) reduces_S8x57600_S8 (.inl rfl) rfl shapeCasts_S8_S8x1 broadcasts_S8x1_S8x128 natLt_1_32 r q hI,
    term_apply x0 x1 _ 6 (by omega) reduces_S8x57600_S8 (.inl rfl) rfl shapeCasts_S8_S8x1 broadcasts_S8x1_S8x128 natLt_1_32 r q hI,
    term_apply x0 x1 _ 7 (by omega) reduces_S8x57600_S8 (.inl rfl) rfl shapeCasts_S8_S8x1 broadcasts_S8x1_S8x128 natLt_1_32 r q hI,
    term_apply x0 x1 _ 8 (by omega) reduces_S8x57600_S8 (.inl rfl) rfl shapeCasts_S8_S8x1 broadcasts_S8x1_S8x128 natLt_1_32 r q hI]
  exact lanes_add (fun l => tileSum x0 x1 r l) (prev (ix2 r q)) _ Ideal.ofBits_zero_f32 q.val

end Step

/-! ## The blocks of the two arrays, and the sum block point by point -/

section Run

/-- The feature block and the label block of point `n`: rows `8·(n / 16) …`, pixels `57600·(n % 16) …` of the two arrays. -/
abbrev xblk (c : Dev nD) (n : ℕ) (h : n < cfg0.N) : Vec Ideal S8x57600 .f32 := iblk0 V c 0 ⟨n, h⟩
abbrev gblk (c : Dev nD) (n : ℕ) (h : n < cfg0.N) : Vec Ideal S8x57600 .i32 := iblk0 V c 1 ⟨n, h⟩

/-- The block indices of the three windows at point `t`, decided over the grid: the two inputs' block is
    (`t / 16`, `t % 16`), the table's is (`t / 16`, 0). -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_3.index t (0 : Fin 2) = t.val / 16 ∧ win0_3.index t (1 : Fin 2) = 0 :=
  (by decide +kernel : ∀ t : Fin grid0.N, _)

/-- A feature block's entry is the array's: row `8·(t / 16) + r`, pixel `57600·(t % 16) + p`. -/
theorem xblk_apply (c : Dev nD) (t : Fin cfg0.N) (r : Fin 8) (p : Fin 57600) (k : SX.Idx)
    (hk0 : (k 0).val = 8 * (t.val / 16) + r.val) (hk1 : (k 1).val = 57600 * (t.val % 16) + p.val) :
    (iblk0 V c 0 t : Vec Ideal S8x57600 .f32) (ix2 r p) = (V c main_v0 : SX.Idx → Ideal .f32) k := by
  obtain ⟨e0, e1, -⟩ := idx_facts t
  unfold iblk0
  rw [View.read_apply]
  show (V c main_v0 : SX.Idx → Ideal .f32) _ = (V c main_v0 : SX.Idx → Ideal .f32) _
  refine congrArg (V c main_v0 : SX.Idx → Ideal .f32) (funext fun a => Fin.ext ?_)
  match a with
  | ⟨0, _⟩ => show win0_0.index t 0 * 8 + 1 * r.val = (k 0).val; rw [e0, hk0]; omega
  | ⟨1, _⟩ => show win0_0.index t 1 * 57600 + 1 * p.val = (k 1).val; rw [e1, hk1]; omega

/-- A label block's entry is the label array's, at the same place. -/
theorem gblk_apply (c : Dev nD) (t : Fin cfg0.N) (r : Fin 8) (p : Fin 57600) (k : SX.Idx)
    (hk0 : (k 0).val = 8 * (t.val / 16) + r.val) (hk1 : (k 1).val = 57600 * (t.val % 16) + p.val) :
    (iblk0 V c 1 t : Vec Ideal S8x57600 .i32) (ix2 r p) = (V c main_v1 : SX.Idx → BitVec 32) k := by
  obtain ⟨-, -, e0, e1, -⟩ := idx_facts t
  unfold iblk0
  rw [View.read_apply]
  show (V c main_v1 : SX.Idx → BitVec 32) _ = (V c main_v1 : SX.Idx → BitVec 32) _
  refine congrArg (V c main_v1 : SX.Idx → BitVec 32) (funext fun a => Fin.ext ?_)
  match a with
  | ⟨0, _⟩ => show win0_1.index t 0 * 8 + 1 * r.val = (k 0).val; rw [e0, hk0]; omega
  | ⟨1, _⟩ => show win0_1.index t 1 * 57600 + 1 * p.val = (k 1).val; rw [e1, hk1]; omega

end Run

section Run2

/-- At the first tile of a row group the sum block is the step from the zero block. -/
theorem outs_reset (c : Dev nD) (n : ℕ) (h : n < cfg0.N) (hm : n % 16 = 0) :
    (outsAt0 V c n h).2 = step (xblk V c n h) (gblk V c n h) (k0_pay4 (F := Ideal)) := by
  rw [outsAt0_A V c ⟨n, h⟩ hm]
  dsimp only
  exact out_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr hm)
    (iblk0 V c 0 ⟨n, h⟩) (iblk0 V c 1 ⟨n, h⟩)

/-- At every other tile it is the step from what the tile before left. -/
theorem outs_step (c : Dev nD) (n : ℕ) (h : n + 1 < cfg0.N) (hm : ¬(n + 1) % 16 = 0) :
    (outsAt0 V c (n + 1) h).2
      = step (xblk V c (n + 1) h) (gblk V c (n + 1) h) (outsAt0 V c n (Nat.lt_of_succ_lt h)).2 := by
  rw [outsAt0_B V c ⟨n + 1, h⟩ hm]
  dsimp only
  exact out_B (F := Ideal) c (grid0.coords ⟨n + 1, h⟩) (ms0_0 ⟨n + 1, h⟩) (hs0_0 ⟨n + 1, h⟩) (ms0_1 ⟨n + 1, h⟩)
    (hs0_1 ⟨n + 1, h⟩) (ms0_2 ⟨n + 1, h⟩) (hs0_2 ⟨n + 1, h⟩) (ms0_3 ⟨n + 1, h⟩) (hs0_3 ⟨n + 1, h⟩)
    (fun hh => hm ((hcond0_0 ⟨n + 1, h⟩).mp hh)) (iblk0 V c 0 ⟨n + 1, h⟩) (iblk0 V c 1 ⟨n + 1, h⟩)
    (outsAt0 V c n (Nat.lt_of_succ_lt h)).1 (outsAt0 V c n (Nat.lt_of_succ_lt h)).2

/-- What point `n`'s tile adds to the sum block (zero past the grid, where it is never used). -/
def addend (c : Dev nD) (n : ℕ) : S8x128.Idx → EReal := fun j =>
  if h : n < cfg0.N then upd (xblk V c n h) (gblk V c n h) j else 0

/-- After point `t` the sum block holds the updates of the tiles of `t`'s row group up to `t`, added from zero. -/
theorem acc_eq (c : Dev nD) (t : Fin cfg0.N) (j : S8x128.Idx) :
    (outsAt0 V c t.val t.isLt).2 j
      = f0 + ∑ s ∈ Finset.range (t.val % 16 + 1), addend V c (16 * (t.val / 16) + s) j := by
  have h' : 16 * (t.val / 16) + t.val % 16 < cfg0.N := by rw [Nat.div_add_mod]; exact t.isLt
  have e := Pipeline.eq_accAt_of_mod (N := cfg0.N) (α := S8x128.Idx → EReal) (fun n h => (outsAt0 V c n h).2) 16
    (fun n h => step (xblk V c n h) (gblk V c n h) (k0_pay4 (F := Ideal)))
    (fun n h acc => step (xblk V c n h) (gblk V c n h) acc)
    (fun n h hm => outs_reset V c n h hm) (fun n h hm => outs_step V c n h hm) (by decide) t.val t.isLt h'
  refine (congrFun e j).trans ?_
  refine Pipeline.accAt_add_apply (ι := S8x128.Idx) (β := EReal) _ _ (fun _ => f0) (addend V c) (16 * (t.val / 16)) 15
    (fun h i => ?_) (fun n h acc i _ _ => ?_) (t.val % 16) (by omega) h' j
  · show step (xblk V c _ h) (gblk V c _ h) (k0_pay4 (F := Ideal)) i = f0 + addend V c _ i
    rw [step_apply]
    unfold addend
    rw [dif_pos h]
    rfl
  · show step (xblk V c n h) (gblk V c n h) acc i = acc i + addend V c n i
    rw [step_apply]
    unfold addend
    rw [dif_pos h]

end Run2

/-! ## From the blocks written back to the array -/

section Run3

/-- After the last tile of a row group, the sum block's entry at row `y 0`, lane `y 1` is the table's entry
    for row `8·(t / 16) + y 0` of the arrays: the sixteen tiles' label sums are the row's label sum, the
    pixels of the row taken tile by tile. -/
theorem flushed_val (c : Dev nD) (t : Fin cfg0.N) (ht : t.val % 16 = 15) (y : S8x128.Idx) (k : ST.Idx)
    (hk0 : (k 0).val = 8 * (t.val / 16) + (y 0).val) (hk1 : (k 1).val = (y 1).val) :
    (outsAt0 V c t.val t.isLt).2 y = totTab (V c main_v0) (V c main_v1) k := by
  have hN : cfg0.N = 32 := N_0
  have htl : t.val < 32 := lt_of_lt_of_eq t.isLt hN
  have hy0 : (y 0).val < 8 := idx2_lt0 y
  rw [acc_eq, ht]
  unfold totTab
  rw [hk1]
  by_cases hq : 1 ≤ (y 1).val ∧ (y 1).val ≤ 8
  · rw [if_pos hq, f0_eq, zero_add, Finset.sum_range]
    refine Eq.trans ?_ (Cert.SumSplit.sum_split (M := EReal) 16 57600 921600 (by norm_num)
      (fun n : Fin 921600 => if (V c main_v1 : SX.Idx → BitVec 32) (ix2 (rowOf k) n) = lbl (y 1).val
        then (V c main_v0 : SX.Idx → Ideal .f32) (ix2 (rowOf k) n) else f0)).symm
    refine Finset.sum_congr rfl fun s _ => ?_
    have hs := s.isLt
    have hn : 16 * (t.val / 16) + s.val < cfg0.N :=
      lt_of_lt_of_eq (by omega : 16 * (t.val / 16) + s.val < 32) hN.symm
    unfold addend
    rw [dif_pos hn]
    unfold upd
    rw [if_pos hq]
    unfold tileSum
    refine Finset.sum_congr rfl fun p _ => ?_
    have ex := xblk_apply V c ⟨16 * (t.val / 16) + s.val, hn⟩ ⟨(y 0).val, hy0⟩ p
      (ix2 (rowOf k) ⟨57600 * s.val + p.val, Cert.SumSplit.lt_of_run (by norm_num : 16 * 57600 = 921600) s p⟩)
      (by show (k 0).val = 8 * ((16 * (t.val / 16) + s.val) / 16) + (y 0).val; rw [hk0]; omega)
      (by show 57600 * s.val + p.val = 57600 * ((16 * (t.val / 16) + s.val) % 16) + p.val; omega)
    have eg := gblk_apply V c ⟨16 * (t.val / 16) + s.val, hn⟩ ⟨(y 0).val, hy0⟩ p
      (ix2 (rowOf k) ⟨57600 * s.val + p.val, Cert.SumSplit.lt_of_run (by norm_num : 16 * 57600 = 921600) s p⟩)
      (by show (k 0).val = 8 * ((16 * (t.val / 16) + s.val) / 16) + (y 0).val; rw [hk0]; omega)
      (by show 57600 * s.val + p.val = 57600 * ((16 * (t.val / 16) + s.val) % 16) + p.val; omega)
    show (if iblk0 V c 1 ⟨16 * (t.val / 16) + s.val, hn⟩ (ix2 ⟨(y 0).val, hy0⟩ p) = lbl (y 1).val
      then iblk0 V c 0 ⟨16 * (t.val / 16) + s.val, hn⟩ (ix2 ⟨(y 0).val, hy0⟩ p) else f0) = _
    rw [ex, eg]
  · rw [if_neg hq, Finset.sum_eq_zero, f0_eq, add_zero]
    intro s _
    unfold addend
    split
    · unfold upd
      rw [if_neg hq]
    · rfl

/-- What the last tile of a row group writes back is its block of the sum table. -/
theorem flushed_eq (c : Dev nD) (t : Fin cfg0.N) (hf : (cfg0.win 3).flush t = true) :
    (dat0 V c).flushed 3 t
      = ((cfg0.win 3).blk t).view.read (Elt Ideal) (totTab (V c main_v0) (V c main_v1)) := by
  have ht : t.val % 16 = 15 := (flush0_3 t).mp hf
  obtain ⟨-, -, -, -, e0, e1⟩ := idx_facts t
  show (cfg0.win 3).cut (grid0.coords t) ((dat0 V c).after 3 t) = _
  rw [after0_3]
  funext y
  rw [View.read_apply]
  refine flushed_val V c t ht _ _ ?_ ?_
  · show win0_3.index t 0 * 8 + 1 * (y 0).val = 8 * (t.val / 16) + (y 0).val
    rw [e0]; omega
  · show win0_3.index t 1 * 128 + 1 * (y 1).val = (y 1).val
    rw [e1]; omega

/-- Every entry of the table lies in the block the last tile of its row group writes back. -/
theorem covered (i : ST.Idx) :
    ∃ t : Fin cfg0.N, (cfg0.win 3).flush t = true ∧ i ∈ ((cfg0.win 3).blk t).view.set := by
  have hi0 : (i 0).val < 16 := idx2_lt0 i
  have hi1 : (i 1).val < 128 := idx2_lt1 i
  have hN : cfg0.N = 32 := N_0
  have hlt : 16 * ((i 0).val / 8) + 15 < cfg0.N := by rw [hN]; omega
  refine ⟨⟨16 * ((i 0).val / 8) + 15, hlt⟩, (flush0_3 _).mpr (by show (16 * ((i 0).val / 8) + 15) % 16 = 15; omega), ?_⟩
  obtain ⟨-, -, -, -, e0, e1⟩ := idx_facts ⟨16 * ((i 0).val / 8) + 15, hlt⟩
  show i ∈ ((View.whole main_v2_1).slice (win0_3.rect ⟨16 * ((i 0).val / 8) + 15, hlt⟩)).set
  rw [View.set_slice_whole, Rect.mem_set_unit]
  intro a
  match a with
  | ⟨0, _⟩ =>
    show win0_3.index ⟨16 * ((i 0).val / 8) + 15, hlt⟩ 0 * 8 ≤ (i 0).val
      ∧ (i 0).val < win0_3.index ⟨16 * ((i 0).val / 8) + 15, hlt⟩ 0 * 8 + 8
    rw [e0]
    show (16 * ((i 0).val / 8) + 15) / 16 * 8 ≤ (i 0).val ∧ (i 0).val < (16 * ((i 0).val / 8) + 15) / 16 * 8 + 8
    omega
  | ⟨1, _⟩ =>
    show win0_3.index ⟨16 * ((i 0).val / 8) + 15, hlt⟩ 1 * 128 ≤ (i 1).val
      ∧ (i 1).val < win0_3.index ⟨16 * ((i 0).val / 8) + 15, hlt⟩ 1 * 128 + 128
    rw [e1]
    omega

/-- The sum array after the first kernel. -/
theorem tot_final (c : Dev nD) :
    (dat0 (F := Ideal) V c).arrAt 3 cfg0.N = totTab (V c main_v0) (V c main_v1) :=
  (dat0 V c).arrAt_eq_of_cover 3 (totTab (V c main_v0) (V c main_v1)) (fun t hf => flushed_eq V c t hf)
    (fun i => covered i)

end Run3

end Cert.KernelIdeal.StatsTot

end
-- ==== Proof.Pull.lean ====
import proofs.«410523_j1022202216834_3_alg».proof.Proof.Gen.KernelIdeal.Frame
import proofs.«410523_j1022202216834_3_alg».proof.Proof.Spec
import Idealize.ShloMosaic.Lib.Pipeline.Value
import Idealize.ShloMosaic.PureOps.Ideal.Laws
import proofs.«410523_j1022202216834_3_alg».proof.Proof.LibSumSplit

/-!
The second kernel's result array, as a function of the arrays it is entered with: after its 32 grid
points lane 0 of row `b` holds the sum, over the row's pixels, of the pixel's hinge against the mean
table's entry for its label times the weight table's entry for its label (both zero for a pixel whose
label is not one of 1 … 8); the other lanes hold zero.
-/

set_option maxRecDepth 16384

noncomputable section

namespace Cert.KernelIdeal.Pull

open Idealize.ShloMosaic Idealize.ShloMosaic.TcCoe Idealize.ShloMosaic.ValueIdx Idealize.SL.Sem
open Cert.KernelIdeal Cert.KernelIdeal.Gen Cert.Spec
open Idealize.ShloMosaic.Pipeline (Dat Cfg Window)

/-! ## What one tile leaves in the block -/

variable {F : FTy → Type} [FloatOps F]

/-- The zero offsets are the constant zero. -/
theorem hz : (![0, 0] : Fin 2 → Nat) = fun _ => 0 := funext fun a => by fin_cases a <;> rfl

/-- The column at lane 0 of an [8,128] block. -/
abbrev col0 : Rect S8x128 := Rect.unit (s := S8x128) ![0, 0] S8x1.size inb_S8x128_S8x1_0_0

/-- The gathered weights of a tile. -/
abbrev wG (x1 : Vec F S8x57600 .i32) (x3 : Vec F S8x128 .f32) : FVec F S8x57600 .f32 :=
  k1_pay18 (k1_pay4 x1) (k1_pay6 x3) (k1_pay9 x1 x3) (k1_pay10 x1) (k1_pay12 x3)

/-- The distances of a tile's features to their gathered means. -/
abbrev aG (x0 : Vec F S8x57600 .f32) (x1 : Vec F S8x57600 .i32) (x2 : Vec F S8x128 .f32) : FVec F S8x57600 .f32 :=
  k1_pay19 (k1_pay3 x0) (k1_pay4 x1) (k1_pay5 x2) (k1_pay11 x1 x2)

/-- One tile's update of the block: the column at lane 0 replaced by itself plus the tile's row sums. -/
def step (x0 : Vec F S8x57600 .f32) (x1 : Vec F S8x57600 .i32) (x2 x3 : Vec F S8x128 .f32) (prev : Vec F S8x128 .f32) : Vec F S8x128 .f32 :=
  col0.overlay prev (k1_pay1 (wG x1 x3) (aG x0 x1 x2) (k1_pay20 (F := F)) (View.ld prev col0))

/-- One store through a rectangle over contents that read `X` leaves `X` with the rectangle's part replaced. -/
theorem read_write_one {sg : RefSig} {κ : Kind} {sp : Space} {s : Shape} {e : EltTy} {Val : EltTy → Type}
    (v : View sg κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (fun p hp => by rw [List.mem_singleton] at hp; subst hp; exact hy),
      Rect.overlay_of_not_mem _ _ _ hy]

/-- The first tile of a row group: the block is reset, then updated. -/
theorem out_A (c : Dev nD) (i : grid1.Coords) (a2 : Memref sig .tc .vmem S8x57600 .f32) (h2 : a2.IsWhole) (a3 : Memref sig .tc .vmem S8x57600 .i32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : cond1_0 i)
    (x0 : Vec F S8x57600 .f32) (x1 : Vec F S8x57600 .i32) (x2 : Vec F S8x128 .f32) (x3 : Vec F S8x128 .f32) :
    out1_A_4 c i a2 h2 a3 h3 a4 h4 a5 h5 a6 h6 hc x0 x1 x2 x3 = step x0 x1 x2 x3 (k1_pay2 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons, View.canon_unit_zero hz, View.readCov_eq_canon', View.canon_unit_zero hz]
  simp only [View.readAt_eq_ld, h2.read_unread, h3.read_unread, h4.read_unread, h5.read_unread,
    View.ld_unit_zero (S := S8x57600) hz, View.ld_unit_zero (S := S8x128) hz]
  rfl

/-- A later tile: the block is updated over what the tile before left. -/
theorem out_B (c : Dev nD) (i : grid1.Coords) (a2 : Memref sig .tc .vmem S8x57600 .f32) (h2 : a2.IsWhole) (a3 : Memref sig .tc .vmem S8x57600 .i32) (h3 : a3.IsWhole) (a4 : Memref sig .tc .vmem S8x128 .f32) (h4 : a4.IsWhole) (a5 : Memref sig .tc .vmem S8x128 .f32) (h5 : a5.IsWhole) (a6 : Memref sig .tc .vmem S8x128 .f32) (h6 : a6.IsWhole) (hc : ¬cond1_0 i)
    (x0 : Vec F S8x57600 .f32) (x1 : Vec F S8x57600 .i32) (x2 : Vec F S8x128 .f32) (x3 : Vec F S8x128 .f32) (xo : Vec F S8x128 .f32) :
    out1_B_4 c i a2 h2 a3 h3 a4 h4 a5 h5 a6 h6 hc x0 x1 x2 x3 xo = step x0 x1 x2 x3 xo := by
  unfold out1_B_4
  unfold kernelRun1_B
  dsimp only
  sl_unfold_words
  rw [read_write_one]
  simp only [View.readAt_eq_ld, h2.read_unread, h3.read_unread, h4.read_unread, h5.read_unread, h6.read_unread,
    View.ld_unit_zero (S := S8x57600) hz, View.ld_unit_zero (S := S8x128) hz]
  rfl

/-! ## The tile's arithmetic at a pixel -/

/-- A pixel's entry of a row group's block of a table: the lane of its label when that is one of 1 … 8 (the largest
    label tested first), zero otherwise. -/
def pickB (t : FVec Ideal S8x128 .f32) (r : Fin 8) (w : BitVec 32) : EReal :=
  if w = lbl 8 then t (ix2 r (8 : Fin 128)) else
  if w = lbl 7 then t (ix2 r (7 : Fin 128)) else
  if w = lbl 6 then t (ix2 r (6 : Fin 128)) else
  if w = lbl 5 then t (ix2 r (5 : Fin 128)) else
  if w = lbl 4 then t (ix2 r (4 : Fin 128)) else
  if w = lbl 3 then t (ix2 r (3 : Fin 128)) else
  if w = lbl 2 then t (ix2 r (2 : Fin 128)) else
  if w = lbl 1 then t (ix2 r (1 : Fin 128)) else f0

/-- A select on "the word is `v`" is the `if`. -/
theorem select_cmpi_eq {α : Type} (w v : BitVec 32) (a b : α) :
    Scalar.select (IntOp.cmpi .eq w v) a b = if w = v then a else b := by
  unfold Scalar.select
  by_cases h : w = v
  · exact (if_pos (IntOp.cmpi_eq.mpr h)).trans (if_pos h).symm
  · exact (if_neg (fun h' => h (IntOp.cmpi_eq.mp h'))).trans (if_neg h).symm

/-- Lane `l` of a block, cut out as a column and laid along the pixels, reads the block's entry at that lane. -/
theorem lane_bcast {α : Type} (t : S8x128.Idx → α) (l : Nat) (k : Fin 128) (hk : k.val = l)
    (h1 : S8x128.Slices ![0, l] S8x1) (h3 : S8x1.Broadcasts S8x57600) (r : Fin 8) (q : Fin 57600) :
    broadcastTo S8x57600 (extractStridedSlice S8x1 ![0, l] t h1) h3 (ix2 r q) = t (ix2 r k) := by
  refine (broadcastTo_apply _ h3 (ix2 r q) (ix2 r (0 : Fin 1)) (fun a => ?_)).trans ?_
  · match a with
    | ⟨0, _⟩ => rfl
    | ⟨1, _⟩ => rfl
  · refine extractStridedSlice_apply ![0, l] t h1 (ix2 r (0 : Fin 1)) (ix2 r k) (fun a => ?_)
    match a with
    | ⟨0, _⟩ => show r.val = 0 + r.val; omega
    | ⟨1, _⟩ => show k.val = l + 0; omega

/-- One link of the gather: where the pixel's label is `v` the block's lane `l`, elsewhere what was there. -/
theorem sel_step {α : Type} (g : IVec S8x57600 32) (v : BitVec 32) (t : S8x128.Idx → α) (l : Nat) (k : Fin 128) (hk : k.val = l)
    (h1 : S8x128.Slices ![0, l] S8x1) (h3 : S8x1.Broadcasts S8x57600)
    (prev : S8x57600.Idx → α) (r : Fin 8) (q : Fin 57600) :
    select (cmpi .eq g (broadcast S8x57600 v)) (broadcastTo S8x57600 (extractStridedSlice S8x1 ![0, l] t h1) h3) prev (ix2 r q)
      = if g (ix2 r q) = v then t (ix2 r k) else prev (ix2 r q) := by
  show Scalar.select (IntOp.cmpi .eq (g (ix2 r q)) v) _ (prev (ix2 r q)) = _
  rw [select_cmpi_eq, lane_bcast t l k hk]

/-- The gathered weight of a pixel is its label's entry of the weight block. -/
theorem wG_apply (x1 : Vec Ideal S8x57600 .i32) (x3 : Vec Ideal S8x128 .f32) (r : Fin 8) (q : Fin 57600) :
    wG (F := Ideal) x1 x3 (ix2 r q) = pickB x3 r (x1 (ix2 r q)) := by
  unfold pickB wG
  unfold k1_pay18 k1_pay17 k1_pay16 k1_pay15 k1_pay14 k1_pay13 k1_pay12 k1_pay10 k1_pay9 k1_pay8 k1_pay7 k1_pay6 k1_pay4
  simp only [shapeCast_self]
  refine (sel_step _ _ _ 8 8 rfl _ _ _ r q).trans (if_congr Iff.rfl rfl ?_)
  refine (sel_step _ _ _ 7 7 rfl _ _ _ r q).trans (if_congr Iff.rfl rfl ?_)
  refine (sel_step _ _ _ 6 6 rfl _ _ _ r q).trans (if_congr Iff.rfl rfl ?_)
  refine (sel_step _ _ _ 5 5 rfl _ _ _ r q).trans (if_congr Iff.rfl rfl ?_)
  refine (sel_step _ _ _ 4 4 rfl _ _ _ r q).trans (if_congr Iff.rfl rfl ?_)
  refine (sel_step _ _ _ 3 3 rfl _ _ _ r q).trans (if_congr Iff.rfl rfl ?_)
  refine (sel_step _ _ _ 2 2 rfl _ _ _ r q).trans (if_congr Iff.rfl rfl ?_)
  refine (sel_step _ _ _ 1 1 rfl _ _ _ r q).trans (if_congr Iff.rfl rfl ?_)
  rfl

/-- The distance of a pixel's feature to its label's entry of the mean block. -/
theorem aG_apply (x0 : Vec Ideal S8x57600 .f32) (x1 : Vec Ideal S8x57600 .i32) (x2 : Vec Ideal S8x128 .f32) (r : Fin 8) (q : Fin 57600) :
    aG (F := Ideal) x0 x1 x2 (ix2 r q)
      = FloatOps.absf (F := Ideal) (φ := .f32) (x0 (ix2 r q) - pickB x2 r (x1 (ix2 r q))) := by
  unfold pickB aG
  unfold k1_pay19 k1_pay17 k1_pay16 k1_pay15 k1_pay14 k1_pay13 k1_pay11 k1_pay10 k1_pay8 k1_pay7 k1_pay5 k1_pay4 k1_pay3
  simp only [shapeCast_self]
  show FloatOps.absf (F := Ideal) (φ := .f32) (x0 (ix2 r q) - _) = _
  refine congrArg (fun μ => FloatOps.absf (F := Ideal) (φ := .f32) (x0 (ix2 r q) - μ)) ?_
  refine (sel_step _ _ _ 8 8 rfl _ _ _ r q).trans (if_congr Iff.rfl rfl ?_)
  refine (sel_step _ _ _ 7 7 rfl _ _ _ r q).trans (if_congr Iff.rfl rfl ?_)
  refine (sel_step _ _ _ 6 6 rfl _ _ _ r q).trans (if_congr Iff.rfl rfl ?_)
  refine (sel_step _ _ _ 5 5 rfl _ _ _ r q).trans (if_congr Iff.rfl rfl ?_)
  refine (sel_step _ _ _ 4 4 rfl _ _ _ r q).trans (if_congr Iff.rfl rfl ?_)
  refine (sel_step _ _ _ 3 3 rfl _ _ _ r q).trans (if_congr Iff.rfl rfl ?_)
  refine (sel_step _ _ _ 2 2 rfl _ _ _ r q).trans (if_congr Iff.rfl rfl ?_)
  refine (sel_step _ _ _ 1 1 rfl _ _ _ r q).trans (if_congr Iff.rfl rfl ?_)
  rfl

/-- The row sums of a tile, laid as a column: at row `r` the sum over the tile's pixels. -/
theorem rowsum_apply (src : FVec Ideal S8x57600 .f32) (h : S8x57600.Reduces [1] S8) (hφ : FKind.Formats .f32)
    (hacc : (0x00000000#32 : BitVec 32) = FKind.add.neutral .f32 hφ) (h2 : S8.ShapeCasts S8x1) (r : Fin 8) :
    shapeCast S8x1 (multiReduction .add [1] S8 src 0x00000000#32 h hφ hacc) h2 (ix2 r (0 : Fin 1))
      = ∑ q : Fin 57600, src (ix2 r q) := by
  refine (shapeCast_apply _ h2 (ix2 r (0 : Fin 1)) (ix1 r) ?_).trans ?_
  · rw [Shape.rowMajor_val_one, Shape.rowMajor_val_two]
    show r.val = r.val * 1 + 0
    omega
  · refine (Ideal.multiReduction_add_single src _ h hφ hacc (ix1 r)).trans ?_
    show ∑ k : Fin 57600, src (h.lift (ix1 r) k) = _
    refine Finset.sum_congr rfl fun k _ => congrArg src ?_
    funext a
    match a with
    | ⟨0, _⟩ => exact Fin.ext rfl
    | ⟨1, _⟩ => exact Fin.ext rfl

/-- The column the tile stores: what was there plus, row by row, the sum over the tile's pixels of the squared
    hinge of the distance times the weight. -/
theorem pay1_apply (W A : FVec Ideal S8x57600 .f32) (col : Vec Ideal S8x1 .f32) (r : Fin 8) :
    k1_pay1 W A (k1_pay20 (F := Ideal)) col (ix2 r (0 : Fin 1))
      = col (ix2 r (0 : Fin 1))
        + ∑ q : Fin 57600, (max (A (ix2 r q) - fhalf) f0 * max (A (ix2 r q) - fhalf) f0) * W (ix2 r q) := by
  unfold k1_pay1 k1_pay20
  simp only [shapeCast_self]
  refine congrArg (col (ix2 r (0 : Fin 1)) + ·) ?_
  refine (rowsum_apply _ _ _ _ _ r).trans ?_
  rfl

/-- Lane 0 of the block's row `r` is row `r` of its column at lane 0. -/
theorem ix_col0 (r : Fin 8) : (ix2 r (0 : Fin 128) : S8x128.Idx) = col0.emb (ix2 r (0 : Fin 1)) := by
  funext a
  match a with
  | ⟨0, _⟩ => exact Fin.ext (by show r.val = 0 + 1 * r.val; omega)
  | ⟨1, _⟩ => exact Fin.ext (by show 0 = 0 + 1 * 0; omega)

/-- A tile's update at lane 0: the row's entry grows by the tile's weighted hinges. -/
theorem step_lane0 (x0 : Vec Ideal S8x57600 .f32) (x1 : Vec Ideal S8x57600 .i32) (x2 x3 prev : Vec Ideal S8x128 .f32) (r : Fin 8) :
    step (F := Ideal) x0 x1 x2 x3 prev (ix2 r (0 : Fin 128))
      = prev (ix2 r (0 : Fin 128))
        + ∑ q : Fin 57600, hinge (x0 (ix2 r q)) (pickB x2 r (x1 (ix2 r q))) * pickB x3 r (x1 (ix2 r q)) := by
  unfold step
  rw [ix_col0, Rect.overlay_emb]
  refine (pay1_apply _ _ _ r).trans ?_
  refine congrArg₂ (· + ·) rfl (Finset.sum_congr rfl fun q _ => ?_)
  rw [aG_apply, wG_apply]
  rfl

/-- A tile's update off lane 0: nothing changes. -/
theorem step_lane_ne (x0 : Vec Ideal S8x57600 .f32) (x1 : Vec Ideal S8x57600 .i32) (x2 x3 prev : Vec Ideal S8x128 .f32) (r : Fin 8)
    (q : Fin 128) (hq : q.val ≠ 0) :
    step (F := Ideal) x0 x1 x2 x3 prev (ix2 r q) = prev (ix2 r q) := by
  unfold step
  refine Rect.overlay_of_not_mem _ _ _ ?_
  rw [Rect.mem_set_unit]
  intro h
  have h1 : q.val < 0 + 1 := (h 1).2
  omega

/-! ## The blocks at a grid point, and what the block holds after each point -/

variable (V : (c : Dev nD) → (b : Ref sig .tc) → Buf (Elt Ideal) ((c : Thread nD τ).loc b))

/-- The feature, label, mean and weight blocks at a point, by their literal types. -/
abbrev xblk (c : Dev nD) (t : Fin cfg1.N) : Vec Ideal S8x57600 .f32 := iblk1 V c 0 t
abbrev gblk (c : Dev nD) (t : Fin cfg1.N) : Vec Ideal S8x57600 .i32 := iblk1 V c 1 t
abbrev mblk (c : Dev nD) (t : Fin cfg1.N) : Vec Ideal S8x128 .f32 := iblk1 V c 2 t
abbrev wblk (c : Dev nD) (t : Fin cfg1.N) : Vec Ideal S8x128 .f32 := iblk1 V c 3 t

/-- After the first tile of a row group the block is the reset block updated by that tile. -/
theorem outsAt_A (c : Dev nD) (t : Fin cfg1.N) (h0 : t.val % 16 = 0) :
    outsAt1 V c t.val t.isLt = step (xblk V c t) (gblk V c t) (mblk V c t) (wblk V c t) (k1_pay2 (F := Ideal)) :=
  (outsAt1_A V c t h0).trans
    (out_A (F := Ideal) c (grid1.coords t) (ms1_0 t) (hs1_0 t) (ms1_1 t) (hs1_1 t) (ms1_2 t) (hs1_2 t) (ms1_3 t) (hs1_3 t)
      (ms1_4 t) (hs1_4 t) ((hcond1_0 t).mpr h0) (iblk1 V c 0 t) (iblk1 V c 1 t) (iblk1 V c 2 t) (iblk1 V c 3 t))

/-- After a later tile it is what the tile before left, updated by this tile. -/
theorem outsAt_B (c : Dev nD) (t : Fin cfg1.N) (h0 : ¬t.val % 16 = 0) :
    outsAt1 V c t.val t.isLt = step (xblk V c t) (gblk V c t) (mblk V c t) (wblk V c t)
      (outsAt1 V c (t.val - 1) (Nat.lt_of_le_of_lt (Nat.sub_le _ _) t.isLt)) :=
  (outsAt1_B V c t h0).trans
    (out_B (F := Ideal) c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)))

/-- The weighted hinges of row `r` of the tile at point `n` (zero past the grid). -/
def tileSum (c : Dev nD) (n : ℕ) (r : Fin 8) : EReal :=
  if h : n < cfg1.N then
    ∑ q : Fin 57600, hinge (xblk V c ⟨n, h⟩ (ix2 r q)) (pickB (mblk V c ⟨n, h⟩) r (gblk V c ⟨n, h⟩ (ix2 r q)))
      * pickB (wblk V c ⟨n, h⟩) r (gblk V c ⟨n, h⟩ (ix2 r q))
  else 0

theorem tileSum_eq (c : Dev nD) (t : Fin cfg1.N) (r : Fin 8) :
    tileSum V c t.val r = ∑ q : Fin 57600, hinge (xblk V c t (ix2 r q)) (pickB (mblk V c t) r (gblk V c t (ix2 r q)))
      * pickB (wblk V c t) r (gblk V c t (ix2 r q)) := dif_pos t.isLt

/-- At the first tile of a row group lane 0 holds that tile's sums. -/
theorem outsAt_lane0_A (c : Dev nD) (r : Fin 8) (t : Fin cfg1.N) (h0 : t.val % 16 = 0) :
    outsAt1 V c t.val t.isLt (ix2 r (0 : Fin 128))
      = ∑ j ∈ Finset.range (t.val % 16 + 1), tileSum V c (t.val - t.val % 16 + j) r := by
  rw [h0, Finset.sum_range_one, Nat.sub_zero, Nat.add_zero, outsAt_A V c t h0, step_lane0, tileSum_eq]
  show f0 + _ = _
  rw [f0_eq, zero_add]

/-- After point `n` lane 0 of row `r` holds the sums of the tiles of `n`'s row group up to `n`. -/
theorem outsAt_lane0 (c : Dev nD) (r : Fin 8) : ∀ (n : ℕ) (hn : n < cfg1.N),
    outsAt1 V c n hn (ix2 r (0 : Fin 128)) = ∑ j ∈ Finset.range (n % 16 + 1), tileSum V c (n - n % 16 + j) r := by
  intro n
  induction n with
  | zero => intro hn; exact outsAt_lane0_A V c r ⟨0, hn⟩ rfl
  | succ n ih =>
    intro hn
    by_cases h0 : (n + 1) % 16 = 0
    · exact outsAt_lane0_A V c r ⟨n + 1, hn⟩ h0
    · rw [show outsAt1 V c (n + 1) hn = _ from outsAt_B V c ⟨n + 1, hn⟩ h0, step_lane0]
      show outsAt1 V c n _ (ix2 r (0 : Fin 128)) + _ = _
      rw [ih (Nat.lt_of_succ_lt hn), ← tileSum_eq V c ⟨n + 1, hn⟩ r]
      have hm : (n + 1) % 16 = n % 16 + 1 := by omega
      have hd : n + 1 - (n % 16 + 1) = n - n % 16 := by omega
      rw [hm, hd, Finset.sum_range_succ _ (n % 16 + 1)]
      refine congrArg₂ (· + ·) rfl ?_
      show tileSum V c (n + 1) r = _
      congr 1
      omega

/-- Off lane 0 the block holds zero after every point. -/
theorem outsAt_lane_ne (c : Dev nD) (r : Fin 8) (q : Fin 128) (hq : q.val ≠ 0) : ∀ (n : ℕ) (hn : n < cfg1.N),
    outsAt1 V c n hn (ix2 r q) = 0 := by
  have hA : ∀ t : Fin cfg1.N, t.val % 16 = 0 → outsAt1 V c t.val t.isLt (ix2 r q) = 0 := fun t h0 => by
    rw [outsAt_A V c t h0, step_lane_ne _ _ _ _ _ r q hq]
    exact f0_eq
  intro n
  induction n with
  | zero => intro hn; exact hA ⟨0, hn⟩ rfl
  | succ n ih =>
    intro hn
    by_cases h0 : (n + 1) % 16 = 0
    · exact hA ⟨n + 1, hn⟩ h0
    · rw [show outsAt1 V c (n + 1) hn = _ from outsAt_B V c ⟨n + 1, hn⟩ h0, step_lane_ne _ _ _ _ _ r q hq]
      exact ih (Nat.lt_of_succ_lt hn)

/-! ## From the blocks to the arrays -/

/-- The four arrays the kernel is entered with, by their literal types. -/
abbrev xarr (c : Dev nD) : FVec Ideal SX .f32 := V c main_v0
abbrev garr (c : Dev nD) : IVec SX 32 := V c main_v1
abbrev marr (c : Dev nD) : FVec Ideal ST .f32 := V c main_v5
abbrev warr (c : Dev nD) : FVec Ideal ST .f32 := V c main_v11

/-- The block indices at point `t`: the features' and the labels' block is (row group `t / 16`, tile `t % 16`),
    the tables' and the result's is (row group `t / 16`, 0) — decided over the grid. -/
theorem idx_x : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
theorem idx_g : ∀ t : Fin cfg1.N, win1_1.index t 0 = t.val / 16 ∧ win1_1.index t 1 = t.val % 16 :=
  (by decide +kernel : ∀ t : Fin grid1.N, win1_1.index t 0 = t.val / 16 ∧ win1_1.index t 1 = t.val % 16)
theorem idx_m : ∀ t : Fin cfg1.N, win1_2.index t 0 = t.val / 16 ∧ win1_2.index t 1 = 0 :=
  (by decide +kernel : ∀ t : Fin grid1.N, win1_2.index t 0 = t.val / 16 ∧ win1_2.index t 1 = 0)
theorem idx_w : ∀ t : Fin cfg1.N, win1_3.index t 0 = t.val / 16 ∧ win1_3.index t 1 = 0 :=
  (by decide +kernel : ∀ t : Fin grid1.N, win1_3.index t 0 = t.val / 16 ∧ win1_3.index t 1 = 0)
theorem idx_o : ∀ t : Fin cfg1.N, win1_4.index t 0 = t.val / 16 ∧ win1_4.index t 1 = 0 :=
  (by decide +kernel : ∀ t : Fin grid1.N, win1_4.index t 0 = t.val / 16 ∧ win1_4.index t 1 = 0)

/-- The feature block at point `t` is rows `8 (t / 16) …`, pixels `57600 (t % 16) …` of the feature array. -/
theorem xblk_apply (c : Dev nD) (t : Fin cfg1.N) (r : Fin 8) (q : Fin 57600) (k : SX.Idx)
    (hk0 : (k 0).val = 8 * (t.val / 16) + r.val) (hk1 : (k 1).val = 57600 * (t.val % 16) + q.val) :
    xblk V c t (ix2 r q) = xarr V c k := by
  have hi := idx_x t
  unfold xblk iblk1
  rw [View.read_apply]
  show V c main_v0 _ = V c main_v0 _
  congr 1
  funext a
  apply Fin.ext
  match a with
  | ⟨0, _⟩ => show win1_0.index t 0 * 8 + 1 * r.val = (k 0).val; rw [hi.1, hk0]; omega
  | ⟨1, _⟩ => show win1_0.index t 1 * 57600 + 1 * q.val = (k 1).val; rw [hi.2, hk1]; omega

/-- The label block likewise. -/
theorem gblk_apply (c : Dev nD) (t : Fin cfg1.N) (r : Fin 8) (q : Fin 57600) (k : SX.Idx)
    (hk0 : (k 0).val = 8 * (t.val / 16) + r.val) (hk1 : (k 1).val = 57600 * (t.val % 16) + q.val) :
    gblk V c t (ix2 r q) = garr V c k := by
  have hi := idx_g t
  unfold gblk iblk1
  rw [View.read_apply]
  show V c main_v1 _ = V c main_v1 _
  congr 1
  funext a
  apply Fin.ext
  match a with
  | ⟨0, _⟩ => show win1_1.index t 0 * 8 + 1 * r.val = (k 0).val; rw [hi.1, hk0]; omega
  | ⟨1, _⟩ => show win1_1.index t 1 * 57600 + 1 * q.val = (k 1).val; rw [hi.2, hk1]; omega

/-- The mean block at point `t` is rows `8 (t / 16) …` of the mean table. -/
theorem mblk_apply (c : Dev nD) (t : Fin cfg1.N) (r : Fin 8) (l : Fin 128) (b : Fin 16)
    (hb : b.val = 8 * (t.val / 16) + r.val) : mblk V c t (ix2 r l) = marr V c (ix2 b l) := by
  have hi := idx_m t
  unfold mblk iblk1
  rw [View.read_apply]
  show V c main_v5 _ = V c main_v5 _
  congr 1
  funext a
  apply Fin.ext
  match a with
  | ⟨0, _⟩ => show win1_2.index t 0 * 8 + 1 * r.val = b.val; rw [hi.1, hb]; omega
  | ⟨1, _⟩ => show win1_2.index t 1 * 128 + 1 * l.val = l.val; rw [hi.2]; omega

/-- The weight block likewise. -/
theorem wblk_apply (c : Dev nD) (t : Fin cfg1.N) (r : Fin 8) (l : Fin 128) (b : Fin 16)
    (hb : b.val = 8 * (t.val / 16) + r.val) : wblk V c t (ix2 r l) = warr V c (ix2 b l) := by
  have hi := idx_w t
  unfold wblk iblk1
  rw [View.read_apply]
  show V c main_v11 _ = V c main_v11 _
  congr 1
  funext a
  apply Fin.ext
  match a with
  | ⟨0, _⟩ => show win1_3.index t 0 * 8 + 1 * r.val = b.val; rw [hi.1, hb]; omega
  | ⟨1, _⟩ => show win1_3.index t 1 * 128 + 1 * l.val = l.val; rw [hi.2]; omega

/-- A pixel's entry of a block that is row `b`'s part of a table is its entry of the table. -/
theorem pickB_eq (tb : FVec Ideal S8x128 .f32) (T : FVec Ideal ST .f32) (r : Fin 8) (b : Fin 16)
    (h : ∀ l : Fin 128, tb (ix2 r l) = T (ix2 b l)) (w : BitVec 32) : pickB tb r w = pick T b w := by
  unfold pickB pick
  simp only [h]

/-- A pixel's term of the pull sum. -/
abbrev term (c : Dev nD) (b : Fin 16) (n : Fin 921600) : EReal :=
  hinge (xarr V c (ix2 b n)) (pick (marr V c) b (garr V c (ix2 b n))) * pick (warr V c) b (garr V c (ix2 b n))

/-- The sums of row `r` of the tile at point `t` are those of tile `t % 16` of row `8 (t / 16) + r` of the arrays. -/
theorem tileSum_arr (c : Dev nD) (t : Fin cfg1.N) (r : Fin 8) (b : Fin 16) (hb : b.val = 8 * (t.val / 16) + r.val)
    (j : Fin 16) (hj : t.val % 16 = j.val) :
    tileSum V c t.val r
      = ∑ q : Fin 57600, term V c b ⟨57600 * j.val + q.val, Cert.SumSplit.lt_of_run (by norm_num : 16 * 57600 = 921600) j q⟩ := by
  rw [tileSum_eq]
  refine Finset.sum_congr rfl fun q _ => ?_
  have ex := xblk_apply V c t r q
    (ix2 b ⟨57600 * j.val + q.val, Cert.SumSplit.lt_of_run (by norm_num : 16 * 57600 = 921600) j q⟩) hb (by rw [hj])
  have eg := gblk_apply V c t r q
    (ix2 b ⟨57600 * j.val + q.val, Cert.SumSplit.lt_of_run (by norm_num : 16 * 57600 = 921600) j q⟩) hb (by rw [hj])
  rw [ex, eg, pickB_eq _ (marr V c) r b (fun l => mblk_apply V c t r l b hb),
    pickB_eq _ (warr V c) r b (fun l => wblk_apply V c t r l b hb)]

/-- The pull table at an index whose row is `b` and whose lane is `l`. -/
theorem pullTab_apply (x : FVec Ideal SX .f32) (g : IVec SX 32) (mt wt : FVec Ideal ST .f32) (i : ST.Idx) (b : Fin 16) (l : Fin 128)
    (hb : (i 0).val = b.val) (hl : (i 1).val = l.val) :
    pullTab x g mt wt i
      = if l.val = 0 then ∑ n : Fin 921600, hinge (x (ix2 b n)) (pick mt b (g (ix2 b n))) * pick wt b (g (ix2 b n)) else 0 := by
  have e : rowOf i = b := Fin.ext hb
  unfold pullTab
  rw [e, hl]

/-- What a flushing point writes back is its block of the pull table. -/
theorem flushed_eq (c : Dev nD) (t : Fin cfg1.N) (hf : (cfg1.win 4).flush t = true) :
    (dat1 (F := Ideal) V c).flushed 4 t
      = ((cfg1.win 4).blk t).view.read (Elt Ideal) (pullTab (xarr V c) (garr V c) (marr V c) (warr V c)) := by
  have h15 : t.val % 16 = 15 := (flush1_4 t).mp hf
  have hi := idx_o t
  have hN : t.val < 32 := lt_of_lt_of_eq t.isLt N_1
  show (cfg1.win 4).cut (grid1.coords t) ((dat1 (F := Ideal) V c).after 4 t) = _
  rw [after1_4]
  refine funext fun (y : S8x128.Idx) => ?_
  obtain ⟨r, q, rfl⟩ : ∃ (r : Fin 8) (q : Fin 128), y = ix2 r q := ⟨y 0, y 1, eq_ix2 y⟩
  rw [View.read_apply]
  show outsAt1 V c t.val t.isLt (ix2 r q) = pullTab (xarr V c) (garr V c) (marr V c) (warr V c) _
  have hr := r.isLt
  refine Eq.trans ?_ (pullTab_apply _ _ _ _ _ ⟨8 * (t.val / 16) + r.val, by omega⟩ q ?_ ?_).symm
  · by_cases hq : q.val = 0
    · obtain rfl : q = (0 : Fin 128) := Fin.ext hq
      rw [if_pos hq, outsAt_lane0 V c r t.val t.isLt, h15]
      show (∑ j ∈ Finset.range 16, tileSum V c (t.val - 15 + j) r) = _
      rw [Finset.sum_range, Cert.SumSplit.sum_split 16 57600 921600 (by norm_num)]
      refine Finset.sum_congr rfl fun j _ => ?_
      have hj := j.isLt
      have hlt : t.val - 15 + j.val < cfg1.N := by have := t.isLt; omega
      exact tileSum_arr V c ⟨t.val - 15 + j.val, hlt⟩ r _
        (by show 8 * (t.val / 16) + r.val = 8 * ((t.val - 15 + j.val) / 16) + r.val; omega) j
        (by show (t.val - 15 + j.val) % 16 = j.val; omega)
    · rw [if_neg hq]
      exact outsAt_lane_ne V c r q hq t.val t.isLt
  · show win1_4.index t 0 * 8 + 1 * r.val = 8 * (t.val / 16) + r.val
    rw [hi.1]; omega
  · show win1_4.index t 1 * 128 + 1 * q.val = q.val
    rw [hi.2]; omega

/-- Every index of the result lies in the block of the last point of its row group, which writes back. -/
theorem covered (i : ST.Idx) :
    ∃ t : Fin cfg1.N, (cfg1.win 4).flush t = true ∧ i ∈ ((cfg1.win 4).blk t).view.set := by
  have h0 : (i 0 : Nat) < 16 := idx2_lt0 i
  have h1 : (i 1 : Nat) < 128 := idx2_lt1 i
  have hN : cfg1.N = 32 := N_1
  have hlt : 16 * ((i 0 : Nat) / 8) + 15 < cfg1.N := by rw [hN]; omega
  have hi := idx_o ⟨16 * ((i 0 : Nat) / 8) + 15, hlt⟩
  refine ⟨⟨16 * ((i 0 : Nat) / 8) + 15, hlt⟩, (flush1_4 _).mpr (by show (16 * ((i 0 : Nat) / 8) + 15) % 16 = 15; omega), ?_⟩
  show i ∈ ((View.whole main_v12).slice (win1_4.rect ⟨16 * ((i 0 : Nat) / 8) + 15, hlt⟩)).set
  rw [View.set_slice_whole, Rect.mem_set_unit]
  intro a
  match a with
  | ⟨0, _⟩ =>
    show win1_4.index ⟨16 * ((i 0 : Nat) / 8) + 15, hlt⟩ 0 * 8 ≤ (i 0 : Nat)
      ∧ (i 0 : Nat) < win1_4.index ⟨16 * ((i 0 : Nat) / 8) + 15, hlt⟩ 0 * 8 + 8
    rw [hi.1]
    show (16 * ((i 0 : Nat) / 8) + 15) / 16 * 8 ≤ (i 0 : Nat) ∧ (i 0 : Nat) < (16 * ((i 0 : Nat) / 8) + 15) / 16 * 8 + 8
    omega
  | ⟨1, _⟩ =>
    show win1_4.index ⟨16 * ((i 0 : Nat) / 8) + 15, hlt⟩ 1 * 128 ≤ (i 1 : Nat)
      ∧ (i 1 : Nat) < win1_4.index ⟨16 * ((i 0 : Nat) / 8) + 15, hlt⟩ 1 * 128 + 128
    rw [hi.2]
    omega

/-- The pull array after the second kernel. -/
theorem pull_final (c : Dev nD) :
    (dat1 (F := Ideal) V c).arrAt 4 cfg1.N = pullTab (V c main_v0) (V c main_v1) (V c main_v5) (V c main_v11) :=
  (dat1 (F := Ideal) V c).arrAt_eq_of_cover 4 (pullTab (xarr V c) (garr V c) (marr V c) (warr V c)) (flushed_eq V c)
    (fun i => covered i)

end Cert.KernelIdeal.Pull

end
-- ==== Proof.HostK.lean ====
import proofs.«410523_j1022202216834_3_alg».proof.Proof.Gen.KernelIdeal.Frame
import proofs.«410523_j1022202216834_3_alg».proof.Proof.Spec
import proofs.«410523_j1022202216834_3_alg».proof.Proof.StatsCnt
import proofs.«410523_j1022202216834_3_alg».proof.Proof.StatsTot
import proofs.«410523_j1022202216834_3_alg».proof.Proof.Pull
import Idealize.ShloMosaic.Lib.Pipeline.Value
import Idealize.ShloMosaic.Lib.StableHlo.Run
import Idealize.ShloMosaic.Lib.ValueLayout
import Idealize.ShloMosaic.Lib.ValueIdxRank1
import Idealize.ShloMosaic.PureOps.Ideal.Laws

/-!
The kernel program's result read back through its host operations: the two inputs flattened, the
first kernel's count and sum tables, the mean, presence and weight tables made of them, the second
kernel's pull table, and from there the shared last part — so the result is `loss` of the label
means, the presence flags, a fallback that is zero (zero times anything) and the pull sum as the
kernel adds it up.
-/

set_option maxRecDepth 16384

noncomputable section

namespace Cert.KernelIdeal.HostK

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-- The features, one row per image. -/
abbrev X (c : Dev nD) : FVec Ideal SX .f32 := shapeCast SX (m ((c.tc : Thread nD τ).loc main_arg0)) shapeCasts_S16x1x720x1280_S16x921600
/-- The label words, one row per image. -/
abbrev G (c : Dev nD) : IVec SX 32 := shapeCast SX (m ((c.tc : Thread nD τ).loc main_arg1)) shapeCasts_S16x1x720x1280_S16x921600

/-! ## The buffers at each boundary of the program

The two reshapes give the flattened inputs; the first kernel leaves the count and sum tables and its
inputs as they were; the host divisions and the comparison make the mean, presence and weight tables;
the second kernel leaves the pull table, its inputs and the presence table as they were. -/

/-- After the two reshapes the first buffer holds the flattened features. -/
theorem W1_v0 (c : Dev nD) : (W1 (F := Ideal) m ρ c (Proc.devRef .tc main_v0) : FVec Ideal SX .f32) = X m c := by
  show StableHlo.after hostOps0 _ (Proc.devRef .tc main_v0) = _
  after_results
  rfl

/-- … and the second the flattened label words. -/
theorem W1_v1 (c : Dev nD) : (W1 (F := Ideal) m ρ c (Proc.devRef .tc main_v1) : IVec SX 32) = G m c := by
  show StableHlo.after hostOps0 _ (Proc.devRef .tc main_v1) = _
  after_results
  rfl

/-- After the first kernel its first output holds the count table of the label words. -/
theorem W2_cnt (c : Dev nD) : (W2 (F := Ideal) m ρ c (Proc.devRef .tc main_v2_0) : FVec Ideal ST .f32) = cntTab (G m c) := by
  refine (W2_arr (F := Ideal) m ρ c 2).trans ?_
  refine (StatsCnt.cnt_final (V1 m ρ) c).trans ?_
  exact congrArg cntTab (W1_v1 m ρ c)

/-- … and its second output the sum table of the features by label. -/
theorem W2_tot (c : Dev nD) : (W2 (F := Ideal) m ρ c (Proc.devRef .tc main_v2_1) : FVec Ideal ST .f32) = totTab (X m c) (G m c) := by
  refine (W2_arr (F := Ideal) m ρ c 3).trans ?_
  refine (StatsTot.tot_final (V1 m ρ) c).trans ?_
  exact congrArg₂ totTab (W1_v0 m ρ c) (W1_v1 m ρ c)

/-- The first kernel leaves the flattened features as they were (an input is never written back). -/
theorem W2_v0 (c : Dev nD) : (W2 (F := Ideal) m ρ c (Proc.devRef .tc main_v0) : FVec Ideal SX .f32) = X m c := by
  refine (W2_arr (F := Ideal) m ρ c 0).trans ?_
  refine ((dat0 (V1 m ρ) c).arrAt_in 0 rfl cfg0.N).trans ?_
  refine (A_eq0 (V1 m ρ) c 0).trans ?_
  exact W1_v0 m ρ c

/-- … and the flattened label words. -/
theorem W2_v1 (c : Dev nD) : (W2 (F := Ideal) m ρ c (Proc.devRef .tc main_v1) : IVec SX 32) = G m c := by
  refine (W2_arr (F := Ideal) m ρ c 1).trans ?_
  refine ((dat0 (V1 m ρ) c).arrAt_in 1 rfl cfg0.N).trans ?_
  refine (A_eq0 (V1 m ρ) c 1).trans ?_
  exact W1_v1 m ρ c

/-- The mean table: the sum table divided, entry by entry, by the count table raised to one. -/
theorem W3_v5 (c : Dev nD) : (W3 (F := Ideal) m ρ c (Proc.devRef .tc main_v5) : FVec Ideal ST .f32)
    = meanTab (cntTab (G m c)) (totTab (X m c) (G m c)) := by
  show StableHlo.after hostOps1 _ (Proc.devRef .tc main_v5) = _
  after_results
  rw [W2_cnt, W2_tot]
  rfl

/-- The presence table: the count table compared with zero, entry by entry, as a float. -/
theorem W3_v8 (c : Dev nD) : (W3 (F := Ideal) m ρ c (Proc.devRef .tc main_v8) : FVec Ideal ST .f32)
    = vfTab (cntTab (G m c)) := by
  show StableHlo.after hostOps1 _ (Proc.devRef .tc main_v8) = _
  after_results
  rw [W2_cnt]
  rfl

/-- The weight table: the presence table divided, entry by entry, by the count table raised to one. -/
theorem W3_v11 (c : Dev nD) : (W3 (F := Ideal) m ρ c (Proc.devRef .tc main_v11) : FVec Ideal ST .f32)
    = wTab (cntTab (G m c)) := by
  show StableHlo.after hostOps1 _ (Proc.devRef .tc main_v11) = _
  after_results
  rw [W2_cnt]
  rfl

/-- The operations that make the three tables write neither input: the features are as they were, -/
theorem W3_v0 (c : Dev nD) : (W3 (F := Ideal) m ρ c (Proc.devRef .tc main_v0) : FVec Ideal SX .f32) = X m c := by
  show StableHlo.after hostOps1 _ (Proc.devRef .tc main_v0) = _
  after_results
  exact W2_v0 m ρ c

/-- … and so are the label words. -/
theorem W3_v1 (c : Dev nD) : (W3 (F := Ideal) m ρ c (Proc.devRef .tc main_v1) : IVec SX 32) = G m c := by
  show StableHlo.after hostOps1 _ (Proc.devRef .tc main_v1) = _
  after_results
  exact W2_v1 m ρ c

/-- After the second kernel its output holds the pull table of the two inputs, the mean table and the weight table. -/
theorem W4_v12 (c : Dev nD) : (W4 (F := Ideal) m ρ c (Proc.devRef .tc main_v12) : FVec Ideal ST .f32)
    = pullTab (X m c) (G m c) (meanTab (cntTab (G m c)) (totTab (X m c) (G m c))) (wTab (cntTab (G m c))) := by
  refine (W4_arr (F := Ideal) m ρ c 4).trans ?_
  refine (Pull.pull_final (V3 m ρ) c).trans ?_
  exact congr (congr (congrArg₂ pullTab (W3_v0 m ρ c) (W3_v1 m ρ c)) (W3_v5 m ρ c)) (W3_v11 m ρ c)

/-- The second kernel leaves the flattened features as they were, -/
theorem W4_v0 (c : Dev nD) : (W4 (F := Ideal) m ρ c (Proc.devRef .tc main_v0) : FVec Ideal SX .f32) = X m c := by
  refine (W4_arr (F := Ideal) m ρ c 0).trans ?_
  refine ((dat1 (V3 m ρ) c).arrAt_in 0 rfl cfg1.N).trans ?_
  refine (A_eq1 (V3 m ρ) c 0).trans ?_
  exact W3_v0 m ρ c

/-- … the mean table as it was, -/
theorem W4_v5 (c : Dev nD) : (W4 (F := Ideal) m ρ c (Proc.devRef .tc main_v5) : FVec Ideal ST .f32)
    = meanTab (cntTab (G m c)) (totTab (X m c) (G m c)) := by
  refine (W4_arr (F := Ideal) m ρ c 2).trans ?_
  refine ((dat1 (V3 m ρ) c).arrAt_in 2 rfl cfg1.N).trans ?_
  refine (A_eq1 (V3 m ρ) c 2).trans ?_
  exact W3_v5 m ρ c

/-- … and the presence table, which it does not touch. -/
theorem W4_v8 (c : Dev nD) : (W4 (F := Ideal) m ρ c (Proc.devRef .tc main_v8) : FVec Ideal ST .f32)
    = vfTab (cntTab (G m c)) := by
  refine (W4_of_ne (F := Ideal) m ρ c main_v8 (by decide)).trans ?_
  exact W3_v8 m ρ c

/-! ## The last part of the program, over any contents

From the mean table, the presence table, the flattened features and the pull table the closing host
operations compute `loss` of four values read off them: each operation of the program is the same
operation of `loss`, in the same order. -/

section Tail

variable {F : FTy → Type} [FloatOps F]

/-- The label means read off the mean table: lanes 1 … 8. -/
abbrev meansOf (t : FVec F ST .f32) : FVec F SL .f32 :=
  extractStridedSlice S16x8 ![0, 1] (extractStridedSlice S16x9 ![0, 0] t slices_S16x128_S16x9_0_0) slices_S16x9_S16x8_0_1
/-- The presence flags read off the presence table: lanes 1 … 8. -/
abbrev presentOf (t : FVec F ST .f32) : FVec F SL .f32 :=
  extractStridedSlice S16x8 ![0, 1] t slices_S16x128_S16x8_0_1
/-- The fallback value: zero times the features' mean. -/
abbrev fallbackOf (x : FVec F SX .f32) : FVec F S_ .f32 :=
  mulf (constant S_ .f32 0x00000000#32)
    (Host.divf (Host.reduceAdd x (constant S_ .f32 0x00000000#32) reducesTo_S16x921600_S_d0_1 h_S_) (constant S_ .f32 0x4B610000#32))
/-- The pull sum read off the pull table: lane 0 of every row, added up. -/
abbrev pullSumOf (t : FVec F ST .f32) : FVec F S_ .f32 :=
  Host.reduceAdd (shapeCast S16 (extractStridedSlice S16x1 ![0, 0] t slices_S16x128_S16x1_0_0) shapeCasts_S16x1_S16)
    (constant S_ .f32 0x00000000#32) reducesTo_S16_S_d0 h_S_

/-- The closing host operations, from any contents: `loss` of the four values read off the four buffers. -/
theorem tail_eq (f : TailFacts) (V : Valuation τ sig (Elt F)) :
    StableHlo.after hostOps2_4 (StableHlo.after hostOps2_3 (StableHlo.after hostOps2_2
      (StableHlo.after hostOps2_1 (StableHlo.after hostOps2 V)))) (Proc.devRef .tc main_v64)
      = loss f (meansOf (V (Proc.devRef .tc main_v5))) (presentOf (V (Proc.devRef .tc main_v8)))
          (fallbackOf (V (Proc.devRef .tc main_v0))) (pullSumOf (V (Proc.devRef .tc main_v12))) := by
  after_results_simp
  simp only [StableHlo.TRef.ofBuf, StableHlo.TRef.toBuf, cast_eq]
  rfl

end Tail

/-! ## The four values, as functions of the two inputs -/

section Components

/-- The count table at the lane of label `b + 1`. -/
theorem cntTab_lane (g : IVec SX 32) (a : Fin 16) (l : Fin 128) (b : Fin 8) (hl : l.val = b.val + 1) :
    cntTab g (ix2 a l) = cnt g a (b.val + 1) := by
  have h : cntTab g (ix2 a l) = if 1 ≤ l.val ∧ l.val ≤ 8 then cnt g a l.val else 0 := rfl
  rw [h, if_pos ⟨by omega, by omega⟩, hl]

/-- The sum table at the lane of label `b + 1`. -/
theorem totTab_lane (x : FVec Ideal SX .f32) (g : IVec SX 32) (a : Fin 16) (l : Fin 128) (b : Fin 8) (hl : l.val = b.val + 1) :
    totTab x g (ix2 a l) = tot x g a (b.val + 1) := by
  have h : totTab x g (ix2 a l) = if 1 ≤ l.val ∧ l.val ≤ 8 then tot x g a l.val else 0 := rfl
  rw [h, if_pos ⟨by omega, by omega⟩, hl]

/-- The label means are the mean table's lanes 1 … 8. -/
theorem meansOf_tab (x : FVec Ideal SX .f32) (g : IVec SX 32) :
    meansOf (F := Ideal) (meanTab (cntTab g) (totTab x g)) = means x g := by
  funext j
  obtain ⟨a, b, rfl⟩ : ∃ (a : Fin 16) (b : Fin 8), j = ix2 a b := ⟨j 0, j 1, eq_ix2 j⟩
  refine (slice2_axis1_eq 1 _ slices_S16x9_S16x8_0_1 a b).trans ?_
  refine (slice2_axis1_eq 0 _ slices_S16x128_S16x9_0_0 a _).trans ?_
  have hl : 0 + (1 + b.val) = b.val + 1 := by omega
  show Ideal.div (totTab x g (ix2 a _)) (max (cntTab g (ix2 a _)) f1) = Ideal.div (tot x g a (b.val + 1)) (max (cnt g a (b.val + 1)) f1)
  rw [cntTab_lane g a _ b hl, totTab_lane x g a _ b hl]

/-- The presence flags are the presence table's lanes 1 … 8. -/
theorem presentOf_tab (g : IVec SX 32) :
    presentOf (F := Ideal) (vfTab (cntTab g)) = present g := by
  funext j
  obtain ⟨a, b, rfl⟩ : ∃ (a : Fin 16) (b : Fin 8), j = ix2 a b := ⟨j 0, j 1, eq_ix2 j⟩
  refine (slice2_axis1_eq 1 _ slices_S16x128_S16x8_0_1 a b).trans ?_
  have hl : 1 + b.val = b.val + 1 := by omega
  show FloatOps.uitofp (F := Ideal) .f32 (FloatOps.cmpf (F := Ideal) .ogt (cntTab g (ix2 a _)) f0)
    = FloatOps.uitofp (F := Ideal) .f32 (FloatOps.cmpf (F := Ideal) (φ := .f32) .ogt (cnt g a (b.val + 1)) f0)
  rw [cntTab_lane g a _ b hl]

/-- The fallback is zero: zero times any extended real. -/
theorem fallbackOf_zero (x : FVec Ideal SX .f32) : fallbackOf (F := Ideal) x = fun _ => 0 := by
  funext i
  show Ideal.ofBits .f32 0x00000000#32 * _ = 0
  rw [Ideal.ofBits_zero_f32, zero_mul]

end Components

section PullSum

open scoped BigOperators

/-- The pull table at lane 0 of row `b`: the row's weighted hinges. -/
theorem pullTab_lane0 (x : FVec Ideal SX .f32) (g : IVec SX 32) (mt wt : FVec Ideal ST .f32) (b : Fin 16) (l : Fin 128)
    (hl : l.val = 0) :
    pullTab x g mt wt (ix2 b l)
      = ∑ n : Fin 921600, hinge (x (ix2 b n)) (pick mt b (g (ix2 b n))) * pick wt b (g (ix2 b n)) := by
  have h : pullTab x g mt wt (ix2 b l)
      = if l.val = 0 then
          ∑ n : Fin 921600, hinge (x (ix2 b n)) (pick mt b (g (ix2 b n))) * pick wt b (g (ix2 b n))
        else 0 := rfl
  rw [h, if_pos hl]

/-- A host sum to a scalar, read at the ideal values: the initial value plus the sum over every index. -/
theorem pullSumOf_apply (t : FVec Ideal ST .f32) (i : S_.Idx) :
    pullSumOf (F := Ideal) t i
      = f0 + ∑ b : Fin 16, t (ix2 b (0 : Fin 128)) := by
  have hsum : pullSumOf (F := Ideal) t i
      = f0 + ∑ j : S16.Idx, shapeCast S16 (extractStridedSlice S16x1 ![0, 0] t slices_S16x128_S16x1_0_0) shapeCasts_S16x1_S16 j := by
    show Host.reduceAdd (shapeCast S16 (extractStridedSlice S16x1 ![0, 0] t slices_S16x128_S16x1_0_0) shapeCasts_S16x1_S16)
      (constant (F := Ideal) S_ .f32 0x00000000#32) reducesTo_S16_S_d0 h_S_ i = _
    generalize shapeCast S16 (extractStridedSlice S16x1 ![0, 0] t slices_S16x128_S16x1_0_0) shapeCasts_S16x1_S16 = y0
    simp only [Host.reduceAdd, Ideal.hostReduceAdd_def]
    exact Ideal.hostReduceAdd_total reducesTo_S16_S_d0 (fun b => b.elim0) y0 _ i
  rw [hsum]
  refine congrArg (f0 + ·) ?_
  refine ((Equiv.sum_comp (idxEquiv1 (n := 16)).symm _).symm).trans ?_
  refine Finset.sum_congr rfl fun b _ => ?_
  show shapeCast S16 (extractStridedSlice S16x1 ![0, 0] t slices_S16x128_S16x1_0_0) shapeCasts_S16x1_S16 (ix1 b) = _
  refine (shapeCast_apply _ shapeCasts_S16x1_S16 (ix1 b) (ix2 b (0 : Fin 1)) (by
    rw [Shape.rowMajor_val_two, Shape.rowMajor_val_one]
    show b.val * 1 + 0 = b.val
    omega)).trans ?_
  exact slice2_axis1_apply 0 t slices_S16x128_S16x1_0_0 b (0 : Fin 1) (0 : Fin 128) rfl

/-- The pull sum read off the pull table is the kernel's pull sum, from the initial zero. -/
theorem pullSumOf_tab (x : FVec Ideal SX .f32) (g : IVec SX 32) :
    pullSumOf (F := Ideal) (pullTab x g (meanTab (cntTab g) (totTab x g)) (wTab (cntTab g)))
      = fun _ => f0 + pullK x g := by
  funext i
  rw [pullSumOf_apply]
  refine congrArg (f0 + ·) ?_
  unfold pullK
  exact Finset.sum_congr rfl fun b _ => pullTab_lane0 x g _ _ b (0 : Fin 128) rfl

end PullSum

/-- The kernel program's result. -/
theorem result_eq (c : Dev nD) (f : TailFacts) :
    W9 (F := Ideal) m ρ c (Proc.devRef .tc main_v64)
      = loss f (means (X m c) (G m c)) (present (G m c)) (fun _ => 0) (fun _ => f0 + pullK (X m c) (G m c)) := by
  show StableHlo.after hostOps2_4 (StableHlo.after hostOps2_3 (StableHlo.after hostOps2_2
    (StableHlo.after hostOps2_1 (StableHlo.after hostOps2 (W4 (F := Ideal) m ρ c))))) (Proc.devRef .tc main_v64) = _
  refine (tail_eq (F := Ideal) f (W4 (F := Ideal) m ρ c)).trans ?_
  have hM : meansOf (F := Ideal) (W4 (F := Ideal) m ρ c (Proc.devRef .tc main_v5)) = means (X m c) (G m c) :=
    (congrArg (meansOf (F := Ideal)) (W4_v5 m ρ c)).trans (meansOf_tab (X m c) (G m c))
  have hP : presentOf (F := Ideal) (W4 (F := Ideal) m ρ c (Proc.devRef .tc main_v8)) = present (G m c) :=
    (congrArg (presentOf (F := Ideal)) (W4_v8 m ρ c)).trans (presentOf_tab (G m c))
  have hFB : fallbackOf (F := Ideal) (W4 (F := Ideal) m ρ c (Proc.devRef .tc main_v0)) = fun _ => 0 :=
    fallbackOf_zero _
  have hPS : pullSumOf (F := Ideal) (W4 (F := Ideal) m ρ c (Proc.devRef .tc main_v12)) = fun _ => f0 + pullK (X m c) (G m c) :=
    (congrArg (pullSumOf (F := Ideal)) (W4_v12 m ρ c)).trans (pullSumOf_tab (X m c) (G m c))
  rw [hM, hP, hFB, hPS]

end Cert.KernelIdeal.HostK

end
-- ==== Proof.LibSegmentSum.lean ====
import Idealize.ShloMosaic.PureOps.Ideal
import Idealize.ShloMosaic.PureOps.Ideal.Laws
import Idealize.ShloMosaic.Lib.ValueIdx
import Idealize.ShloMosaic.Lib.ValueIdxRank1

/-!
A float scatter-add of a flat array read at an index.

A segment sum — `K` accumulators, `N` values, value `n` added into the accumulator its segment number
names — is a scatter with an `add` body whose operand is a rank-1 array of `K` entries, whose scatter
indices are the `[N, 1]` column of segment numbers and whose updates are the `N` values: no update window
axes, the operand's one axis inserted and start-indexed, the index vector on axis 1.  Over the extended
reals entry `s` of the result is the operand's entry plus the sum of the updates whose segment number,
read signed, is `s`; an update whose number is negative or `K` and above lands nowhere.
-/

noncomputable section

open scoped BigOperators

namespace Idealize.ShloMosaic.SegmentSum

open Idealize.ShloMosaic Idealize.ShloMosaic.ValueIdx

/-- The start of update `n`'s window on the operand's one axis: row `n` of the index column, read signed. -/
private theorem start_eq {K N w : Nat} (d : ScatterDims ⟨1, ![K]⟩ ⟨2, ![N, 1]⟩ ⟨1, ![N]⟩)
    (hsd : d.scatterDimsToOperandDims = [0]) (hiv : d.indexVectorDim = 1)
    (idx : IVec ⟨2, ![N, 1]⟩ w) (n : Fin N) (a : Fin 1) :
    d.start (ix1 n) idx a = (idx (ix2 n (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's one coordinate
    unfold ScatterDims.siIdx
    rw [dif_neg (by rw [hiv]; simp)]
    unfold ScatterDims.siCoord
    apply Fin.ext
    simp only [Fin.val_cast]
    have e : ∀ X : Fin 1, ((ix1 n : (⟨1, ![N]⟩ : Shape).Idx) X).val = n.val := fun X => by
      obtain rfl : X = 0 := Subsingleton.elim _ _
      rfl
    exact e _
  | ⟨1, _⟩ =>
    -- axis 1 is the index vector's: the component number, the position of operand axis 0 in the one-entry map
    unfold ScatterDims.siIdx
    rw [dif_pos (by rw [hiv])]
    apply Fin.ext
    show List.idxOf (0 : Fin 1) d.scatterDimsToOperandDims = 0
    rw [hsd]; simp

/-- The operand's one axis is inserted, so the window coordinate on it is `0`. -/
private theorem window_eq {K N : Nat} (d : ScatterDims ⟨1, ![K]⟩ ⟨2, ![N, 1]⟩ ⟨1, ![N]⟩)
    (hiw : d.insertedWindowDims = [0]) (j : (⟨1, ![N]⟩ : Shape).Idx) (a : Fin 1) :
    d.window j a = 0 := by
  obtain rfl : a = 0 := Subsingleton.elim _ _
  unfold ScatterDims.window
  rw [dif_neg]
  simp [ScatterDims.sKept, Shape.kept, hiw]

/-- Where update `n` lands: at the entry its segment number names, when that is one of `0 … K - 1`. -/
theorem resultIdx?_eq_some_iff {K N w : Nat} (d : ScatterDims ⟨1, ![K]⟩ ⟨2, ![N, 1]⟩ ⟨1, ![N]⟩)
    (huw : d.updateWindowDims = []) (hiw : d.insertedWindowDims = [0])
    (hsd : d.scatterDimsToOperandDims = [0]) (hiv : d.indexVectorDim = 1)
    (idx : IVec ⟨2, ![N, 1]⟩ w) (n : Fin N) (s : Fin K) :
    d.resultIdx? (ix1 n) idx = some (ix1 s) ↔ (idx (ix2 n (0 : Fin 1))).toInt = (s.val : Int) := by
  have hst := start_eq d hsd hiv idx n
  have hwin := window_eq d hiw (ix1 n)
  have hK : (⟨1, ![K]⟩ : Shape).size (0 : Fin 1) = K := rfl
  have hs := s.isLt
  unfold ScatterDims.resultIdx?
  split
  · next h =>
    have h0 := h 0
    rw [hst, hwin] at h0
    rw [Option.some.injEq]
    constructor
    · intro e
      have e0 := congrArg (fun f => (f (0 : Fin 1)).val) e
      simp only [hst, hwin] at e0
      change ((idx (ix2 n (0 : Fin 1))).toInt + ((0 : Nat) : Int)).toNat = s.val at e0
      omega
    · intro e
      funext a
      obtain rfl : a = 0 := Subsingleton.elim _ _
      apply Fin.ext
      simp only [hst, hwin]
      show ((idx (ix2 n (0 : Fin 1))).toInt + ((0 : Nat) : Int)).toNat = s.val
      omega
  · next h =>
    constructor
    · intro e; exact absurd e (by simp)
    · intro e
      exfalso
      apply h
      intro a
      obtain rfl : a = 0 := Subsingleton.elim _ _
      rw [hst, hwin, hK, e]
      omega

/-- THE SEGMENT SUM AT AN ENTRY: the operand's entry plus the updates of that segment. -/
theorem scatterAdd_apply {K N w : Nat} (d : ScatterDims ⟨1, ![K]⟩ ⟨2, ![N, 1]⟩ ⟨1, ![N]⟩)
    (huw : d.updateWindowDims = []) (hiw : d.insertedWindowDims = [0])
    (hsd : d.scatterDimsToOperandDims = [0]) (hiv : d.indexVectorDim = 1)
    (x : FVec Ideal ⟨1, ![K]⟩ .f32) (idx : IVec ⟨2, ![N, 1]⟩ w) (upd : FVec Ideal ⟨1, ![N]⟩ .f32) (s : Fin K) :
    Host.scatterAdd (F := Ideal) d x idx upd (ix1 s)
      = x (ix1 s) + ∑ n : Fin N, if (idx (ix2 n (0 : Fin 1))).toInt = (s.val : Int) then upd (ix1 n) else 0 := by
  show Ideal.hostScatterAdd d x idx upd (ix1 s) = _
  unfold Ideal.hostScatterAdd
  congr 1
  rw [Finset.sum_filter]
  -- the updates' indices are the numbers below `N`
  rw [← Equiv.sum_comp (idxEquiv1 (n := N)).symm]
  refine Finset.sum_congr rfl fun n _ => ?_
  show (if d.resultIdx? (ix1 n) idx = some (ix1 s) then upd (ix1 n) else 0) = _
  simp only [resultIdx?_eq_some_iff d huw hiw hsd hiv idx n s]

end Idealize.ShloMosaic.SegmentSum

end
-- ==== Proof.RefSeg.lean ====
import proofs.«410523_j1022202216834_3_alg».proof.Proof.RefRead
import proofs.«410523_j1022202216834_3_alg».proof.Proof.Spec
import proofs.«410523_j1022202216834_3_alg».proof.Proof.LibSegmentSum
import proofs.«410523_j1022202216834_3_alg».proof.Proof.LibSumSplit
import Idealize.ShloMosaic.Lib.StableHlo.Predicate
import Idealize.ShloMosaic.Lib.Pipeline.Value
import Idealize.ShloMosaic.PureOps.Ideal.Laws

/-!
The reference's three segment sums at the segment of a row and one of the labels 1 … 8.  A pixel's
segment number is nine times its row plus its label, an ignore label (255 and above) first sent to 0;
for label words the precondition admits that number lies in its own row's nine segments, so segment
`9·b + l` collects exactly the pixels of row `b` whose label word is `l`: the count, the feature sum,
and — the mean gathered back by segment number being the pixel's own label's mean — the hinge sum.
-/

set_option maxRecDepth 16384

noncomputable section

namespace Cert.ReferenceIdeal.RefSeg

open Idealize.ShloMosaic Idealize.ShloMosaic.TcCoe Idealize.ShloMosaic.ValueIdx Idealize.SL.Sem
open Idealize.ShloMosaic.StableHlo.Predicate
open Cert.ReferenceIdeal Cert.ReferenceIdeal.Gen Cert.ReferenceIdeal.Read Cert.Spec

/-- The features, one row per image. -/
abbrev X (x0 : FVec Ideal S16x1x720x1280 .f32) : FVec Ideal SX .f32 := shapeCast SX x0 shapeCasts_S16x1x720x1280_S16x921600
/-- The label words, one row per image. -/
abbrev G (x1 : IVec S16x1x720x1280 32) : IVec SX 32 := shapeCast SX x1 shapeCasts_S16x1x720x1280_S16x921600

/-- The segment of row `b` and label `l`. -/
abbrev seg (b : Fin 16) (l : ℕ) (hl : l ≤ 8) : S144.Idx := ix1 (⟨9 * b.val + l, by have := b.isLt; omega⟩ : Fin 144)

/-! ## Words: a pixel's label and segment number under the precondition -/

/-- A pixel's label after the ignore test: the word itself when it is below 255 signed, else 0. -/
private def labOf (w : BitVec 32) : BitVec 32 := Scalar.select (IntOp.cmpi .slt w 255#32) w 0#32

/-- A pixel's segment word: nine times its row, plus its label. -/
private def segOf (r : Fin 16) (w : BitVec 32) : BitVec 32 :=
  IntOp.addi (IntOp.muli (BitVec.ofNat 32 r.val) 9#32) (labOf w)

private theorem lbl_toInt (l : ℕ) (h8 : l ≤ 8) : (lbl l).toInt = (l : Int) := toInt_ofNat_small l (by omega)

private theorem labOf_of_small (w : BitVec 32) (h : w.toInt < 255) : labOf w = w := by
  unfold labOf IntOp.cmpi Scalar.select
  have : w.slt 255#32 = true := by
    simp only [BitVec.slt, decide_eq_true_eq]
    have : (255#32 : BitVec 32).toInt = 255 := by decide
    omega
  simp [this]

private theorem labOf_of_big (w : BitVec 32) (h : 255 ≤ w.toInt) : labOf w = 0#32 := by
  unfold labOf IntOp.cmpi Scalar.select
  have : w.slt 255#32 = false := by
    simp only [BitVec.slt, decide_eq_false_iff_not]
    have : (255#32 : BitVec 32).toInt = 255 := by decide
    omega
  simp [this]

/-- The label of an admitted word is one of 0 … 8, and it is `l` (one of 1 … 8) exactly when the word is. -/
private theorem labOf_spec (w : BitVec 32) (hok : LabelOk w) :
    0 ≤ (labOf w).toInt ∧ (labOf w).toInt ≤ 8 ∧
      ∀ l : ℕ, 1 ≤ l → l ≤ 8 → ((labOf w).toInt = (l : Int) ↔ w = lbl l) := by
  obtain ⟨h0, h | h⟩ := hok
  · rw [labOf_of_small w (by omega)]
    refine ⟨h0, h, fun l h1 h8 => ⟨fun e => ?_, fun e => ?_⟩⟩
    · exact BitVec.eq_of_toInt_eq (by rw [e, lbl_toInt l h8])
    · rw [e, lbl_toInt l h8]
  · rw [labOf_of_big w h]
    have z : (0#32 : BitVec 32).toInt = 0 := by decide
    refine ⟨by omega, by omega, fun l h1 h8 => ⟨fun e => ?_, fun e => ?_⟩⟩
    · omega
    · rw [e, lbl_toInt l h8] at h; omega

/-- Nothing overflows: the segment word reads nine times the row plus the label. -/
private theorem segOf_toInt (r : Fin 16) (w : BitVec 32) (hok : LabelOk w) :
    (segOf r w).toInt = 9 * (r.val : Int) + (labOf w).toInt := by
  obtain ⟨h0, h8, -⟩ := labOf_spec w hok
  have hr := r.isLt
  unfold segOf IntOp.addi IntOp.muli
  generalize labOf w = a at *
  -- a word whose signed reading is in 0 … 8 has that unsigned reading too
  have ha : a.toInt = (a.toNat : Int) ∧ a.toNat ≤ 8 := by
    have := BitVec.toInt_eq_toNat_cond a
    have := a.isLt
    split_ifs at * <;> omega
  have hn : (BitVec.ofNat 32 r.val * 9#32 + a).toNat = 9 * r.val + a.toNat := by
    simp only [BitVec.toNat_add, BitVec.toNat_mul, BitVec.toNat_ofNat]
    omega
  rw [toInt_eq_toNat_of_lt (by rw [hn]; omega), hn, ha.1]
  push_cast
  ring

/-- Segment `9·b + l` holds exactly the pixels of row `b` whose word is `l`. -/
private theorem segOf_eq_iff (r b : Fin 16) (w : BitVec 32) (hok : LabelOk w) (l : ℕ) (h1 : 1 ≤ l) (h8 : l ≤ 8) :
    (segOf r w).toInt = ((9 * b.val + l : ℕ) : Int) ↔ r = b ∧ w = lbl l := by
  obtain ⟨h0, h8', hl⟩ := labOf_spec w hok
  rw [segOf_toInt r w hok, ← hl l h1 h8]
  constructor
  · intro e
    have : r.val = b.val := by omega
    exact ⟨Fin.ext this, by omega⟩
  · rintro ⟨rfl, e⟩
    omega

/-- The segment word is one of 0 … 143. -/
private theorem segOf_range (r : Fin 16) (w : BitVec 32) (hok : LabelOk w) :
    0 ≤ (segOf r w).toInt ∧ (segOf r w).toInt ≤ 143 := by
  obtain ⟨h0, h8, -⟩ := labOf_spec w hok
  rw [segOf_toInt r w hok]
  have := r.isLt
  omega

/-! ## Stages read at a pixel: the segment number of pixel `n` of row `r` is that of its label word -/

/-- Pixel `n` of row `r`, counted along the flattened array. -/
private abbrev flat (r : Fin 16) (n : Fin 921600) : Fin 14745600 := ⟨921600 * r.val + n.val, by have := r.isLt; have := n.isLt; omega⟩

private theorem idx11_flat (r : Fin 16) (n : Fin 921600) : idx_main_v11 (ix1 (flat r n)) = ix2 r n := by
  have hr := r.isLt; have hn := n.isLt
  funext a
  match a with
  | ⟨0, _⟩ => exact Fin.ext (by show (921600 * r.val + n.val) / 921600 = r.val; omega)
  | ⟨1, _⟩ => exact Fin.ext (by show (921600 * r.val + n.val) % 921600 = n.val; omega)

private theorem v9_at (r : Fin 16) (n : Fin 921600) :
    val_main_v9 (F := Ideal) (ix2 r n) = IntOp.muli (BitVec.ofNat 32 r.val) 9#32 := by
  rw [val_main_v9_apply, val_main_v8_apply, val_main_v6_apply, val_main_v5_apply, val_main_v7_apply, val_main_c_1_apply]

private theorem v4_at (x1 : IVec S16x1x720x1280 32) (r : Fin 16) (n : Fin 921600) :
    val_main_v4 (F := Ideal) x1 (ix2 r n) = labOf (G x1 (ix2 r n)) := by
  rw [val_main_v4_apply, val_main_v3_apply, val_main_v2_apply, val_main_c_apply, val_main_call0_v1_apply,
    val_main_call0_v0_apply, val_main_c_0_apply]
  rfl

private theorem v11_at (x1 : IVec S16x1x720x1280 32) (r : Fin 16) (n : Fin 921600) :
    val_main_v11 (F := Ideal) x1 (ix1 (flat r n)) = segOf r (G x1 (ix2 r n)) := by
  rw [val_main_v11_apply, idx11_flat, val_main_v10_apply, v9_at, v4_at]
  rfl

/-! ## The segment's pixels, and a segment sum into zeros read at a segment -/

/-- The precondition, on the flattened labels. -/
private theorem labelOk_G (x1 : IVec S16x1x720x1280 32) (hok : ∀ j, LabelOk (x1 j)) (j : SX.Idx) : LabelOk (G x1 j) := by
  have e : G x1 j = x1 (idx_main_v1 j) := val_main_v1_apply (F := Ideal) x1 j
  rw [e]; exact hok _

/-- THE SEGMENT'S PIXELS: a sum over all pixels of the terms whose segment number is `9·b + l` is the sum over
    row `b` of the terms whose label word is `l`. -/
private theorem seg_sum (x1 : IVec S16x1x720x1280 32) (hok : ∀ j, LabelOk (x1 j)) (b : Fin 16) (l : ℕ) (h1 : 1 ≤ l) (h8 : l ≤ 8)
    (u : Fin 14745600 → EReal) :
    (∑ p : Fin 14745600, if (val_main_v11 (F := Ideal) x1 (ix1 p)).toInt = ((9 * b.val + l : ℕ) : Int) then u p else 0)
      = ∑ n : Fin 921600, if G x1 (ix2 b n) = lbl l then u (flat b n) else 0 := by
  have key : ∀ (t : Fin 16) (q : Fin 921600),
      ((val_main_v11 (F := Ideal) x1 (ix1 (flat t q))).toInt = ((9 * b.val + l : ℕ) : Int))
        ↔ (t = b ∧ G x1 (ix2 t q) = lbl l) := fun t q => by
    rw [v11_at]; exact segOf_eq_iff t b _ (labelOk_G x1 hok _) l h1 h8
  rw [Cert.SumSplit.sum_split 16 921600 14745600 rfl]
  show (∑ t : Fin 16, ∑ q : Fin 921600,
    if (val_main_v11 (F := Ideal) x1 (ix1 (flat t q))).toInt = ((9 * b.val + l : ℕ) : Int) then u (flat t q) else 0) = _
  simp only [key]
  rw [Finset.sum_eq_single b]
  · refine Finset.sum_congr rfl fun q _ => ?_
    simp only [true_and]
  · intro t _ ht
    refine Finset.sum_eq_zero fun q _ => ?_
    rw [if_neg (fun h => ht h.1)]
  · intro h; exact absurd (Finset.mem_univ b) h

/-- The segment-number column read at a pixel: the three scatters' index operands are this same broadcast. -/
private theorem col_at (x1 : IVec S16x1x720x1280 32) (n : Fin 14745600) :
    val_main_v15 (F := Ideal) x1 (ix2 n (0 : Fin 1)) = val_main_v11 (F := Ideal) x1 (ix1 n) := by
  rw [val_main_v15_apply]
  congr 1
  funext a
  match a with
  | ⟨0, _⟩ => rfl

/-- A segment sum into zeros, read at segment `9·b + l`: the updates of row `b`'s pixels whose label word is `l`. -/
private theorem scatter_at (x1 : IVec S16x1x720x1280 32) (hok : ∀ j, LabelOk (x1 j)) (b : Fin 16) (l : ℕ) (h1 : 1 ≤ l) (h8 : l ≤ 8)
    (z : FVec Ideal S144 .f32) (hz : z (seg b l h8) = f0) (upd : FVec Ideal S14745600 .f32) :
    Host.scatterAdd (F := Ideal) scatter_S144_S14745600x1_S14745600_n_0_0_1 z (val_main_v15 (F := Ideal) x1) upd (seg b l h8)
      = ∑ n : Fin 921600, if G x1 (ix2 b n) = lbl l then upd (ix1 (flat b n)) else 0 := by
  refine (Idealize.ShloMosaic.SegmentSum.scatterAdd_apply scatter_S144_S14745600x1_S14745600_n_0_0_1 rfl rfl rfl rfl
    z (val_main_v15 (F := Ideal) x1) upd (⟨9 * b.val + l, by have := b.isLt; omega⟩ : Fin 144)).trans ?_
  rw [hz, f0_eq, zero_add]
  simp only [col_at]
  exact seg_sum x1 hok b l h1 h8 (fun p => upd (ix1 p))

private theorem idx12_flat (r : Fin 16) (n : Fin 921600) : idx_main_v12 (ix1 (flat r n)) = ix2 r n := by
  have hr := r.isLt; have hn := n.isLt
  funext a
  match a with
  | ⟨0, _⟩ => exact Fin.ext (by show (921600 * r.val + n.val) / 921600 = r.val; omega)
  | ⟨1, _⟩ => exact Fin.ext (by show (921600 * r.val + n.val) % 921600 = n.val; omega)

/-- The flattened features at a pixel. -/
private theorem v12_at (x0 : FVec Ideal S16x1x720x1280 .f32) (r : Fin 16) (n : Fin 921600) :
    val_main_v12 (F := Ideal) x0 (ix1 (flat r n)) = X x0 (ix2 r n) := by
  rw [val_main_v12_apply, idx12_flat]
  rfl

/-- The count segment sum at `(b, l)`. -/
theorem count_apply (x1 : IVec S16x1x720x1280 32) (hok : ∀ j, LabelOk (x1 j)) (b : Fin 16) (l : ℕ) (h1 : 1 ≤ l) (h8 : l ≤ 8) :
    val_main_v16 (F := Ideal) x1 (seg b l h8) = cnt (G x1) b l := by
  unfold val_main_v16
  rw [scatter_at x1 hok b l h1 h8 _ (by rw [val_main_v14_apply, val_main_cst_2_apply]; rfl)]
  unfold cnt
  refine Finset.sum_congr rfl fun n _ => ?_
  rw [val_main_v13_apply, val_main_cst_apply, f0_eq]
  rfl

/-- The feature segment sum at `(b, l)`. -/
theorem total_apply (x0 : FVec Ideal S16x1x720x1280 .f32) (x1 : IVec S16x1x720x1280 32) (hok : ∀ j, LabelOk (x1 j))
    (b : Fin 16) (l : ℕ) (h1 : 1 ≤ l) (h8 : l ≤ 8) :
    val_main_v19 (F := Ideal) x0 x1 (seg b l h8) = tot (X x0) (G x1) b l := by
  unfold val_main_v19
  rw [show val_main_v18 (F := Ideal) x1 = val_main_v15 (F := Ideal) x1 from rfl,
    scatter_at x1 hok b l h1 h8 _ (by rw [val_main_v17_apply, val_main_cst_3_apply]; rfl)]
  unfold tot
  refine Finset.sum_congr rfl fun n _ => ?_
  rw [v12_at, f0_eq]

/-! ## The mean gathered back, and the hinge -/

/-- A rank-1 index written either way. -/
private theorem ofFin_eq_ix1 {n : Nat} (k : Fin n) : Shape.Idx.ofFin k = ix1 k := by
  funext a
  match a with
  | ⟨0, _⟩ => exact Fin.ext rfl

/-- A non-negative segment word is not wrapped. -/
private theorem wrap_of_nonneg (s : BitVec 32) (h : 0 ≤ s.toInt) :
    Scalar.select (IntOp.cmpi .slt s 0#32) (IntOp.addi s 144#32) s = s := by
  unfold IntOp.cmpi Scalar.select
  have : s.slt 0#32 = false := by
    simp only [BitVec.slt, decide_eq_false_iff_not]
    have : (0#32 : BitVec 32).toInt = 0 := by decide
    omega
  simp [this]

/-- The gather's start index at a pixel: the pixel's own segment word. -/
private theorem v28_at (x1 : IVec S16x1x720x1280 32) (hok : ∀ j, LabelOk (x1 j)) (r : Fin 16) (n : Fin 921600) :
    val_main_v28 (F := Ideal) x1 (ixP (flat r n)) = segOf r (G x1 (ix2 r n)) := by
  have e : idx_main_v28 (ixP (flat r n)) = ix1 (flat r n) := by
    funext a
    match a with
    | ⟨0, _⟩ => rfl
  rw [val_main_v28_apply, e, val_main_v27_apply, val_main_v24_apply, val_main_v26_apply, val_main_v23_apply, val_main_c_5_apply,
    val_main_v25_apply, val_main_c_6_apply, v11_at]
  exact wrap_of_nonneg _ (segOf_range r _ (labelOk_G x1 hok _)).1

/-- The mean gathered back at a pixel of row `b` whose label word is `l`: the mean of segment `9·b + l`. -/
private theorem v29_at (x0 : FVec Ideal S16x1x720x1280 .f32) (x1 : IVec S16x1x720x1280 32) (hok : ∀ j, LabelOk (x1 j))
    (b : Fin 16) (l : ℕ) (h1 : 1 ≤ l) (h8 : l ≤ 8) (n : Fin 921600) (hw : G x1 (ix2 b n) = lbl l) :
    val_main_v29 (F := Ideal) x0 x1 (ix1 (flat b n))
      = Ideal.div (tot (X x0) (G x1) b l) (max (cnt (G x1) b l) f1) := by
  have hb := b.isLt
  have hs : (val_main_v28 (F := Ideal) x1 (ixP (flat b n))).toInt = ((9 * b.val + l : ℕ) : Int) := by
    rw [v28_at x1 hok]
    exact (segOf_eq_iff b b _ (labelOk_G x1 hok _) l h1 h8).mpr ⟨rfl, hw⟩
  unfold val_main_v29
  refine (congrArg (Host.gather gather_S144_S14745600x1_S14745600_n_0_n_n_0_1_1 (val_main_v22 (F := Ideal) x0 x1)
    (val_main_v28 (F := Ideal) x1)) (ofFin_eq_ix1 (flat b n)).symm).trans ?_
  refine (gather_take gather_S144_S14745600x1_S14745600_n_0_n_n_0_1_1 rfl rfl rfl rfl
    (val_main_v22 (F := Ideal) x0 x1) (val_main_v28 (F := Ideal) x1) (flat b n) (by decide)).trans ?_
  -- the clamp into 0 … 143 is the identity on a segment number
  have hi : ∀ (k : ℕ) (hk : k < 144), k = 9 * b.val + l →
      val_main_v22 (F := Ideal) x0 x1 (Shape.Idx.ofFin (⟨k, hk⟩ : Fin 144)) = val_main_v22 (F := Ideal) x0 x1 (seg b l h8) := by
    intro k hk e; subst e; rw [ofFin_eq_ix1]
  refine (hi _ _ ?_).trans ?_
  · rw [hs]; omega
  -- the mean of that segment: its feature sum over its count raised to one
  rw [val_main_v22_apply, val_main_v21_apply, val_main_v20_apply, val_main_cst_4_apply,
    total_apply x0 x1 hok b l h1 h8, count_apply x1 hok b l h1 h8]
  rfl

/-- The hinge at a pixel of row `b` whose label word is `l`, against that label's mean. -/
private theorem v36_at (x0 : FVec Ideal S16x1x720x1280 .f32) (x1 : IVec S16x1x720x1280 32) (hok : ∀ j, LabelOk (x1 j))
    (b : Fin 16) (l : ℕ) (h1 : 1 ≤ l) (h8 : l ≤ 8) (n : Fin 921600) (hw : G x1 (ix2 b n) = lbl l) :
    val_main_v36 (F := Ideal) x0 x1 (ix1 (flat b n))
      = hinge (X x0 (ix2 b n)) (Ideal.div (tot (X x0) (G x1) b l) (max (cnt (G x1) b l) f1)) := by
  rw [val_main_v36_apply, val_main_v35_apply, val_main_v33_apply, val_main_v31_apply, val_main_v30_apply, v12_at,
    v29_at x0 x1 hok b l h1 h8 n hw, val_main_v34_apply, val_main_cst_8_apply, val_main_v32_apply, val_main_cst_7_apply]
  rfl

/-- The hinge segment sum at `(b, l)`: every pixel of the segment is hinged against the segment's own mean. -/
theorem hinge_apply (x0 : FVec Ideal S16x1x720x1280 .f32) (x1 : IVec S16x1x720x1280 32) (hok : ∀ j, LabelOk (x1 j))
    (b : Fin 16) (l : ℕ) (h1 : 1 ≤ l) (h8 : l ≤ 8) :
    val_main_v39 (F := Ideal) x0 x1 (seg b l h8)
      = hsum (X x0) (G x1) b l (Ideal.div (tot (X x0) (G x1) b l) (max (cnt (G x1) b l) f1)) := by
  unfold val_main_v39
  rw [show val_main_v38 (F := Ideal) x1 = val_main_v15 (F := Ideal) x1 from rfl,
    scatter_at x1 hok b l h1 h8 _ (by rw [val_main_v37_apply, val_main_cst_9_apply]; rfl)]
  unfold hsum
  refine Finset.sum_congr rfl fun n _ => ?_
  by_cases hw : G x1 (ix2 b n) = lbl l
  · rw [if_pos hw, if_pos hw, v36_at x0 x1 hok b l h1 h8 n hw]
  · rw [if_neg hw, if_neg hw, f0_eq]

end Cert.ReferenceIdeal.RefSeg

end
-- ==== Proof.RefVal.lean ====
import proofs.«410523_j1022202216834_3_alg».proof.Proof.RefRead
import proofs.«410523_j1022202216834_3_alg».proof.Proof.Spec
import proofs.«410523_j1022202216834_3_alg».proof.Proof.RefSeg
import Idealize.ShloMosaic.Lib.StableHlo.Predicate
import Idealize.ShloMosaic.Lib.Pipeline.Value
import Idealize.ShloMosaic.PureOps.Ideal.Laws

/-!
The reference's result read back stage by stage: its segment number of a pixel is nine times the row
plus the label (an ignore label first sent to 0), so under the precondition the three segment sums are
the per-(row, label) count, feature sum and hinge sum, the gather of the mean by segment number reads
the pixel's own label's mean, and the result is `loss` of the label means, the presence flags, a
fallback that is zero (zero times anything) and the pull sum as the reference adds it up.
-/

set_option maxRecDepth 16384

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.Read Cert.Spec

/-- The part of the program after the four inputs is `loss`, operation for operation. -/
theorem tail_eq {F : FTy → Type} [FloatOps F] (x0 : FVec F S16x1x720x1280 .f32) (x1 : IVec S16x1x720x1280 32) (f : TailFacts) :
    val_main_v98 (F := F) x0 x1
      = loss f (val_main_v62 (F := F) x0 x1) (val_main_v49 (F := F) x1) (val_main_v53 (F := F) x0) (val_main_v56 (F := F) x0 x1) := by
  unfold val_main_v98 val_main_v97 val_main_v96 val_main_v95 val_main_v94 val_main_v93 val_main_v92 val_main_v91 val_main_v90
    val_main_v89 val_main_v88 val_main_v87 val_main_v86 val_main_v85 val_main_v84 val_main_v83 val_main_v82 val_main_v81 val_main_v80
    val_main_v79 val_main_v78 val_main_v77 val_main_v76 val_main_v75 val_main_v74 val_main_v73 val_main_v72 val_main_v71 val_main_v70
    val_main_v69 val_main_v68 val_main_v67 val_main_v66 val_main_v65 val_main_v64 val_main_v63 val_main_v60 val_main_v59 val_main_v58
    val_main_v57 val_main_v54 val_main_v50
    val_main_cst_12 val_main_cst_16 val_main_cst_18 val_main_cst_19 val_main_c_20 val_main_cst_21 val_main_cst_22 val_main_cst_23
    val_main_cst_24 val_main_cst_25 val_main_cst_26 val_main_cst_27 val_main_cst_28
  rfl

/-- Element `(b, q)` of the labels' slice of a `[144] → [16, 9]` reshape is segment `9·b + (q + 1)`. -/
private theorem seg_idx (b : Fin 16) (q : Fin 8) :
    idx_main_v61 (idx_main_v62 (ix2 b q)) = RefSeg.seg b (q.val + 1) (by have := q.isLt; omega) := by
  funext a
  match a with
  | ⟨0, _⟩ => exact Fin.ext (by show b.val * 9 + (1 + q.val) = 9 * b.val + (q.val + 1); omega)

/-- The means' slice: sum over count (raised to one) at each of the labels 1 … 8. -/
theorem means_eq (x0 : FVec Ideal S16x1x720x1280 .f32) (x1 : IVec S16x1x720x1280 32) (hok : ∀ j, LabelOk (x1 j)) :
    val_main_v62 (F := Ideal) x0 x1 = means (RefSeg.X x0) (RefSeg.G x1) := by
  funext j
  obtain ⟨b, q, rfl⟩ : ∃ (b : Fin 16) (q : Fin 8), j = ix2 b q := ⟨j 0, j 1, eq_ix2 j⟩
  have hq := q.isLt
  rw [val_main_v62_apply, val_main_v61_apply, val_main_v22_apply, val_main_v21_apply, val_main_v20_apply,
    val_main_cst_4_apply, seg_idx b q,
    RefSeg.total_apply x0 x1 hok b (q.val + 1) (by omega) (by omega),
    RefSeg.count_apply x1 hok b (q.val + 1) (by omega) (by omega)]
  rfl

/-- The presence flags' slice: the count compared with zero at each of the labels 1 … 8. -/
theorem present_eq (x1 : IVec S16x1x720x1280 32) (hok : ∀ j, LabelOk (x1 j)) :
    val_main_v49 (F := Ideal) x1 = present (RefSeg.G x1) := by
  funext j
  obtain ⟨b, q, rfl⟩ : ∃ (b : Fin 16) (q : Fin 8), j = ix2 b q := ⟨j 0, j 1, eq_ix2 j⟩
  have hq := q.isLt
  have hidx : idx_main_v47 (idx_main_v48 (ix2 b q)) = RefSeg.seg b (q.val + 1) (by omega) := seg_idx b q
  rw [val_main_v49_apply, val_main_v48_apply, val_main_v47_apply, val_main_v46_apply, val_main_v45_apply,
    val_main_cst_11_apply, hidx, RefSeg.count_apply x1 hok b (q.val + 1) (by omega) (by omega)]
  rfl

/-- The fallback is zero times a quotient, and zero times any extended real is zero. -/
theorem fallback_eq (x0 : FVec Ideal S16x1x720x1280 .f32) :
    val_main_v53 (F := Ideal) x0 = fun _ => 0 := by
  funext i
  rw [val_main_v53_apply, val_main_cst_15_apply]
  show Ideal.ofBits .f32 0x00000000#32 * _ = 0
  rw [Ideal.ofBits_zero_f32, zero_mul]

/-- The pull sum: the `[16, 8]` sum row by row and label by label, each term the label's hinge sum over its count
    (raised to one) times its presence flag. -/
theorem pull_eq (x0 : FVec Ideal S16x1x720x1280 .f32) (x1 : IVec S16x1x720x1280 32) (hok : ∀ j, LabelOk (x1 j)) :
    val_main_v56 (F := Ideal) x0 x1 = fun _ => f0 + pullR (RefSeg.X x0) (RefSeg.G x1) := by
  funext i
  rw [val_main_v56_apply, val_main_cst_17_apply, sum_idx2]
  refine congrArg (fun s : EReal => f0 + s) ?_
  unfold pullR
  refine Finset.sum_congr rfl fun b _ => Finset.sum_congr rfl fun q _ => ?_
  have hq := q.isLt
  have hidx : idx_main_v43 (idx_main_v44 (ix2 b q)) = RefSeg.seg b (q.val + 1) (by omega) := seg_idx b q
  rw [val_main_v55_apply, val_main_v44_apply, val_main_v43_apply, val_main_v42_apply, val_main_v41_apply,
    val_main_v40_apply, val_main_cst_10_apply, hidx,
    RefSeg.hinge_apply x0 x1 hok b (q.val + 1) (by omega) (by omega),
    RefSeg.count_apply x1 hok b (q.val + 1) (by omega) (by omega), present_eq x1 hok]
  rfl

/-- The reference's result, for label words the precondition admits. -/
theorem result_eq (x0 : FVec Ideal S16x1x720x1280 .f32) (x1 : IVec S16x1x720x1280 32)
    (hok : ∀ j, LabelOk (x1 j)) (f : TailFacts) :
    val_main_v98 (F := Ideal) x0 x1
      = loss f (means (shapeCast SX x0 shapeCasts_S16x1x720x1280_S16x921600) (shapeCast SX x1 shapeCasts_S16x1x720x1280_S16x921600))
          (present (shapeCast SX x1 shapeCasts_S16x1x720x1280_S16x921600)) (fun _ => 0)
          (fun _ => f0 + pullR (shapeCast SX x0 shapeCasts_S16x1x720x1280_S16x921600) (shapeCast SX x1 shapeCasts_S16x1x720x1280_S16x921600)) := by
  rw [tail_eq x0 x1 f, means_eq x0 x1 hok, present_eq x1 hok, fallback_eq x0, pull_eq x0 x1 hok]

end Cert.ReferenceIdeal.RefVal

end
-- ==== Proof.Bridge.lean ====
import proofs.«410523_j1022202216834_3_alg».proof.Proof.Spec
import Idealize.ShloMosaic.PureOps.Ideal.Laws
import Mathlib.Data.EReal.Operations

/-!
The one law that joins the two pull sums.  The kernel adds, pixel by pixel, hinge · (presence / count)
of the pixel's own label; the reference adds, label by label, (hinge sum / count) · presence.  A pixel
has at most one of the labels 1 … 8, so the kernel's sum splits by label; a hinge is a square, hence
non-negative, so the common factor comes out of each label's sum; and `count` raised to one is not zero,
so dividing by it is multiplying by its inverse, which commutes with the other factor.
-/

noncomputable section

open scoped BigOperators

namespace Cert.Spec

open Idealize.ShloMosaic Idealize.ShloMosaic.ValueIdx

/-! ## Laws of the extended reals -/

/-- A sum of non-negative extended reals times a factor is the sum of the products. -/
private theorem sum_mul_of_nonneg {ι : Type} (s : Finset ι) (f : ι → EReal) (k : EReal)
    (hf : ∀ i ∈ s, 0 ≤ f i) : (∑ i ∈ s, f i) * k = ∑ i ∈ s, f i * k := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- Dividing by a non-zero extended real is multiplying by its inverse. -/
private theorem div_eq_mul_inv_of_ne_zero (a c : EReal) (hc : c ≠ 0) : Ideal.div a c = a * c⁻¹ := by
  unfold Ideal.div
  rw [if_neg hc]

/-- A count raised to one is not zero. -/
private theorem max_one_ne_zero (c : EReal) : max c f1 ≠ 0 :=
  (lt_of_lt_of_le (by rw [f1_eq]; exact zero_lt_one) (le_max_right c f1)).ne'

/-- A hinge is a square of a non-negative number. -/
private theorem hinge_nonneg (x μ : EReal) : 0 ≤ hinge x μ := by
  unfold hinge
  have h : (0 : EReal) ≤ max (FloatOps.absf (F := Ideal) (φ := .f32) (x - μ) - fhalf) f0 :=
    le_trans (le_of_eq f0_eq.symm) (le_max_right _ _)
  exact EReal.mul_nonneg h h

/-! ## The tables at a label's lane -/

/-- The lane of label `j + 1`. -/
private abbrev lane (j : Fin 8) : Fin 128 := ⟨j.val + 1, by omega⟩

private theorem cntTab_lane (g : IVec SX 32) (b : Fin 16) (j : Fin 8) :
    cntTab g (ix2 b (lane j)) = cnt g b (j.val + 1) := by
  have h : cntTab g (ix2 b (lane j))
      = if 1 ≤ j.val + 1 ∧ j.val + 1 ≤ 8 then cnt g b (j.val + 1) else 0 := rfl
  rw [h, if_pos ⟨by omega, by omega⟩]

private theorem totTab_lane (x : FVec Ideal SX .f32) (g : IVec SX 32) (b : Fin 16) (j : Fin 8) :
    totTab x g (ix2 b (lane j)) = tot x g b (j.val + 1) := by
  have h : totTab x g (ix2 b (lane j))
      = if 1 ≤ j.val + 1 ∧ j.val + 1 ≤ 8 then tot x g b (j.val + 1) else 0 := rfl
  rw [h, if_pos ⟨by omega, by omega⟩]

/-- The mean table at a label's lane: the label's sum over its count raised to one. -/
private theorem meanTab_lane (x : FVec Ideal SX .f32) (g : IVec SX 32) (b : Fin 16) (j : Fin 8) :
    meanTab (cntTab g) (totTab x g) (ix2 b (lane j))
      = Ideal.div (tot x g b (j.val + 1)) (max (cnt g b (j.val + 1)) f1) := by
  have h : meanTab (cntTab g) (totTab x g) (ix2 b (lane j))
      = Ideal.div (totTab x g (ix2 b (lane j))) (max (cntTab g (ix2 b (lane j))) f1) := rfl
  rw [h, cntTab_lane, totTab_lane]

/-- The weight table at a label's lane: the label's presence over its count raised to one. -/
private theorem wTab_lane (g : IVec SX 32) (b : Fin 16) (j : Fin 8) :
    wTab (cntTab g) (ix2 b (lane j))
      = Ideal.div (FloatOps.uitofp (F := Ideal) .f32
            (FloatOps.cmpf (F := Ideal) (φ := .f32) .ogt (cnt g b (j.val + 1)) f0))
          (max (cnt g b (j.val + 1)) f1) := by
  have h : wTab (cntTab g) (ix2 b (lane j))
      = Ideal.div (FloatOps.uitofp (F := Ideal) .f32
            (FloatOps.cmpf (F := Ideal) (φ := .f32) .ogt (cntTab g (ix2 b (lane j))) f0))
          (max (cntTab g (ix2 b (lane j))) f1) := rfl
  rw [h, cntTab_lane]

/-! ## A pixel's entry of a table, by label -/

/-- The eight label words are pairwise distinct. -/
private theorem lbl_ne : ∀ i j : Fin 8, i ≠ j → lbl (i.val + 1) ≠ lbl (j.val + 1) := by decide

/-- At the word of label `j + 1` the entry is the table's lane `j + 1`. -/
private theorem pick_lbl (t : FVec Ideal ST .f32) (b : Fin 16) (j : Fin 8) :
    pick t b (lbl (j.val + 1)) = t (ix2 b (lane j)) := by
  fin_cases j <;> simp +decide [pick, lane]

/-- At a word that is none of the eight labels' the entry is zero. -/
private theorem pick_none (t : FVec Ideal ST .f32) (b : Fin 16) (w : BitVec 32)
    (h : ∀ j : Fin 8, w ≠ lbl (j.val + 1)) : pick t b w = 0 := by
  have h8 : w ≠ lbl 8 := h 7
  have h7 : w ≠ lbl 7 := h 6
  have h6 : w ≠ lbl 6 := h 5
  have h5 : w ≠ lbl 5 := h 4
  have h4 : w ≠ lbl 4 := h 3
  have h3 : w ≠ lbl 3 := h 2
  have h2 : w ≠ lbl 2 := h 1
  have h1 : w ≠ lbl 1 := h 0
  unfold pick
  rw [if_neg h8, if_neg h7, if_neg h6, if_neg h5, if_neg h4, if_neg h3, if_neg h2, if_neg h1]
  exact f0_eq

/-- A pixel's term, split by label: a function of its mean-table entry times its weight-table entry is the
    sum over the labels of that product at the label's lane, where the pixel carries the label. -/
private theorem pick_term (t u : FVec Ideal ST .f32) (b : Fin 16) (w : BitVec 32) (F : EReal → EReal) :
    F (pick t b w) * pick u b w
      = ∑ j : Fin 8, if w = lbl (j.val + 1) then F (t (ix2 b (lane j))) * u (ix2 b (lane j)) else 0 := by
  by_cases h : ∃ j : Fin 8, w = lbl (j.val + 1)
  · obtain ⟨j, rfl⟩ := h
    rw [pick_lbl, pick_lbl, Finset.sum_eq_single j]
    · rw [if_pos rfl]
    · intro i _ hij
      rw [if_neg (lbl_ne j i (Ne.symm hij))]
    · intro hj
      exact absurd (Finset.mem_univ j) hj
  · have h' : ∀ j : Fin 8, w ≠ lbl (j.val + 1) := fun j hj => h ⟨j, hj⟩
    rw [pick_none u b w h', mul_zero]
    exact (Finset.sum_eq_zero fun j _ => if_neg (h' j)).symm

/-! ## One label of one row -/

/-- The label's share of the kernel's row sum is the reference's term for the label. -/
private theorem label_eq (x : FVec Ideal SX .f32) (g : IVec SX 32) (b : Fin 16) (j : Fin 8) :
    (∑ n : Fin 921600, if g (ix2 b n) = lbl (j.val + 1) then
        hinge (x (ix2 b n)) (meanTab (cntTab g) (totTab x g) (ix2 b (lane j)))
          * wTab (cntTab g) (ix2 b (lane j)) else 0)
      = Ideal.div (hsum x g b (j.val + 1) (Ideal.div (tot x g b (j.val + 1)) (max (cnt g b (j.val + 1)) f1)))
            (max (cnt g b (j.val + 1)) f1)
          * FloatOps.uitofp (F := Ideal) .f32
              (FloatOps.cmpf (F := Ideal) (φ := .f32) .ogt (cnt g b (j.val + 1)) f0) := by
  rw [meanTab_lane, wTab_lane]
  generalize Ideal.div (tot x g b (j.val + 1)) (max (cnt g b (j.val + 1)) f1) = μ
  generalize FloatOps.uitofp (F := Ideal) .f32
    (FloatOps.cmpf (F := Ideal) (φ := .f32) .ogt (cnt g b (j.val + 1)) f0) = v
  have hc : max (cnt g b (j.val + 1)) f1 ≠ 0 := max_one_ne_zero _
  generalize max (cnt g b (j.val + 1)) f1 = c at hc ⊢
  rw [div_eq_mul_inv_of_ne_zero _ c hc, div_eq_mul_inv_of_ne_zero _ c hc]
  -- the common factor comes out of the sum of the label's hinges
  have hs : hsum x g b (j.val + 1) μ
      = ∑ n : Fin 921600, if g (ix2 b n) = lbl (j.val + 1) then hinge (x (ix2 b n)) μ else 0 := by
    unfold hsum
    rw [f0_eq]
  have hsplit : ∀ n : Fin 921600,
      (if g (ix2 b n) = lbl (j.val + 1) then hinge (x (ix2 b n)) μ * (v * c⁻¹) else 0)
        = (if g (ix2 b n) = lbl (j.val + 1) then hinge (x (ix2 b n)) μ else 0) * (v * c⁻¹) := by
    intro n
    by_cases hp : g (ix2 b n) = lbl (j.val + 1)
    · rw [if_pos hp, if_pos hp]
    · rw [if_neg hp, if_neg hp, zero_mul]
  rw [Finset.sum_congr rfl fun n _ => hsplit n, ← sum_mul_of_nonneg, ← hs]
  · rw [mul_comm v, ← mul_assoc]
  · intro n _
    by_cases hp : g (ix2 b n) = lbl (j.val + 1)
    · rw [if_pos hp]; exact hinge_nonneg _ _
    · rw [if_neg hp]

/-! ## The two pull sums -/

/-- The two pull sums are equal, whatever the inputs. -/
theorem pullK_eq_pullR (x : FVec Ideal SX .f32) (g : IVec SX 32) : pullK x g = pullR x g := by
  unfold pullK pullR
  refine Finset.sum_congr rfl fun b _ => ?_
  calc (∑ n : Fin 921600,
          hinge (x (ix2 b n)) (pick (meanTab (cntTab g) (totTab x g)) b (g (ix2 b n)))
            * pick (wTab (cntTab g)) b (g (ix2 b n)))
      = ∑ n : Fin 921600, ∑ j : Fin 8, if g (ix2 b n) = lbl (j.val + 1) then
          hinge (x (ix2 b n)) (meanTab (cntTab g) (totTab x g) (ix2 b (lane j)))
            * wTab (cntTab g) (ix2 b (lane j)) else 0 :=
        Finset.sum_congr rfl fun n _ =>
          pick_term (meanTab (cntTab g) (totTab x g)) (wTab (cntTab g)) b (g (ix2 b n)) (hinge (x (ix2 b n)))
    _ = ∑ j : Fin 8, ∑ n : Fin 921600, if g (ix2 b n) = lbl (j.val + 1) then
          hinge (x (ix2 b n)) (meanTab (cntTab g) (totTab x g) (ix2 b (lane j)))
            * wTab (cntTab g) (ix2 b (lane j)) else 0 := Finset.sum_comm
    _ = _ := Finset.sum_congr rfl fun j _ => label_eq x g b j

end Cert.Spec

end
-- ==== Proof.lean ====
import proofs.«410523_j1022202216834_3_alg».proof.Defs
import proofs.«410523_j1022202216834_3_alg».proof.Proof.Gen.Kernel
import proofs.«410523_j1022202216834_3_alg».proof.Proof.Gen.Kernel.Skeleton
import proofs.«410523_j1022202216834_3_alg».proof.Proof.Gen.Kernel.Launch
import proofs.«410523_j1022202216834_3_alg».proof.Proof.Gen.Kernel.Points
import proofs.«410523_j1022202216834_3_alg».proof.Proof.Gen.Kernel.Frame
import proofs.«410523_j1022202216834_3_alg».proof.Proof.Gen.KernelIdeal
import proofs.«410523_j1022202216834_3_alg».proof.Proof.Gen.KernelIdeal.Skeleton
import proofs.«410523_j1022202216834_3_alg».proof.Proof.Gen.KernelIdeal.Launch
import proofs.«410523_j1022202216834_3_alg».proof.Proof.Gen.KernelIdeal.Points
import proofs.«410523_j1022202216834_3_alg».proof.Proof.Gen.KernelIdeal.Frame
import proofs.«410523_j1022202216834_3_alg».proof.Proof.Gen.ReferenceIdeal
import proofs.«410523_j1022202216834_3_alg».proof.Proof.Gen.Pre_finite_inputs
import proofs.«410523_j1022202216834_3_alg».proof.Proof.RefRun
import proofs.«410523_j1022202216834_3_alg».proof.Proof.RefRead
import proofs.«410523_j1022202216834_3_alg».proof.Proof.Spec
import proofs.«410523_j1022202216834_3_alg».proof.Proof.PreFacts
import proofs.«410523_j1022202216834_3_alg».proof.Proof.RunK
import proofs.«410523_j1022202216834_3_alg».proof.Proof.HostK
import proofs.«410523_j1022202216834_3_alg».proof.Proof.RefVal
import proofs.«410523_j1022202216834_3_alg».proof.Proof.Bridge
import Idealize.ShloMosaic.Adequacy
import Idealize.ShloMosaic.Init

/-!
The push-pull loss of a feature map against integer labels: a kernel program of two passes (per-row,
per-label counts and sums; then the hinge of every pixel against its own label's mean) against a
reference that sums by segment.

Under the precondition — every label word is one of 0 … 8 or an ignore label — the reference's
segment number `9·row + label` stays inside its row's nine segments, so its segment sums are the
kernel's per-(row, label) tables, the label means and presence flags of the two programs are the same
arrays, both fallbacks are zero times something, and the two pull sums are one sum arranged two ways
(`Cert.Spec.pullK_eq_pullR`).  Everything after that the two programs share word for word
(`Cert.Spec.loss`).
-/

noncomputable section

namespace Cert.Proof

open Idealize.ShloMosaic Idealize.SL.Sem Cert.Spec

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end at `loss` of the same label means and presence flags, a zero fallback, and pull sums that are
    equal. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => loss tailFacts (means (Cert.KernelIdeal.HostK.X m c) (Cert.KernelIdeal.HostK.G m c))
      (present (Cert.KernelIdeal.HostK.G m c)) (fun _ => 0)
      (fun _ => f0 + pullK (Cert.KernelIdeal.HostK.X m c) (Cert.KernelIdeal.HostK.G m c)), ?_, ?_⟩
  · exact (θ_run Cert.KernelIdeal.defs _ _).mono
      (fun r h c => ⟨(h c).1.trans (Cert.KernelIdeal.HostK.result_eq m ρ c tailFacts), (h c).2.1, (h c).2.2⟩)
      (Cert.KernelIdeal.RunK.run_value (F := Ideal) m ρ)
  · refine (θ_run Cert.ReferenceIdeal.defs _ _).mono (fun r h c => ⟨?_, (h c).2.1, (h c).2.2⟩)
      (Cert.ReferenceIdeal.Value.run (F := Ideal) m' ρ')
    have hok := Cert.PreFacts.labels_of_pre _ _ (hpre c)
    refine (h c).1.trans ?_
    rw [Cert.ReferenceIdeal.Read.val_main_v98_eq, (hagree c).1, (hagree c).2,
      Cert.ReferenceIdeal.RefVal.result_eq _ _ hok tailFacts, ← pullK_eq_pullR]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
